-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x64 : Shape := ⟨2, ![1000000, 64]⟩
abbrev S1000000 : Shape := ⟨1, ![1000000]⟩
abbrev S1x64 : Shape := ⟨2, ![1, 64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S1000000 : S_.BroadcastsInDim S1000000 (![] : Fin 0 → Fin S1000000.rank)
  reducesTo_S1000000_S_d0 : S1000000.ReducesTo [0] S_

variable [Facts]

def fn_part1 {F : FTy → Type} [FloatOps F] (main_arg1 : IVec S1000000 32) (main_v13 : IVec S_ 1) (main_v15 : IVec S1000000 1) (main_c_5 : IVec S_ 32) : IVec S_ 1 :=
  let main_v16 : IVec S1000000 32 := broadcastInDim S1000000 ![] bcast_S_S1000000 main_c_5
  let main_v17 : IVec S1000000 1 := cmpi .slt main_arg1 main_v16
  let main_v18 : IVec S1000000 1 := andi main_v15 main_v17
  let main_c_6 : IVec S_ 1 := constantI S_ 1 1#1
  let main_v19 : IVec S_ 1 := (fun x v => Host.reduce IntOp.andi x v reducesTo_S1000000_S_d0 h_S_) main_v18 main_c_6
  let main_v20 : IVec S_ 1 := andi main_v13 main_v19
  main_v20

def fn {F : FTy → Type} [FloatOps F] (main_arg0 : FVec F S1000000x64 .f32) (main_arg1 : IVec S1000000 32) (main_arg2 : FVec F S1x64 .f32) (main_arg3 : FVec F S1x64 .f32) : IVec S_ 1 :=
  let main_v0 : FVec F S1000000x64 .f32 := Host.absf main_arg0
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S1x64 .f32 := Host.absf main_arg2
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S1x64 .f32 := Host.absf main_arg3
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_c_4 : IVec S_ 32 := constantI S_ 32 0#32
  let main_v14 : IVec S1000000 32 := broadcastInDim S1000000 ![] bcast_S_S1000000 main_c_4
  let main_v15 : IVec S1000000 1 := cmpi .sge main_arg1 main_v14
  let main_c_5 : IVec S_ 32 := constantI S_ 32 16#32
  fn_part1 (F := F) main_arg1 main_v13 main_v15 main_c_5
-- ==== Kernel.lean ====
abbrev S1000000x64 : Shape := ⟨2, ![1000000, 64]⟩
abbrev S1000000 : Shape := ⟨1, ![1000000]⟩
abbrev S1x64 : Shape := ⟨2, ![1, 64]⟩
abbrev S1000000x1 : Shape := ⟨2, ![1000000, 1]⟩
abbrev S16x64 : Shape := ⟨2, ![16, 64]⟩
abbrev S16x1 : Shape := ⟨2, ![16, 1]⟩
abbrev S20000x64 : Shape := ⟨2, ![20000, 64]⟩
abbrev S20000x1 : Shape := ⟨2, ![20000, 1]⟩
abbrev S64 : Shape := ⟨1, ![64]⟩
abbrev S1x1 : Shape := ⟨2, ![1, 1]⟩
abbrev S1 : Shape := ⟨1, ![1]⟩
abbrev S16x8x8 : Shape := ⟨3, ![16, 8, 8]⟩
abbrev S_ : Shape := ⟨0, ![]⟩
abbrev S16x8 : Shape := ⟨2, ![16, 8]⟩
abbrev S16 : Shape := ⟨1, ![16]⟩
abbrev S2000x64 : Shape := ⟨2, ![2000, 64]⟩
abbrev S2000x1 : Shape := ⟨2, ![2000, 1]⟩
abbrev S2000x16 : Shape := ⟨2, ![2000, 16]⟩
abbrev S2000x8 : Shape := ⟨2, ![2000, 8]⟩

abbrev nBuf : Space → Nat
  | .hbm => 39
  | .vmem => 17
  | .smem => 0
  | _ => 0

abbrev bufTy : (tb : Table) → Fin (tcTables nBuf tb) → BufTy
  | .hbm, ⟨0, _⟩ => ⟨S1000000x64, .f32⟩
  | .hbm, ⟨1, _⟩ => ⟨S1000000, .i32⟩
  | .hbm, ⟨2, _⟩ => ⟨S1x64, .f32⟩
  | .hbm, ⟨3, _⟩ => ⟨S1x64, .f32⟩
  | .hbm, ⟨4, _⟩ => ⟨S1000000x1, .i32⟩
  | .hbm, ⟨5, _⟩ => ⟨S16x64, .f32⟩
  | .hbm, ⟨6, _⟩ => ⟨S16x64, .f32⟩
  | .hbm, ⟨7, _⟩ => ⟨S16x1, .f32⟩
  | .hbm, ⟨8, _⟩ => ⟨S16x8x8, .f32⟩
  | .hbm, ⟨9, _⟩ => ⟨S16x8x8, .f32⟩
  | .hbm, ⟨10, _⟩ => ⟨S_, .f32⟩
  | .hbm, ⟨11, _⟩ => ⟨S16x8, .f32⟩
  | .hbm, ⟨12, _⟩ => ⟨S_, .f32⟩
  | .hbm, ⟨13, _⟩ => ⟨S16x8, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S16x1, .f32⟩
  | .hbm, ⟨22, _⟩ => ⟨S16x8, .f32⟩
  | .hbm, ⟨23, _⟩ => ⟨S16x8, .f32⟩
  | .hbm, ⟨24, _⟩ => ⟨S16x8, .f32⟩
  | .hbm, ⟨25, _⟩ => ⟨S16x8, .f32⟩
  | .hbm, ⟨26, _⟩ => ⟨S16x8, .f32⟩
  | .hbm, ⟨27, _⟩ => ⟨S16x8, .f32⟩
  | .hbm, ⟨28, _⟩ => ⟨S_, .f32⟩
  | .hbm, ⟨29, _⟩ => ⟨S16x8, .f32⟩
  | .hbm, ⟨30, _⟩ => ⟨S16x8, .f32⟩
  | .hbm, ⟨31, _⟩ => ⟨S_, .f32⟩
  | .hbm, ⟨32, _⟩ => ⟨S16x8, .f32⟩
  | .hbm, ⟨33, _⟩ => ⟨S16x8, .f32⟩
  | .hbm, ⟨34, _⟩ => ⟨S16x8, .f32⟩
  | .hbm, ⟨35, _⟩ => ⟨S_, .f32⟩
  | .hbm, ⟨36, _⟩ => ⟨S16x8, .f32⟩
  | .hbm, ⟨37, _⟩ => ⟨S16x8, .f32⟩
  | .hbm, ⟨38, _⟩ => ⟨S1000000x64, .f32⟩
  | .local _ .vmem, ⟨0, _⟩ => ⟨S20000x64, .f32⟩
  | .local _ .vmem, ⟨1, _⟩ => ⟨S20000x64, .f32⟩
  | .local _ .vmem, ⟨2, _⟩ => ⟨S20000x1, .i32⟩
  | .local _ .vmem, ⟨3, _⟩ => ⟨S20000x1, .i32⟩
  | .local _ .vmem, ⟨4, _⟩ => ⟨S16x64, .f32⟩
  | .local _ .vmem, ⟨5, _⟩ => ⟨S16x64, .f32⟩
  | .local _ .vmem, ⟨6, _⟩ => ⟨S16x1, .f32⟩
  | .local _ .vmem, ⟨7, _⟩ => ⟨S2000x64, .f32⟩
  | .local _ .vmem, ⟨8, _⟩ => ⟨S2000x64, .f32⟩
  | .local _ .vmem, ⟨9, _⟩ => ⟨S2000x1, .i32⟩
  | .local _ .vmem, ⟨10, _⟩ => ⟨S2000x1, .i32⟩
  | .local _ .vmem, ⟨11, _⟩ => ⟨S16x8, .f32⟩
  | .local _ .vmem, ⟨12, _⟩ => ⟨S16x8, .f32⟩
  | .local _ .vmem, ⟨13, _⟩ => ⟨S1x64, .f32⟩
  | .local _ .vmem, ⟨14, _⟩ => ⟨S1x64, .f32⟩
  | .local _ .vmem, ⟨15, _⟩ => ⟨S2000x64, .f32⟩
  | .local _ .vmem, ⟨16, _⟩ => ⟨S2000x64, .f32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S20000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![500], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S1000000_S1000000x1 : S1000000.ShapeCasts S1000000x1
  inb_S16x64_S16x64_0_0 : ∀ a, (![0, 0] : Fin 2 → Nat) a + S16x64.size a ≤ S16x64.size a
  h_S16x64 : 0 < S16x64.numel
  inb_S16x1_S16x1_0_0 : ∀ a, (![0, 0] : Fin 2 → Nat) a + S16x1.size a ≤ S16x1.size a
  h_S16x1 : 0 < S16x1.numel
  inb_S20000x64_S20000x64_0_0 : ∀ a, (![0, 0] : Fin 2 → Nat) a + S20000x64.size a ≤ S20000x64.size a
  h_S20000x64 : 0 < S20000x64.numel
  inb_S20000x1_S20000x1_0_0 : ∀ a, (![0, 0] : Fin 2 → Nat) a + S20000x1.size a ≤ S20000x1.size a
  h_S20000x1 : 0 < S20000x1.numel
  shapeCasts_S20000x1_S20000x1 : S20000x1.ShapeCasts S20000x1
  natLt_1_32 : 1 < 32
  broadcasts_S20000x1_S20000x64 : S20000x1.Broadcasts S20000x64
  inb_S16x64_S1x64_0_0 : ∀ a, (![0, 0] : Fin 2 → Nat) a + S1x64.size a ≤ S16x64.size a
  h_S1x64 : 0 < S1x64.numel
  shapeCasts_S1x64_S1x64 : S1x64.ShapeCasts S1x64
  reduces_S20000x64_S64 : S20000x64.Reduces [0] S64
  shapeCasts_S64_S1x64 : S64.ShapeCasts S1x64
  inb_S16x1_S1x1_0_0 : ∀ a, (![0, 0] : Fin 2 → Nat) a + S1x1.size a ≤ S16x1.size a
  h_S1x1 : 0 < S1x1.numel
  shapeCasts_S1x1_S1x1 : S1x1.ShapeCasts S1x1
  reduces_S20000x1_S1 : S20000x1.Reduces [0] S1
  shapeCasts_S1_S1x1 : S1.ShapeCasts S1x1
  inb_S16x64_S1x64_1_0 : ∀ a, (![1, 0] : Fin 2 → Nat) a + S1x64.size a ≤ S16x64.size a
  inb_S16x1_S1x1_1_0 : ∀ a, (![1, 0] : Fin 2 → Nat) a + S1x1.size a ≤ S16x1.size a
  inb_S16x64_S1x64_2_0 : ∀ a, (![2, 0] : Fin 2 → Nat) a + S1x64.size a ≤ S16x64.size a
  inb_S16x1_S1x1_2_0 : ∀ a, (![2, 0] : Fin 2 → Nat) a + S1x1.size a ≤ S16x1.size a
  inb_S16x64_S1x64_3_0 : ∀ a, (![3, 0] : Fin 2 → Nat) a + S1x64.size a ≤ S16x64.size a
  inb_S16x1_S1x1_3_0 : ∀ a, (![3, 0] : Fin 2 → Nat) a + S1x1.size a ≤ S16x1.size a
  inb_S16x64_S1x64_4_0 : ∀ a, (![4, 0] : Fin 2 → Nat) a + S1x64.size a ≤ S16x64.size a
  inb_S16x1_S1x1_4_0 : ∀ a, (![4, 0] : Fin 2 → Nat) a + S1x1.size a ≤ S16x1.size a
  inb_S16x64_S1x64_5_0 : ∀ a, (![5, 0] : Fin 2 → Nat) a + S1x64.size a ≤ S16x64.size a
  inb_S16x1_S1x1_5_0 : ∀ a, (![5, 0] : Fin 2 → Nat) a + S1x1.size a ≤ S16x1.size a
  inb_S16x64_S1x64_6_0 : ∀ a, (![6, 0] : Fin 2 → Nat) a + S1x64.size a ≤ S16x64.size a
  inb_S16x1_S1x1_6_0 : ∀ a, (![6, 0] : Fin 2 → Nat) a + S1x1.size a ≤ S16x1.size a
  inb_S16x64_S1x64_7_0 : ∀ a, (![7, 0] : Fin 2 → Nat) a + S1x64.size a ≤ S16x64.size a
  inb_S16x1_S1x1_7_0 : ∀ a, (![7, 0] : Fin 2 → Nat) a + S1x1.size a ≤ S16x1.size a
  inb_S16x64_S1x64_8_0 : ∀ a, (![8, 0] : Fin 2 → Nat) a + S1x64.size a ≤ S16x64.size a
  inb_S16x1_S1x1_8_0 : ∀ a, (![8, 0] : Fin 2 → Nat) a + S1x1.size a ≤ S16x1.size a
  inb_S16x64_S1x64_9_0 : ∀ a, (![9, 0] : Fin 2 → Nat) a + S1x64.size a ≤ S16x64.size a
  inb_S16x1_S1x1_9_0 : ∀ a, (![9, 0] : Fin 2 → Nat) a + S1x1.size a ≤ S16x1.size a
  inb_S16x64_S1x64_10_0 : ∀ a, (![10, 0] : Fin 2 → Nat) a + S1x64.size a ≤ S16x64.size a
  inb_S16x1_S1x1_10_0 : ∀ a, (![10, 0] : Fin 2 → Nat) a + S1x1.size a ≤ S16x1.size a
  inb_S16x64_S1x64_11_0 : ∀ a, (![11, 0] : Fin 2 → Nat) a + S1x64.size a ≤ S16x64.size a
  inb_S16x1_S1x1_11_0 : ∀ a, (![11, 0] : Fin 2 → Nat) a + S1x1.size a ≤ S16x1.size a
  inb_S16x64_S1x64_12_0 : ∀ a, (![12, 0] : Fin 2 → Nat) a + S1x64.size a ≤ S16x64.size a
  inb_S16x1_S1x1_12_0 : ∀ a, (![12, 0] : Fin 2 → Nat) a + S1x1.size a ≤ S16x1.size a
  inb_S16x64_S1x64_13_0 : ∀ a, (![13, 0] : Fin 2 → Nat) a + S1x64.size a ≤ S16x64.size a
  inb_S16x1_S1x1_13_0 : ∀ a, (![13, 0] : Fin 2 → Nat) a + S1x1.size a ≤ S16x1.size a
  inb_S16x64_S1x64_14_0 : ∀ a, (![14, 0] : Fin 2 → Nat) a + S1x64.size a ≤ S16x64.size a
  inb_S16x1_S1x1_14_0 : ∀ a, (![14, 0] : Fin 2 → Nat) a + S1x1.size a ≤ S16x1.size a
  inb_S16x64_S1x64_15_0 : ∀ a, (![15, 0] : Fin 2 → Nat) a + S1x64.size a ≤ S16x64.size a
  inb_S16x1_S1x1_15_0 : ∀ a, (![15, 0] : Fin 2 → Nat) a + S1x1.size a ≤ S16x1.size a
  shapeCasts_S16x64_S16x8x8 : S16x64.ShapeCasts S16x8x8
  reducesTo_S16x8x8_S16x8_d1 : S16x8x8.ReducesTo [1] S16x8
  h_S_ : 0 < S_.numel
  shapeCasts_S16x1_S16 : S16x1.ShapeCasts S16
  bcast_S_S16 : S_.BroadcastsInDim S16 (![] : Fin 0 → Fin S16.rank)
  bcast_S16_S16x1_0 : S16.BroadcastsInDim S16x1 (![0] : Fin 1 → Fin S16x1.rank)
  bcast_S16x1_S16x8_0_1 : S16x1.BroadcastsInDim S16x8 (![0, 1] : Fin 2 → Fin S16x8.rank)
  bcast_S_S16x8 : S_.BroadcastsInDim S16x8 (![] : Fin 0 → Fin S16x8.rank)
  inb_S2000x64_S2000x64_0_0 : ∀ a, (![0, 0] : Fin 2 → Nat) a + S2000x64.size a ≤ S2000x64.size a
  h_S2000x64 : 0 < S2000x64.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x16_d1_w32 : S2000x16.Iotas .tc 32 [1]
  broadcasts_S2000x1_S2000x16 : S2000x1.Broadcasts S2000x16
  inb_S16x8_S16x8_0_0 : ∀ a, (![0, 0] : Fin 2 → Nat) a + S16x8.size a ≤ S16x8.size a
  h_S16x8 : 0 < S16x8.numel
  shapeCasts_S16x8_S16x8 : S16x8.ShapeCasts S16x8
  concatenates_S2000x8_S2000x8_S2000x8_S2000x8_S2000x8_S2000x8_S2000x8_S2000x8_S2000x64_d1 : Shape.Concatenates [S2000x8, S2000x8, S2000x8, S2000x8, S2000x8, S2000x8, S2000x8, S2000x8] S2000x64 1
  inb_S1x64_S1x64_0_0 : ∀ a, (![0, 0] : Fin 2 → Nat) a + S1x64.size a ≤ S1x64.size a
  broadcasts_S1x64_S2000x64 : S1x64.Broadcasts S2000x64
  dot_S2000x16_S16x8_S2000x8_1_0_0_1_n_n_wf : DotDims.WF S2000x16 S16x8 S2000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x64.size a ≤ S1000000x64.size a
  hwx0_0 : ∀ i : grid0.Coords, EltTy.bits .f32 = 32 ∨ (Rect.block (s := S1000000x64) S20000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S20000x1.size a ≤ S1000000x1.size a
  hwx0_1 : ∀ i : grid0.Coords, EltTy.bits .i32 = 32 ∨ (Rect.block (s := S1000000x1) S20000x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x64.size a ≤ S16x64.size a
  hwx0_2 : ∀ i : grid0.Coords, EltTy.bits .f32 = 32 ∨ (Rect.block (s := S16x64) S16x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x64.size a ≤ S16x64.size a
  hwx0_3 : ∀ i : grid0.Coords, EltTy.bits .f32 = 32 ∨ (Rect.block (s := S16x64) S16x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x1.size a ≤ S16x1.size a
  hwx0_4 : ∀ i : grid0.Coords, EltTy.bits .f32 = 32 ∨ (Rect.block (s := S16x1) S16x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S1000000x64.size a
  hwx1_0 : ∀ i : grid1.Coords, EltTy.bits .f32 = 32 ∨ (Rect.block (s := S1000000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S1000000x1.size a
  hwx1_1 : ∀ i : grid1.Coords, EltTy.bits .i32 = 32 ∨ (Rect.block (s := S1000000x1) S2000x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x8.size a ≤ S16x8.size a
  hwx1_2 : ∀ i : grid1.Coords, EltTy.bits .f32 = 32 ∨ (Rect.block (s := S16x8) S16x8.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x8.size a ≤ S16x8.size a
  hwx1_3 : ∀ i : grid1.Coords, EltTy.bits .f32 = 32 ∨ (Rect.block (s := S16x8) S16x8.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x64.size a ≤ S1000000x64.size a
  hwx1_6 : ∀ i : grid1.Coords, EltTy.bits .f32 = 32 ∨ (Rect.block (s := S1000000x64) S2000x64.size (cc1_transform_6 i) (hinb1_6 i)).WholeWords (EltTy.packing .f32)

variable [Facts₀]

def dot_S2000x16_S16x8_S2000x8_1_0_0_1_n_n : DotDims S2000x16 S16x8 S2000x8 where
  lhsContracting := [1]
  rhsContracting := [0]
  lhsNonContracting := [0]
  rhsNonContracting := [1]
  lhsBatch := []
  rhsBatch := []
  wf := dot_S2000x16_S16x8_S2000x8_1_0_0_1_n_n_wf

abbrev win0_0 : Pipeline.Window sig grid0 :=
  Pipeline.Window.ofSpec (Memref.whole main_arg0) S20000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S20000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S16x64.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S16x64.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S16x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S16x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S16x8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg3) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v25) S2000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S1000000x64 : Shape := ⟨2, ![1000000, 64]⟩
abbrev S1000000 : Shape := ⟨1, ![1000000]⟩
abbrev S1x64 : Shape := ⟨2, ![1, 64]⟩
abbrev S8000000x8 : Shape := ⟨2, ![8000000, 8]⟩
abbrev S1000000x8 : Shape := ⟨2, ![1000000, 8]⟩
abbrev S8000000 : Shape := ⟨1, ![8000000]⟩
abbrev S_ : Shape := ⟨0, ![]⟩
abbrev S16 : Shape := ⟨1, ![16]⟩
abbrev S8000000x1 : Shape := ⟨2, ![8000000, 1]⟩
abbrev S16x1 : Shape := ⟨2, ![16, 1]⟩
abbrev S16x8 : Shape := ⟨2, ![16, 8]⟩

abbrev nBuf : Space → Nat
  | .hbm => 60
  | .vmem => 0
  | .smem => 0
  | _ => 0

abbrev bufTy : (tb : Table) → Fin (tcTables nBuf tb) → BufTy
  | .hbm, ⟨0, _⟩ => ⟨S1000000x64, .f32⟩
  | .hbm, ⟨1, _⟩ => ⟨S1000000, .i32⟩
  | .hbm, ⟨2, _⟩ => ⟨S1x64, .f32⟩
  | .hbm, ⟨3, _⟩ => ⟨S1x64, .f32⟩
  | .hbm, ⟨4, _⟩ => ⟨S8000000x8, .f32⟩
  | .hbm, ⟨5, _⟩ => ⟨S1000000x8, .i32⟩
  | .hbm, ⟨6, _⟩ => ⟨S8000000, .i32⟩
  | .hbm, ⟨7, _⟩ => ⟨S_, .f32⟩
  | .hbm, ⟨8, _⟩ => ⟨S8000000, .f32⟩
  | .hbm, ⟨9, _⟩ => ⟨S_, .f32⟩
  | .hbm, ⟨10, _⟩ => ⟨S16, .f32⟩
  | .hbm, ⟨11, _⟩ => ⟨S8000000x1, .i32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S16x1, .f32⟩
  | .hbm, ⟨17, _⟩ => ⟨S_, .f32⟩
  | .hbm, ⟨18, _⟩ => ⟨S16x8, .f32⟩
  | .hbm, ⟨19, _⟩ => ⟨S8000000x1, .i32⟩
  | .hbm, ⟨20, _⟩ => ⟨S16x8, .f32⟩
  | .hbm, ⟨21, _⟩ => ⟨S16x8, .f32⟩
  | .hbm, ⟨22, _⟩ => ⟨S16x8, .f32⟩
  | .hbm, ⟨23, _⟩ => ⟨S_, .i32⟩
  | .hbm, ⟨24, _⟩ => ⟨S8000000, .i32⟩
  | .hbm, ⟨25, _⟩ => ⟨S8000000, .i1⟩
  | .hbm, ⟨26, _⟩ => ⟨S_, .i32⟩
  | .hbm, ⟨27, _⟩ => ⟨S8000000, .i32⟩
  | .hbm, ⟨28, _⟩ => ⟨S8000000, .i32⟩
  | .hbm, ⟨29, _⟩ => ⟨S8000000, .i32⟩
  | .hbm, ⟨30, _⟩ => ⟨S8000000x1, .i32⟩
  | .hbm, ⟨31, _⟩ => ⟨S8000000x8, .f32⟩
  | .hbm, ⟨32, _⟩ => ⟨S8000000x8, .f32⟩
  | .hbm, ⟨33, _⟩ => ⟨S8000000x8, .f32⟩
  | .hbm, ⟨34, _⟩ => ⟨S_, .f32⟩
  | .hbm, ⟨35, _⟩ => ⟨S16x8, .f32⟩
  | .hbm, ⟨36, _⟩ => ⟨S8000000x1, .i32⟩
  | .hbm, ⟨37, _⟩ => ⟨S16x8, .f32⟩
  | .hbm, ⟨38, _⟩ => ⟨S16x8, .f32⟩
  | .hbm, ⟨39, _⟩ => ⟨S16x8, .f32⟩
  | .hbm, ⟨40, _⟩ => ⟨S8000000x8, .f32⟩
  | .hbm, ⟨41, _⟩ => ⟨S_, .i32⟩
  | .hbm, ⟨42, _⟩ => ⟨S8000000, .i32⟩
  | .hbm, ⟨43, _⟩ => ⟨S8000000, .i1⟩
  | .hbm, ⟨44, _⟩ => ⟨S_, .i32⟩
  | .hbm, ⟨45, _⟩ => ⟨S8000000, .i32⟩
  | .hbm, ⟨46, _⟩ => ⟨S8000000, .i32⟩
  | .hbm, ⟨47, _⟩ => ⟨S8000000, .i32⟩
  | .hbm, ⟨48, _⟩ => ⟨S8000000x1, .i32⟩
  | .hbm, ⟨49, _⟩ => ⟨S8000000x8, .f32⟩
  | .hbm, ⟨50, _⟩ => ⟨S_, .f32⟩
  | .hbm, ⟨51, _⟩ => ⟨S8000000x8, .f32⟩
  | .hbm, ⟨52, _⟩ => ⟨S8000000x8, .f32⟩
  | .hbm, ⟨53, _⟩ => ⟨S8000000x8, .f32⟩
  | .hbm, ⟨54, _⟩ => ⟨S8000000x8, .f32⟩
  | .hbm, ⟨55, _⟩ => ⟨S1000000x64, .f32⟩
  | .hbm, ⟨56, _⟩ => ⟨S1000000x64, .f32⟩
  | .hbm, ⟨57, _⟩ => ⟨S1000000x64, .f32⟩
  | .hbm, ⟨58, _⟩ => ⟨S1000000x64, .f32⟩
  | .hbm, ⟨59, _⟩ => ⟨S1000000x64, .f32⟩
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_5 : Ref sig .tc := ⟨.hbm, 41, rfl⟩
abbrev main_v30 : Ref sig .tc := ⟨.hbm, 42, rfl⟩
abbrev main_v31 : Ref sig .tc := ⟨.hbm, 43, rfl⟩
abbrev main_c_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]

class Facts₀ : Prop where
  shapeCasts_S1000000x64_S8000000x8 : S1000000x64.ShapeCasts S8000000x8
  bcast_S1000000_S1000000x8_0 : S1000000.BroadcastsInDim S1000000x8 (![0] : Fin 1 → Fin S1000000x8.rank)
  shapeCasts_S1000000x8_S8000000 : S1000000x8.ShapeCasts S8000000
  bcast_S_S8000000 : S_.BroadcastsInDim S8000000 (![] : Fin 0 → Fin S8000000.rank)
  bcast_S_S16 : S_.BroadcastsInDim S16 (![] : Fin 0 → Fin S16.rank)
  bcast_S8000000_S8000000x1_0 : S8000000.BroadcastsInDim S8000000x1 (![0] : Fin 1 → Fin S8000000x1.rank)
  bcast_S16_S16x1_0 : S16.BroadcastsInDim S16x1 (![0] : Fin 1 → Fin S16x1.rank)
  bcast_S_S16x8 : S_.BroadcastsInDim S16x8 (![] : Fin 0 → Fin S16x8.rank)
  bcast_S16x1_S16x8_0_1 : S16x1.BroadcastsInDim S16x8 (![0, 1] : Fin 2 → Fin S16x8.rank)
  bcast_S_S8000000x8 : S_.BroadcastsInDim S8000000x8 (![] : Fin 0 → Fin S8000000x8.rank)
  shapeCasts_S8000000x8_S1000000x64 : S8000000x8.ShapeCasts S1000000x64
  bcast_S1x64_S1000000x64_0_1 : S1x64.BroadcastsInDim S1000000x64 (![0, 1] : Fin 2 → Fin S1000000x64.rank)
  scatter_S16_S8000000x1_S8000000_n_0_0_1_wf : ScatterDims.WF S16 S8000000x1 S8000000 [] [0] [0] 1
  scatter_S16x8_S8000000x1_S8000000x8_1_0_0_1_wf : ScatterDims.WF S16x8 S8000000x1 S8000000x8 [1] [0] [0] 1
  gather_S16x8_S8000000x1_S8000000x8_1_0_n_n_0_1_18_wf : GatherDims.WF S16x8 S8000000x1 S8000000x8 [1] [0] [] [0] [] 1 ![1, 8]

variable [Facts₀]

def scatter_S16_S8000000x1_S8000000_n_0_0_1 : ScatterDims S16 S8000000x1 S8000000 where
  updateWindowDims := []
  insertedWindowDims := [0]
  scatterDimsToOperandDims := [0]
  indexVectorDim := 1
  wf := scatter_S16_S8000000x1_S8000000_n_0_0_1_wf
def scatter_S16x8_S8000000x1_S8000000x8_1_0_0_1 : ScatterDims S16x8 S8000000x1 S8000000x8 where
  updateWindowDims := [1]
  insertedWindowDims := [0]
  scatterDimsToOperandDims := [0]
  indexVectorDim := 1
  wf := scatter_S16x8_S8000000x1_S8000000x8_1_0_0_1_wf
def gather_S16x8_S8000000x1_S8000000x8_1_0_n_n_0_1_18 : GatherDims S16x8 S8000000x1 S8000000x8 where
  offsetDims := [1]
  collapsedSliceDims := [0]
  operandBatchingDims := []
  startIndicesBatchingDims := []
  startIndexMap := [0]
  indexVectorDim := 1
  sliceSizes := ![1, 8]
  wf := gather_S16x8_S8000000x1_S8000000x8_1_0_n_n_0_1_18_wf

class Facts : Prop extends Facts₀ where

variable [Facts]
-- ==== Proof.Spec.lean ====
/-
  Group normalisation of N = 1,000,000 points with F = 64 channels, per point cloud (B = 16 clouds named by a
  per-point id) and per group g of the eight channels { 8 j + g : j < 8 }.

  The mathematics, over the reals.  For a cloud b let A_b be the set of its points, c_b = max (8 |A_b|, 1),
      mu_b,g  = ( sum over n in A_b, j < 8 of x[n, 8 j + g] ) / c_b,
      v_b,g   = ( sum over n in A_b, j < 8 of (x[n, 8 j + g] - mu_b,g)^2 ) / c_b,
      out[n, f] = (x[n, f] - mu_{id n, f mod 8}) / sqrt (v_{id n, f mod 8} + eps) * gamma[f] + beta[f].
  This file states that function (`outR`), and the two-pass form a streaming computation takes: per-cloud
  sums, sums of squares and counts as masked sums over all points (`sumT`, `sqT`, `cntT`), the tables of
  means and inverse deviations built from them (`meanT`, `invT`, the variance as E[x^2] - mu^2 clipped at 0),
  and the normalisation that selects a point's row of each table by a one-hot sum (`normT`).
-/
import Idealize.ShloMosaic.Lib.ValueIdx
import Idealize.ShloMosaic.PureOps.Ideal
import Idealize.ShloMosaic.PureOps.Ideal.Laws

noncomputable section

namespace Cert.GN

open Idealize.ShloMosaic Idealize.ShloMosaic.ValueIdx
open scoped BigOperators

abbrev SX : Shape := ⟨2, ![1000000, 64]⟩
abbrev SId : Shape := ⟨2, ![1000000, 1]⟩
abbrev SIv : Shape := ⟨1, ![1000000]⟩
abbrev ST : Shape := ⟨2, ![16, 64]⟩
abbrev SC : Shape := ⟨2, ![16, 1]⟩
abbrev SG : Shape := ⟨2, ![16, 8]⟩
abbrev SP : Shape := ⟨2, ![1, 64]⟩

/-- One where the 32-bit word is the number `k`, zero elsewhere: the mask of cloud `k`. -/
def ind (v : BitVec 32) (k : Nat) : EReal := if v = BitVec.ofNat 32 k then 1 else 0

/-- Channel `8 j + g`: member `j` of group `g`. -/
def ch (j g : Fin 8) : Fin 64 := ⟨8 * j.val + g.val, by omega⟩

/-- The group of channel `f`. -/
def grpOf (f : Fin 64) : Fin 8 := ⟨f.val % 8, Nat.mod_lt _ (by decide)⟩

/-! ## The streaming form, over the extended reals -/

/-- Per cloud and channel, the sum of the cloud's points. -/
def sumT (x : FVec Ideal SX .f32) (ids : IVec SId 32) : FVec Ideal ST .f32 :=
  fun i => ∑ n : Fin 1000000, x (ix2 n (⟨(i 1).val, idx2_lt1 i⟩ : Fin 64)) * ind (ids (ix2 n (0 : Fin 1))) (i 0).val

/-- Per cloud and channel, the sum of squares of the cloud's points. -/
def sqT (x : FVec Ideal SX .f32) (ids : IVec SId 32) : FVec Ideal ST .f32 :=
  fun i => ∑ n : Fin 1000000, x (ix2 n (⟨(i 1).val, idx2_lt1 i⟩ : Fin 64)) * ind (ids (ix2 n (0 : Fin 1))) (i 0).val
    * x (ix2 n (⟨(i 1).val, idx2_lt1 i⟩ : Fin 64))

/-- Per cloud, the number of its points. -/
def cntT (ids : IVec SId 32) : FVec Ideal SC .f32 :=
  fun i => ∑ n : Fin 1000000, ind (ids (ix2 n (0 : Fin 1))) (i 0).val

theorem sumT_apply (x : FVec Ideal SX .f32) (ids : IVec SId 32) (b : Fin 16) (f : Fin 64) :
    sumT x ids (ix2 b f) = ∑ n : Fin 1000000, x (ix2 n f) * ind (ids (ix2 n (0 : Fin 1))) b.val := rfl

theorem sqT_apply (x : FVec Ideal SX .f32) (ids : IVec SId 32) (b : Fin 16) (f : Fin 64) :
    sqT x ids (ix2 b f) = ∑ n : Fin 1000000, x (ix2 n f) * ind (ids (ix2 n (0 : Fin 1))) b.val * x (ix2 n f) := rfl

theorem cntT_apply (ids : IVec SId 32) (b : Fin 16) (z : Fin 1) :
    cntT ids (ix2 b z) = ∑ n : Fin 1000000, ind (ids (ix2 n (0 : Fin 1))) b.val := rfl

/-- A [16, 64] table summed over the eight members of each group, from the zero word. -/
def grp (t : FVec Ideal ST .f32) : FVec Ideal SG .f32 :=
  fun i => Ideal.ofBits .f32 0x00000000#32
    + ∑ j : Fin 8, t (ix2 (⟨(i 0).val, idx2_lt0 i⟩ : Fin 16) (ch j ⟨(i 1).val, idx2_lt1 i⟩))

/-- The divisor of cloud `b`: eight times its count, at least one. -/
def ctT (cnt : FVec Ideal SC .f32) (b : Fin 16) : EReal :=
  max (cnt (ix2 b (0 : Fin 1)) * Ideal.ofBits .f32 0x41000000#32) (Ideal.ofBits .f32 0x3F800000#32)

/-- The table of means. -/
def meanT (s : FVec Ideal ST .f32) (cnt : FVec Ideal SC .f32) : FVec Ideal SG .f32 :=
  fun i => Ideal.div (grp s i) (ctT cnt ⟨(i 0).val, idx2_lt0 i⟩)

/-- The table of inverse deviations: one over the root of (E[x²] − μ², clipped at zero, plus ε). -/
def invT (s q : FVec Ideal ST .f32) (cnt : FVec Ideal SC .f32) : FVec Ideal SG .f32 :=
  fun i => Ideal.div (Ideal.ofBits .f32 0x3F800000#32)
    (Ideal.sqrt (max (Ideal.div (grp q i) (ctT cnt ⟨(i 0).val, idx2_lt0 i⟩) - meanT s cnt i * meanT s cnt i)
        (Ideal.ofBits .f32 0x00000000#32) + Ideal.ofBits .f32 0x322BCC77#32))

/-- The normalisation: a point's row of each table chosen by a one-hot sum over the sixteen clouds. -/
def normT (x : FVec Ideal SX .f32) (ids : IVec SId 32) (mean inv : FVec Ideal SG .f32) (gam bet : FVec Ideal SP .f32) :
    FVec Ideal SX .f32 :=
  fun i =>
    (x i - ∑ b : Fin 16, ind (ids (ix2 (⟨(i 0).val, idx2_lt0 i⟩ : Fin 1000000) (0 : Fin 1))) b.val
              * mean (ix2 b (grpOf ⟨(i 1).val, idx2_lt1 i⟩)))
      * (∑ b : Fin 16, ind (ids (ix2 (⟨(i 0).val, idx2_lt0 i⟩ : Fin 1000000) (0 : Fin 1))) b.val
              * inv (ix2 b (grpOf ⟨(i 1).val, idx2_lt1 i⟩)))
      * gam (ix2 (0 : Fin 1) (⟨(i 1).val, idx2_lt1 i⟩ : Fin 64))
    + bet (ix2 (0 : Fin 1) (⟨(i 1).val, idx2_lt1 i⟩ : Fin 64))

theorem normT_apply (x : FVec Ideal SX .f32) (ids : IVec SId 32) (mean inv : FVec Ideal SG .f32) (gam bet : FVec Ideal SP .f32)
    (n : Fin 1000000) (f : Fin 64) :
    normT x ids mean inv gam bet (ix2 n f)
      = (x (ix2 n f) - ∑ b : Fin 16, ind (ids (ix2 n (0 : Fin 1))) b.val * mean (ix2 b (grpOf f)))
          * (∑ b : Fin 16, ind (ids (ix2 n (0 : Fin 1))) b.val * inv (ix2 b (grpOf f)))
          * gam (ix2 (0 : Fin 1) f)
        + bet (ix2 (0 : Fin 1) f) := rfl

/-- The whole two-pass computation. -/
def streamOut (x : FVec Ideal SX .f32) (ids : IVec SId 32) (gam bet : FVec Ideal SP .f32) : FVec Ideal SX .f32 :=
  normT x ids (meanT (sumT x ids) (cntT ids)) (invT (sumT x ids) (sqT x ids) (cntT ids)) gam bet

/-! ## The function, over the reals -/

section Real

variable (xr : Fin 1000000 → Fin 64 → ℝ) (id : Fin 1000000 → Fin 16) (γ β : Fin 64 → ℝ) (ε : ℝ)

/-- The number of points of cloud `b`. -/
def cntR (b : Fin 16) : ℝ := ∑ n : Fin 1000000, if id n = b then 1 else 0

/-- The divisor of cloud `b`. -/
def ctR (b : Fin 16) : ℝ := max (cntR id b * 8) 1

/-- The mean of cloud `b`, group `g`. -/
def muR (b : Fin 16) (g : Fin 8) : ℝ :=
  (∑ n : Fin 1000000, ∑ j : Fin 8, if id n = b then xr n (ch j g) else 0) / ctR id b

/-- The variance of cloud `b`, group `g`. -/
def vR (b : Fin 16) (g : Fin 8) : ℝ :=
  (∑ n : Fin 1000000, ∑ j : Fin 8, if id n = b then (xr n (ch j g) - muR xr id b g) * (xr n (ch j g) - muR xr id b g) else 0)
    / ctR id b

/-- The normalised, scaled and shifted value. -/
def outR (n : Fin 1000000) (f : Fin 64) : ℝ :=
  (xr n f - muR xr id (id n) (grpOf f)) / Real.sqrt (vR xr id (id n) (grpOf f) + ε) * γ f + β f

end Real

end Cert.GN

end
-- ==== Proof.StatsPieces.lean ====
/-
  One grid point of the statistics pass, read at an entry.  The point holds 20000 rows x0 of the features and
  their ids x1.  For each cloud b it adds, to row b of each running table, the masked column sums of its rows:
  sum over r of x0[r, f]·[x1[r] = b] (sums), of x0[r, f]·[x1[r] = b]·x0[r, f] (squares), of [x1[r] = b] (counts).
  At the first point the tables are zeroed first, so the point leaves the masked sums alone.

  The proof has three layers.  (1) One row update at an entry: the old row plus the column reduction of the
  features times the mask column is the old entry plus a sum over the 20000 rows, the mask being one where the
  row's id is the cloud's word and zero elsewhere.  (2) A table written row by row: once the rows below k hold a
  function G of the table's index, a store of row k whose payload is G's row k makes the rows below k + 1 hold G;
  sixteen such steps fill the table.  At the first point every row is read back after the zeroing store, and the
  rows not yet written still hold zero.  (3) The point's two input blocks are loaded whole, so what the body
  loads is the blocks themselves.
-/
import proofs.«422416_j58806692216853_3_alg».proof.Proof.Gen.KernelIdeal.Frame
import proofs.«422416_j58806692216853_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.StatsPieces

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window BodyObligation cellOf)
open scoped BigOperators

/-! ## One row of a table after one point, at an entry -/

/-- The widened equality bit of two words, converted to a real: one where they are equal, zero elsewhere. -/
theorem maskBit (v w : BitVec 32) :
    (FloatOps.sitofp (F := Ideal) .f32 ((IntOp.cmpi .eq v w).setWidth 32) : EReal) = if v = w then 1 else 0 := by
  show ((((IntOp.cmpi .eq v w).setWidth 32).toInt : ℝ) : EReal) = _
  unfold IntOp.cmpi
  by_cases h : v = w
  · subst h; simp
  · have hb : (v == w) = false := by simpa using h
    simp [h, hb]

/-- The masked column sum of the point's rows: over the rows `r` whose id is the word `w`, the sum of `X r f`. -/
def colSum (X : Vec Ideal S20000x64 .f32) (ids : IVec S20000x1 32) (w : BitVec 32) (f : Fin 64) : EReal :=
  ∑ r : Fin 20000, X (ix2 r f) * (if ids (ix2 r (0 : Fin 1)) = w then 1 else 0)

/-- The same with each term multiplied once more by `X r f`: the masked column sum of squares. -/
def colSq (X : Vec Ideal S20000x64 .f32) (ids : IVec S20000x1 32) (w : BitVec 32) (f : Fin 64) : EReal :=
  ∑ r : Fin 20000, X (ix2 r f) * (if ids (ix2 r (0 : Fin 1)) = w then 1 else 0) * X (ix2 r f)

/-- The number of rows whose id is the word `w`. -/
def colCnt (ids : IVec S20000x1 32) (w : BitVec 32) : EReal :=
  ∑ r : Fin 20000, (if ids (ix2 r (0 : Fin 1)) = w then 1 else 0 : EReal)

/-- The source index of a column sum: row `r` put back in front of column `f`. -/
theorem lift_col (h2 : S20000x64.Reduces [0] S64) (f : Fin 64) (r : Fin 20000) :
    h2.lift (ix1 f) r = ix2 r f :=
  funext fun a => Fin.ext (match a with | ⟨0, _⟩ => rfl | ⟨1, _⟩ => rfl)

/-- The same for the one-column mask. -/
theorem lift_col1 (h2 : S20000x1.Reduces [0] S1) (z : Fin 1) (r : Fin 20000) :
    h2.lift (ix1 z) r = ix2 r z :=
  funext fun a => Fin.ext (match a with | ⟨0, _⟩ => rfl | ⟨1, _⟩ => rfl)

/-- The mask column reads the mask of its row. -/
theorem mask_apply (w : BitVec 32) (ids : IVec S20000x1 32) (h5 : 1 < 32) (r : Fin 20000) (z : Fin 1) :
    (sitofp (F := Ideal) .f32 (extui 32 (cmpi .eq ids (broadcast S20000x1 w)) h5) : FVec Ideal S20000x1 .f32) (ix2 r z)
      = if ids (ix2 r (0 : Fin 1)) = w then 1 else 0 := by
  obtain rfl : z = 0 := Subsingleton.elim _ _
  exact maskBit (ids (ix2 r (0 : Fin 1))) w

/-- The mask column broadcast along the channels reads the mask of its row. -/
theorem maskCol (w : BitVec 32) (ids : IVec S20000x1 32) (h4 : S20000x1.Broadcasts S20000x64) (h5 : 1 < 32)
    (r : Fin 20000) (f : Fin 64) :
    broadcastTo S20000x64 (sitofp (F := Ideal) .f32 (extui 32 (cmpi .eq ids (broadcast S20000x1 w)) h5)) h4 (ix2 r f)
      = if ids (ix2 r (0 : Fin 1)) = w then 1 else 0 := by
  refine (broadcastTo_apply _ h4 (ix2 r f) (ix2 r (0 : Fin 1)) (fun a => match a with | ⟨0, _⟩ => rfl | ⟨1, _⟩ => rfl)).trans ?_
  exact mask_apply w ids h5 r 0

/-- A row of the table of sums after one point: what stood there plus the masked column sum of the point's rows. -/
theorem sumRow (w : BitVec 32) (X : Vec Ideal S20000x64 .f32) (ids : IVec S20000x1 32) (old : Vec Ideal S1x64 .f32)
    (h1 : S1x64.ShapeCasts S1x64) (h2 : S20000x64.Reduces [0] S64) (h3 : S64.ShapeCasts S1x64)
    (h4 : S20000x1.Broadcasts S20000x64) (h5 : 1 < 32) (hφ : FKind.Formats .f32)
    (hacc : (0x00000000#32 : BitVec 32) = FKind.add.neutral .f32 hφ) (u : Fin 1) (f : Fin 64) :
    addf (shapeCast S1x64 old h1)
        (shapeCast S1x64 (multiReduction (F := Ideal) .add [0] S64
          (mulf X (broadcastTo S20000x64 (sitofp (F := Ideal) .f32 (extui 32 (cmpi .eq ids (broadcast S20000x1 w)) h5)) h4))
          0x00000000#32 h2 hφ hacc) h3) (ix2 u f)
      = old (ix2 u f) + colSum X ids w f := by
  refine congrArg₂ (· + ·) (congrFun (shapeCast_self old h1) _) ?_
  refine (shapeCast_a_1a_apply _ h3 u f).trans ?_
  refine (Ideal.multiReduction_add_single _ _ h2 hφ hacc (ix1 f)).trans ?_
  refine Finset.sum_congr rfl fun r _ => ?_
  refine (congrArg _ (lift_col h2 f r)).trans ?_
  exact congrArg (X (ix2 r f) * ·) (maskCol w ids h4 h5 r f)

/-- A row of the table of squares after one point. -/
theorem sqRow (w : BitVec 32) (X : Vec Ideal S20000x64 .f32) (ids : IVec S20000x1 32) (old : Vec Ideal S1x64 .f32)
    (h1 : S1x64.ShapeCasts S1x64) (h2 : S20000x64.Reduces [0] S64) (h3 : S64.ShapeCasts S1x64)
    (h4 : S20000x1.Broadcasts S20000x64) (h5 : 1 < 32) (hφ : FKind.Formats .f32)
    (hacc : (0x00000000#32 : BitVec 32) = FKind.add.neutral .f32 hφ) (u : Fin 1) (f : Fin 64) :
    addf (shapeCast S1x64 old h1)
        (shapeCast S1x64 (multiReduction (F := Ideal) .add [0] S64
          (mulf (mulf X (broadcastTo S20000x64 (sitofp (F := Ideal) .f32 (extui 32 (cmpi .eq ids (broadcast S20000x1 w)) h5)) h4)) X)
          0x00000000#32 h2 hφ hacc) h3) (ix2 u f)
      = old (ix2 u f) + colSq X ids w f := by
  refine congrArg₂ (· + ·) (congrFun (shapeCast_self old h1) _) ?_
  refine (shapeCast_a_1a_apply _ h3 u f).trans ?_
  refine (Ideal.multiReduction_add_single _ _ h2 hφ hacc (ix1 f)).trans ?_
  refine Finset.sum_congr rfl fun r _ => ?_
  refine (congrArg _ (lift_col h2 f r)).trans ?_
  exact congrArg (X (ix2 r f) * · * X (ix2 r f)) (maskCol w ids h4 h5 r f)

/-- A row of the table of counts after one point. -/
theorem cntRow (w : BitVec 32) (ids : IVec S20000x1 32) (old : Vec Ideal S1x1 .f32)
    (h1 : S1x1.ShapeCasts S1x1) (h2 : S20000x1.Reduces [0] S1) (h3 : S1.ShapeCasts S1x1)
    (h5 : 1 < 32) (hφ : FKind.Formats .f32)
    (hacc : (0x00000000#32 : BitVec 32) = FKind.add.neutral .f32 hφ) (u : Fin 1) (z : Fin 1) :
    addf (shapeCast S1x1 old h1)
        (shapeCast S1x1 (multiReduction (F := Ideal) .add [0] S1
          (sitofp (F := Ideal) .f32 (extui 32 (cmpi .eq ids (broadcast S20000x1 w)) h5))
          0x00000000#32 h2 hφ hacc) h3) (ix2 u z)
      = old (ix2 u z) + colCnt ids w := by
  refine congrArg₂ (· + ·) (congrFun (shapeCast_self old h1) _) ?_
  refine (shapeCast_a_1a_apply _ h3 u z).trans ?_
  refine (Ideal.multiReduction_add_single _ _ h2 hφ hacc (ix1 z)).trans ?_
  refine Finset.sum_congr rfl fun r _ => ?_
  refine (congrArg _ (lift_col1 h2 z r)).trans ?_
  exact mask_apply w ids h5 r z

/-! ## A table filled row by row -/

section Rows

variable {n : Nat}

/-- Row `k` of a [16, n] table, as the rectangle of a store or a load. -/
abbrev rowRect (k : Nat)
    (inb : ∀ a, (![k, 0] : Fin 2 → Nat) a + (![1, n] : Fin 2 → Nat) a ≤ (⟨2, ![16, n]⟩ : Shape).size a) :
    Rect (⟨2, ![16, n]⟩ : Shape) := Rect.unit ![k, 0] ![1, n] inb

/-- Where the row rectangle puts its one row. -/
theorem row_idx (k : Nat) (hk : k < 16)
    (inb : ∀ a, (![k, 0] : Fin 2 → Nat) a + (![1, n] : Fin 2 → Nat) a ≤ (⟨2, ![16, n]⟩ : Shape).size a) (u : Fin 1) (f : Fin n) :
    (rowRect k inb).idx (ix2 u f) = ix2 (⟨k, hk⟩ : Fin 16) f :=
  funext fun a => Fin.ext (match a with
    | ⟨0, _⟩ => (by show k + 1 * u.val = k; have := u.isLt; omega)
    | ⟨1, _⟩ => (by show 0 + 1 * f.val = f.val; omega))

/-- An entry of another row is not in row `k`'s rectangle. -/
theorem not_mem_row (k : Nat)
    (inb : ∀ a, (![k, 0] : Fin 2 → Nat) a + (![1, n] : Fin 2 → Nat) a ≤ (⟨2, ![16, n]⟩ : Shape).size a)
    (y : (⟨2, ![16, n]⟩ : Shape).Idx) (hy : (y 0).val ≠ k) :
    y ∉ (rowRect k inb).set := by
  intro h
  have h0 : k ≤ (y 0).val ∧ (y 0).val < k + 1 := (Rect.mem_set_unit.mp h) 0
  omega

/-- Rows below `k` hold `G`; a store of row `k` whose payload is `G`'s row `k` makes the rows below `k + 1` hold `G`. -/
theorem canon_row_step (G : (⟨2, ![16, n]⟩ : Shape).Idx → EReal) (L : List (View.Piece (Elt Ideal) ⟨2, ![16, n]⟩ .f32))
    (k : Nat) (hk : k < 16)
    (inb : ∀ a, (![k, 0] : Fin 2 → Nat) a + (![1, n] : Fin 2 → Nat) a ≤ (⟨2, ![16, n]⟩ : Shape).size a)
    (pay : (rowRect k inb).shape.Idx → Elt Ideal .f32)
    (hpay : ∀ (u : Fin 1) (f : Fin n), pay (ix2 u f) = G (ix2 (⟨k, hk⟩ : Fin 16) f))
    (hL : ∀ y : (⟨2, ![16, n]⟩ : Shape).Idx, (y 0).val < k → View.canon L y = G y) :
    ∀ y : (⟨2, ![16, n]⟩ : Shape).Idx, (y 0).val < k + 1 →
      View.canon ((⟨rowRect k inb, pay⟩ : View.Piece (Elt Ideal) ⟨2, ![16, n]⟩ .f32) :: L) y = G y := by
  intro y hy
  by_cases hyk : (y 0).val = k
  · have e2 : ix2 (⟨k, hk⟩ : Fin 16) (⟨(y 1).val, idx2_lt1 y⟩ : Fin n) = y :=
      funext fun a => match a with | ⟨0, _⟩ => Fin.ext hyk.symm | ⟨1, _⟩ => rfl
    have e : (rowRect k inb).emb (ix2 (0 : Fin 1) (⟨(y 1).val, idx2_lt1 y⟩ : Fin n)) = y :=
      (row_idx k hk inb 0 _).trans e2
    have h1 := View.canon_cons_emb (Val := Elt Ideal) (rowRect k inb) pay L (ix2 (0 : Fin 1) (⟨(y 1).val, idx2_lt1 y⟩ : Fin n))
    rw [e] at h1
    rw [h1, hpay 0 _, e2]
  · rw [View.canon_cons_of_not_mem (Val := Elt Ideal) (⟨rowRect k inb, pay⟩) L (not_mem_row k inb y hyk)]
    exact hL y (by omega)

/-- Rows from `k` on hold `Z`; after a store of row `k` the rows from `k + 1` on still do. -/
theorem canon_row_rest (Z : (⟨2, ![16, n]⟩ : Shape).Idx → EReal) (L : List (View.Piece (Elt Ideal) ⟨2, ![16, n]⟩ .f32))
    (k : Nat)
    (inb : ∀ a, (![k, 0] : Fin 2 → Nat) a + (![1, n] : Fin 2 → Nat) a ≤ (⟨2, ![16, n]⟩ : Shape).size a)
    (pay : (rowRect k inb).shape.Idx → Elt Ideal .f32)
    (hL : ∀ y : (⟨2, ![16, n]⟩ : Shape).Idx, k ≤ (y 0).val → View.canon L y = Z y) :
    ∀ y : (⟨2, ![16, n]⟩ : Shape).Idx, k + 1 ≤ (y 0).val →
      View.canon ((⟨rowRect k inb, pay⟩ : View.Piece (Elt Ideal) ⟨2, ![16, n]⟩ .f32) :: L) y = Z y := by
  intro y hy
  rw [View.canon_cons_of_not_mem (Val := Elt Ideal) (⟨rowRect k inb, pay⟩) L (not_mem_row k inb y (by omega))]
  exact hL y (by omega)

end Rows

/-- Rows below `k` hold `T` and the rows from `k` on hold zero; a store of row `k` whose payload is `T`'s row `k`
    (given that the row held zero) moves the boundary to `k + 1`. -/
theorem canon_row_stepA {n : Nat} (T : (⟨2, ![16, n]⟩ : Shape).Idx → EReal) (L : List (View.Piece (Elt Ideal) ⟨2, ![16, n]⟩ .f32))
    (k : Nat) (hk : k < 16)
    (inb : ∀ a, (![k, 0] : Fin 2 → Nat) a + (![1, n] : Fin 2 → Nat) a ≤ (⟨2, ![16, n]⟩ : Shape).size a)
    (pay : (rowRect k inb).shape.Idx → Elt Ideal .f32)
    (hpay : (∀ y : (⟨2, ![16, n]⟩ : Shape).Idx, k ≤ (y 0).val → (View.canon L y : EReal) = 0) →
      ∀ (u : Fin 1) (f : Fin n), pay (ix2 u f) = T (ix2 (⟨k, hk⟩ : Fin 16) f))
    (hinv : (∀ y : (⟨2, ![16, n]⟩ : Shape).Idx, (y 0).val < k → View.canon L y = T y)
      ∧ (∀ y : (⟨2, ![16, n]⟩ : Shape).Idx, k ≤ (y 0).val → (View.canon L y : EReal) = 0)) :
    (∀ y : (⟨2, ![16, n]⟩ : Shape).Idx, (y 0).val < k + 1 →
        View.canon ((⟨rowRect k inb, pay⟩ : View.Piece (Elt Ideal) ⟨2, ![16, n]⟩ .f32) :: L) y = T y)
      ∧ (∀ y : (⟨2, ![16, n]⟩ : Shape).Idx, k + 1 ≤ (y 0).val →
        (View.canon ((⟨rowRect k inb, pay⟩ : View.Piece (Elt Ideal) ⟨2, ![16, n]⟩ .f32) :: L) y : EReal) = 0) :=
  ⟨canon_row_step T L k hk inb pay (hpay hinv.2) hinv.1, canon_row_rest (fun _ => 0) L k inb pay hinv.2⟩

/-- A load of row `k` after stores that left zero in the rows from `k` on reads zero. -/
theorem readCov_row_zero {n : Nat} {κ : Kind} {sp : Space} (v : View sig κ sp (⟨2, ![16, n]⟩ : Shape) .f32)
    (L : List (View.Piece (Elt Ideal) ⟨2, ![16, n]⟩ .f32)) (k : Nat)
    (inb : ∀ a, (![k, 0] : Fin 2 → Nat) a + (![1, n] : Fin 2 → Nat) a ≤ (⟨2, ![16, n]⟩ : Shape).size a)
    (hz : ∀ y : (⟨2, ![16, n]⟩ : Shape).Idx, k ≤ (y 0).val → (View.canon L y : EReal) = 0) (u : Fin 1) (f : Fin n) :
    (v.readCov L (rowRect k inb).toLoadRect (ix2 u f) : EReal) = 0 :=
  (congrFun (View.readCov_eq_canon' v L (rowRect k inb).toLoadRect) (ix2 u f)).trans
    (hz ((rowRect k inb).toLoadRect.idx (ix2 u f)) (Nat.le_add_right k _))

/-- A load of row `k` of a whole buffer that reads `xo` reads `xo`'s row `k`. -/
theorem readAt_row {n : Nat} (arg : Memref sig .tc .vmem (⟨2, ![16, n]⟩ : Shape) .f32) (harg : arg.IsWhole)
    (xo : Vec Ideal (⟨2, ![16, n]⟩ : Shape) .f32) (k : Nat) (hk : k < 16)
    (inb : ∀ a, (![k, 0] : Fin 2 → Nat) a + (![1, n] : Fin 2 → Nat) a ≤ (⟨2, ![16, n]⟩ : Shape).size a) (u : Fin 1) (f : Fin n) :
    View.readAt (Elt Ideal) arg.view (rowRect k inb).toLoadRect (harg.unread xo) (ix2 u f) = xo (ix2 (⟨k, hk⟩ : Fin 16) f) := by
  rw [View.readAt_eq_ld, harg.read_unread]
  exact congrArg xo (row_idx k hk inb u f)

/-! ## The point's blocks as the body loads them, and the tables it leaves -/

theorem hz2 : (![0, 0] : Fin 2 → Nat) = fun _ => 0 := funext fun a => match a with | ⟨0, _⟩ => rfl | ⟨1, _⟩ => rfl

/-- The features block as loaded whole. -/
def ldX (arg1 : Memref sig .tc .vmem S20000x64 .f32) (harg1 : arg1.IsWhole) (x0 : Vec Ideal S20000x64 .f32) :
    Vec Ideal S20000x64 .f32 :=
  View.readAt (Elt Ideal) arg1.view (Rect.unit ![0, 0] S20000x64.size Facts₀.inb_S20000x64_S20000x64_0_0).toLoadRect (harg1.unread x0)

theorem ldX_eq (arg1 : Memref sig .tc .vmem S20000x64 .f32) (harg1 : arg1.IsWhole) (x0 : Vec Ideal S20000x64 .f32) :
    ldX arg1 harg1 x0 = x0 := by
  unfold ldX
  rw [View.readAt_eq_ld, harg1.read_unread]
  exact View.ld_unit_zero (S := S20000x64) hz2 _ x0

/-- The ids block as loaded whole (and cast to its own shape). -/
def ldI (arg2 : Memref sig .tc .vmem S20000x1 .i32) (harg2 : arg2.IsWhole) (x1 : Vec Ideal S20000x1 .i32) : IVec S20000x1 32 :=
  shapeCast S20000x1
    (View.readAt (Elt Ideal) arg2.view (Rect.unit ![0, 0] S20000x1.size Facts₀.inb_S20000x1_S20000x1_0_0).toLoadRect (harg2.unread x1))
    Facts₀.shapeCasts_S20000x1_S20000x1

theorem ldI_eq (arg2 : Memref sig .tc .vmem S20000x1 .i32) (harg2 : arg2.IsWhole) (x1 : Vec Ideal S20000x1 .i32) :
    ldI arg2 harg2 x1 = x1 := by
  unfold ldI
  refine (shapeCast_self _ _).trans ?_
  rw [View.readAt_eq_ld, harg2.read_unread]
  exact View.ld_unit_zero (S := S20000x1) hz2 _ x1

/-- The masked column sums as a [16, 64] table: row `b` sums the rows whose id is `b`. -/
def sumTbl (X : Vec Ideal S20000x64 .f32) (ids : IVec S20000x1 32) : S16x64.Idx → EReal :=
  fun y => colSum X ids (BitVec.ofNat 32 (y 0).val) ⟨(y 1).val, idx2_lt1 y⟩

/-- The masked column sums of squares as a [16, 64] table. -/
def sqTbl (X : Vec Ideal S20000x64 .f32) (ids : IVec S20000x1 32) : S16x64.Idx → EReal :=
  fun y => colSq X ids (BitVec.ofNat 32 (y 0).val) ⟨(y 1).val, idx2_lt1 y⟩

/-- The counts as a [16, 1] table. -/
def cntTbl (ids : IVec S20000x1 32) : S16x1.Idx → EReal :=
  fun y => colCnt ids (BitVec.ofNat 32 (y 0).val)

/-- The zeroing store leaves zero everywhere. -/
theorem canon_zero {n : Nat} (inb : ∀ a, (![0, 0] : Fin 2 → Nat) a + (⟨2, ![16, n]⟩ : Shape).size a ≤ (⟨2, ![16, n]⟩ : Shape).size a)
    (y : (⟨2, ![16, n]⟩ : Shape).Idx) :
    (View.canon [(⟨Rect.unit ![0, 0] (⟨2, ![16, n]⟩ : Shape).size inb,
        broadcast (⟨2, ![16, n]⟩ : Shape) (Scalar.ofBits (F := Ideal) .f32 0x00000000#32)⟩ : View.Piece (Elt Ideal) ⟨2, ![16, n]⟩ .f32)] y : EReal) = 0 := by
  rw [View.canon_unit_zero (S := (⟨2, ![16, n]⟩ : Shape)) hz2]
  exact Ideal.ofBits_zero_f32

/-- Unfold, in the goal, the generated definitions of the stages of the body's arithmetic. -/
local macro "open_pay" : tactic =>
  `(tactic| try dsimp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92])

/-! ## The six tables a point leaves, at an entry -/

/-- First point, sums: entry (b, f) is the masked column sum of the point's rows. -/
theorem outA_sum (c : Dev nD) (i : grid0.Coords) (arg1 : Memref sig .tc .vmem S20000x64 .f32) (harg1 : arg1.IsWhole) (arg2 : Memref sig .tc .vmem S20000x1 .i32) (harg2 : arg2.IsWhole) (arg3 : Memref sig .tc .vmem S16x64 .f32) (harg3 : arg3.IsWhole) (arg4 : Memref sig .tc .vmem S16x64 .f32) (harg4 : arg4.IsWhole) (arg5 : Memref sig .tc .vmem S16x1 .f32) (harg5 : arg5.IsWhole) (hc0 : cond0_0 i)
    (x0 : Vec Ideal S20000x64 .f32) (x1 : Vec Ideal S20000x1 .i32) (b : Fin 16) (f : Fin 64) :
    out0_A_2 (F := Ideal) c i arg1 harg1 arg2 harg2 arg3 harg3 arg4 harg4 arg5 harg5 hc0 x0 x1 (ix2 b f)
      = ∑ r : Fin 20000, x0 (ix2 r f) * GN.ind (x1 (ix2 r (0 : Fin 1))) b.val := by
  unfold out0_A_2
  rw [View.read_writes_eq_canon _ _ _ (cover0_A_2 c i arg1 harg1 arg2 harg2 arg3 harg3 arg4 harg4 arg5 harg5 hc0 x0 x1)]
  unfold kernelRun0_A
  dsimp only
  refine ((canon_row_stepA (sumTbl (ldX arg1 harg1 x0) (ldI arg2 harg2 x1)) _ 15 (by decide) _ _ ?_ ?_).1 (ix2 b f) b.isLt).trans ?_
  · intro hz u f
    open_pay
    refine (sumRow (BitVec.ofNat 32 15) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact (congrArg (· + _) (readCov_row_zero _ _ 15 _ hz u f)).trans (zero_add _)
  refine canon_row_stepA _ _ 14 (by decide) _ _ ?_ ?_
  · intro hz u f
    open_pay
    refine (sumRow (BitVec.ofNat 32 14) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact (congrArg (· + _) (readCov_row_zero _ _ 14 _ hz u f)).trans (zero_add _)
  refine canon_row_stepA _ _ 13 (by decide) _ _ ?_ ?_
  · intro hz u f
    open_pay
    unfold kernelRun0_A.sl.r_20 kernelRun0_A.sl.r_21
    open_pay
    refine (sumRow (BitVec.ofNat 32 13) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact (congrArg (· + _) (readCov_row_zero _ _ 13 _ hz u f)).trans (zero_add _)
  refine canon_row_stepA _ _ 12 (by decide) _ _ ?_ ?_
  · intro hz u f
    open_pay
    refine (sumRow (BitVec.ofNat 32 12) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact (congrArg (· + _) (readCov_row_zero _ _ 12 _ hz u f)).trans (zero_add _)
  refine canon_row_stepA _ _ 11 (by decide) _ _ ?_ ?_
  · intro hz u f
    open_pay
    refine (sumRow (BitVec.ofNat 32 11) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact (congrArg (· + _) (readCov_row_zero _ _ 11 _ hz u f)).trans (zero_add _)
  refine canon_row_stepA _ _ 10 (by decide) _ _ ?_ ?_
  · intro hz u f
    open_pay
    refine (sumRow (BitVec.ofNat 32 10) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact (congrArg (· + _) (readCov_row_zero _ _ 10 _ hz u f)).trans (zero_add _)
  refine canon_row_stepA _ _ 9 (by decide) _ _ ?_ ?_
  · intro hz u f
    open_pay
    refine (sumRow (BitVec.ofNat 32 9) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact (congrArg (· + _) (readCov_row_zero _ _ 9 _ hz u f)).trans (zero_add _)
  refine canon_row_stepA _ _ 8 (by decide) _ _ ?_ ?_
  · intro hz u f
    open_pay
    refine (sumRow (BitVec.ofNat 32 8) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact (congrArg (· + _) (readCov_row_zero _ _ 8 _ hz u f)).trans (zero_add _)
  refine canon_row_stepA _ _ 7 (by decide) _ _ ?_ ?_
  · intro hz u f
    open_pay
    refine (sumRow (BitVec.ofNat 32 7) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact (congrArg (· + _) (readCov_row_zero _ _ 7 _ hz u f)).trans (zero_add _)
  refine canon_row_stepA _ _ 6 (by decide) _ _ ?_ ?_
  · intro hz u f
    open_pay
    refine (sumRow (BitVec.ofNat 32 6) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact (congrArg (· + _) (readCov_row_zero _ _ 6 _ hz u f)).trans (zero_add _)
  refine canon_row_stepA _ _ 5 (by decide) _ _ ?_ ?_
  · intro hz u f
    open_pay
    refine (sumRow (BitVec.ofNat 32 5) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact (congrArg (· + _) (readCov_row_zero _ _ 5 _ hz u f)).trans (zero_add _)
  refine canon_row_stepA _ _ 4 (by decide) _ _ ?_ ?_
  · intro hz u f
    open_pay
    refine (sumRow (BitVec.ofNat 32 4) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact (congrArg (· + _) (readCov_row_zero _ _ 4 _ hz u f)).trans (zero_add _)
  refine canon_row_stepA _ _ 3 (by decide) _ _ ?_ ?_
  · intro hz u f
    open_pay
    refine (sumRow (BitVec.ofNat 32 3) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact (congrArg (· + _) (readCov_row_zero _ _ 3 _ hz u f)).trans (zero_add _)
  refine canon_row_stepA _ _ 2 (by decide) _ _ ?_ ?_
  · intro hz u f
    open_pay
    refine (sumRow (BitVec.ofNat 32 2) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact (congrArg (· + _) (readCov_row_zero _ _ 2 _ hz u f)).trans (zero_add _)
  refine canon_row_stepA _ _ 1 (by decide) _ _ ?_ ?_
  · intro hz u f
    open_pay
    refine (sumRow (BitVec.ofNat 32 1) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact (congrArg (· + _) (readCov_row_zero _ _ 1 _ hz u f)).trans (zero_add _)
  refine canon_row_stepA _ _ 0 (by decide) _ _ ?_ ?_
  · intro hz u f
    open_pay
    refine (sumRow (BitVec.ofNat 32 0) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact (congrArg (· + _) (readCov_row_zero _ _ 0 _ hz u f)).trans (zero_add _)
  · exact ⟨fun y hy => absurd hy (Nat.not_lt_zero _), fun y _ => canon_zero _ y⟩
  rw [ldX_eq, ldI_eq]
  rfl

/-- First point, squares. -/
theorem outA_sq (c : Dev nD) (i : grid0.Coords) (arg1 : Memref sig .tc .vmem S20000x64 .f32) (harg1 : arg1.IsWhole) (arg2 : Memref sig .tc .vmem S20000x1 .i32) (harg2 : arg2.IsWhole) (arg3 : Memref sig .tc .vmem S16x64 .f32) (harg3 : arg3.IsWhole) (arg4 : Memref sig .tc .vmem S16x64 .f32) (harg4 : arg4.IsWhole) (arg5 : Memref sig .tc .vmem S16x1 .f32) (harg5 : arg5.IsWhole) (hc0 : cond0_0 i)
    (x0 : Vec Ideal S20000x64 .f32) (x1 : Vec Ideal S20000x1 .i32) (b : Fin 16) (f : Fin 64) :
    out0_A_3 (F := Ideal) c i arg1 harg1 arg2 harg2 arg3 harg3 arg4 harg4 arg5 harg5 hc0 x0 x1 (ix2 b f)
      = ∑ r : Fin 20000, x0 (ix2 r f) * GN.ind (x1 (ix2 r (0 : Fin 1))) b.val * x0 (ix2 r f) := by
  unfold out0_A_3
  rw [View.read_writes_eq_canon _ _ _ (cover0_A_3 c i arg1 harg1 arg2 harg2 arg3 harg3 arg4 harg4 arg5 harg5 hc0 x0 x1)]
  unfold kernelRun0_A
  dsimp only
  refine ((canon_row_stepA (sqTbl (ldX arg1 harg1 x0) (ldI arg2 harg2 x1)) _ 15 (by decide) _ _ ?_ ?_).1 (ix2 b f) b.isLt).trans ?_
  · intro hz u f
    open_pay
    refine (sqRow (BitVec.ofNat 32 15) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact (congrArg (· + _) (readCov_row_zero _ _ 15 _ hz u f)).trans (zero_add _)
  refine canon_row_stepA _ _ 14 (by decide) _ _ ?_ ?_
  · intro hz u f
    open_pay
    refine (sqRow (BitVec.ofNat 32 14) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact (congrArg (· + _) (readCov_row_zero _ _ 14 _ hz u f)).trans (zero_add _)
  refine canon_row_stepA _ _ 13 (by decide) _ _ ?_ ?_
  · intro hz u f
    open_pay
    refine (sqRow (BitVec.ofNat 32 13) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact (congrArg (· + _) (readCov_row_zero _ _ 13 _ hz u f)).trans (zero_add _)
  refine canon_row_stepA _ _ 12 (by decide) _ _ ?_ ?_
  · intro hz u f
    open_pay
    refine (sqRow (BitVec.ofNat 32 12) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact (congrArg (· + _) (readCov_row_zero _ _ 12 _ hz u f)).trans (zero_add _)
  refine canon_row_stepA _ _ 11 (by decide) _ _ ?_ ?_
  · intro hz u f
    open_pay
    refine (sqRow (BitVec.ofNat 32 11) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact (congrArg (· + _) (readCov_row_zero _ _ 11 _ hz u f)).trans (zero_add _)
  refine canon_row_stepA _ _ 10 (by decide) _ _ ?_ ?_
  · intro hz u f
    open_pay
    unfold kernelRun0_A.sl.r_15 kernelRun0_A.sl.r_16
    open_pay
    refine (sqRow (BitVec.ofNat 32 10) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact (congrArg (· + _) (readCov_row_zero _ _ 10 _ hz u f)).trans (zero_add _)
  refine canon_row_stepA _ _ 9 (by decide) _ _ ?_ ?_
  · intro hz u f
    open_pay
    refine (sqRow (BitVec.ofNat 32 9) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact (congrArg (· + _) (readCov_row_zero _ _ 9 _ hz u f)).trans (zero_add _)
  refine canon_row_stepA _ _ 8 (by decide) _ _ ?_ ?_
  · intro hz u f
    open_pay
    refine (sqRow (BitVec.ofNat 32 8) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact (congrArg (· + _) (readCov_row_zero _ _ 8 _ hz u f)).trans (zero_add _)
  refine canon_row_stepA _ _ 7 (by decide) _ _ ?_ ?_
  · intro hz u f
    open_pay
    refine (sqRow (BitVec.ofNat 32 7) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact (congrArg (· + _) (readCov_row_zero _ _ 7 _ hz u f)).trans (zero_add _)
  refine canon_row_stepA _ _ 6 (by decide) _ _ ?_ ?_
  · intro hz u f
    open_pay
    refine (sqRow (BitVec.ofNat 32 6) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact (congrArg (· + _) (readCov_row_zero _ _ 6 _ hz u f)).trans (zero_add _)
  refine canon_row_stepA _ _ 5 (by decide) _ _ ?_ ?_
  · intro hz u f
    open_pay
    refine (sqRow (BitVec.ofNat 32 5) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact (congrArg (· + _) (readCov_row_zero _ _ 5 _ hz u f)).trans (zero_add _)
  refine canon_row_stepA _ _ 4 (by decide) _ _ ?_ ?_
  · intro hz u f
    open_pay
    refine (sqRow (BitVec.ofNat 32 4) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact (congrArg (· + _) (readCov_row_zero _ _ 4 _ hz u f)).trans (zero_add _)
  refine canon_row_stepA _ _ 3 (by decide) _ _ ?_ ?_
  · intro hz u f
    open_pay
    refine (sqRow (BitVec.ofNat 32 3) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact (congrArg (· + _) (readCov_row_zero _ _ 3 _ hz u f)).trans (zero_add _)
  refine canon_row_stepA _ _ 2 (by decide) _ _ ?_ ?_
  · intro hz u f
    open_pay
    refine (sqRow (BitVec.ofNat 32 2) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact (congrArg (· + _) (readCov_row_zero _ _ 2 _ hz u f)).trans (zero_add _)
  refine canon_row_stepA _ _ 1 (by decide) _ _ ?_ ?_
  · intro hz u f
    open_pay
    refine (sqRow (BitVec.ofNat 32 1) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact (congrArg (· + _) (readCov_row_zero _ _ 1 _ hz u f)).trans (zero_add _)
  refine canon_row_stepA _ _ 0 (by decide) _ _ ?_ ?_
  · intro hz u f
    open_pay
    refine (sqRow (BitVec.ofNat 32 0) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact (congrArg (· + _) (readCov_row_zero _ _ 0 _ hz u f)).trans (zero_add _)
  · exact ⟨fun y hy => absurd hy (Nat.not_lt_zero _), fun y _ => canon_zero _ y⟩
  rw [ldX_eq, ldI_eq]
  rfl

/-- First point, counts. -/
theorem outA_cnt (c : Dev nD) (i : grid0.Coords) (arg1 : Memref sig .tc .vmem S20000x64 .f32) (harg1 : arg1.IsWhole) (arg2 : Memref sig .tc .vmem S20000x1 .i32) (harg2 : arg2.IsWhole) (arg3 : Memref sig .tc .vmem S16x64 .f32) (harg3 : arg3.IsWhole) (arg4 : Memref sig .tc .vmem S16x64 .f32) (harg4 : arg4.IsWhole) (arg5 : Memref sig .tc .vmem S16x1 .f32) (harg5 : arg5.IsWhole) (hc0 : cond0_0 i)
    (x0 : Vec Ideal S20000x64 .f32) (x1 : Vec Ideal S20000x1 .i32) (b : Fin 16) (z : Fin 1) :
    out0_A_4 (F := Ideal) c i arg1 harg1 arg2 harg2 arg3 harg3 arg4 harg4 arg5 harg5 hc0 x0 x1 (ix2 b z)
      = ∑ r : Fin 20000, GN.ind (x1 (ix2 r (0 : Fin 1))) b.val := by
  unfold out0_A_4
  rw [View.read_writes_eq_canon _ _ _ (cover0_A_4 c i arg1 harg1 arg2 harg2 arg3 harg3 arg4 harg4 arg5 harg5 hc0 x0 x1)]
  unfold kernelRun0_A
  dsimp only
  refine ((canon_row_stepA (cntTbl (ldI arg2 harg2 x1)) _ 15 (by decide) _ _ ?_ ?_).1 (ix2 b z) b.isLt).trans ?_
  · intro hz u f
    open_pay
    refine (cntRow (BitVec.ofNat 32 15) (ldI arg2 harg2 x1) _ Facts₀.shapeCasts_S1x1_S1x1 Facts₀.reduces_S20000x1_S1 Facts₀.shapeCasts_S1_S1x1 Facts₀.natLt_1_32 (.inl rfl) rfl u f).trans ?_
    exact (congrArg (· + _) (readCov_row_zero _ _ 15 _ hz u f)).trans (zero_add _)
  refine canon_row_stepA _ _ 14 (by decide) _ _ ?_ ?_
  · intro hz u f
    open_pay
    refine (cntRow (BitVec.ofNat 32 14) (ldI arg2 harg2 x1) _ Facts₀.shapeCasts_S1x1_S1x1 Facts₀.reduces_S20000x1_S1 Facts₀.shapeCasts_S1_S1x1 Facts₀.natLt_1_32 (.inl rfl) rfl u f).trans ?_
    exact (congrArg (· + _) (readCov_row_zero _ _ 14 _ hz u f)).trans (zero_add _)
  refine canon_row_stepA _ _ 13 (by decide) _ _ ?_ ?_
  · intro hz u f
    open_pay
    refine (cntRow (BitVec.ofNat 32 13) (ldI arg2 harg2 x1) _ Facts₀.shapeCasts_S1x1_S1x1 Facts₀.reduces_S20000x1_S1 Facts₀.shapeCasts_S1_S1x1 Facts₀.natLt_1_32 (.inl rfl) rfl u f).trans ?_
    exact (congrArg (· + _) (readCov_row_zero _ _ 13 _ hz u f)).trans (zero_add _)
  refine canon_row_stepA _ _ 12 (by decide) _ _ ?_ ?_
  · intro hz u f
    open_pay
    refine (cntRow (BitVec.ofNat 32 12) (ldI arg2 harg2 x1) _ Facts₀.shapeCasts_S1x1_S1x1 Facts₀.reduces_S20000x1_S1 Facts₀.shapeCasts_S1_S1x1 Facts₀.natLt_1_32 (.inl rfl) rfl u f).trans ?_
    exact (congrArg (· + _) (readCov_row_zero _ _ 12 _ hz u f)).trans (zero_add _)
  refine canon_row_stepA _ _ 11 (by decide) _ _ ?_ ?_
  · intro hz u f
    open_pay
    refine (cntRow (BitVec.ofNat 32 11) (ldI arg2 harg2 x1) _ Facts₀.shapeCasts_S1x1_S1x1 Facts₀.reduces_S20000x1_S1 Facts₀.shapeCasts_S1_S1x1 Facts₀.natLt_1_32 (.inl rfl) rfl u f).trans ?_
    exact (congrArg (· + _) (readCov_row_zero _ _ 11 _ hz u f)).trans (zero_add _)
  refine canon_row_stepA _ _ 10 (by decide) _ _ ?_ ?_
  · intro hz u f
    open_pay
    refine (cntRow (BitVec.ofNat 32 10) (ldI arg2 harg2 x1) _ Facts₀.shapeCasts_S1x1_S1x1 Facts₀.reduces_S20000x1_S1 Facts₀.shapeCasts_S1_S1x1 Facts₀.natLt_1_32 (.inl rfl) rfl u f).trans ?_
    exact (congrArg (· + _) (readCov_row_zero _ _ 10 _ hz u f)).trans (zero_add _)
  refine canon_row_stepA _ _ 9 (by decide) _ _ ?_ ?_
  · intro hz u f
    open_pay
    refine (cntRow (BitVec.ofNat 32 9) (ldI arg2 harg2 x1) _ Facts₀.shapeCasts_S1x1_S1x1 Facts₀.reduces_S20000x1_S1 Facts₀.shapeCasts_S1_S1x1 Facts₀.natLt_1_32 (.inl rfl) rfl u f).trans ?_
    exact (congrArg (· + _) (readCov_row_zero _ _ 9 _ hz u f)).trans (zero_add _)
  refine canon_row_stepA _ _ 8 (by decide) _ _ ?_ ?_
  · intro hz u f
    open_pay
    refine (cntRow (BitVec.ofNat 32 8) (ldI arg2 harg2 x1) _ Facts₀.shapeCasts_S1x1_S1x1 Facts₀.reduces_S20000x1_S1 Facts₀.shapeCasts_S1_S1x1 Facts₀.natLt_1_32 (.inl rfl) rfl u f).trans ?_
    exact (congrArg (· + _) (readCov_row_zero _ _ 8 _ hz u f)).trans (zero_add _)
  refine canon_row_stepA _ _ 7 (by decide) _ _ ?_ ?_
  · intro hz u f
    open_pay
    unfold kernelRun0_A.sl.r_10 kernelRun0_A.sl.r_11
    open_pay
    refine (cntRow (BitVec.ofNat 32 7) (ldI arg2 harg2 x1) _ Facts₀.shapeCasts_S1x1_S1x1 Facts₀.reduces_S20000x1_S1 Facts₀.shapeCasts_S1_S1x1 Facts₀.natLt_1_32 (.inl rfl) rfl u f).trans ?_
    exact (congrArg (· + _) (readCov_row_zero _ _ 7 _ hz u f)).trans (zero_add _)
  refine canon_row_stepA _ _ 6 (by decide) _ _ ?_ ?_
  · intro hz u f
    open_pay
    refine (cntRow (BitVec.ofNat 32 6) (ldI arg2 harg2 x1) _ Facts₀.shapeCasts_S1x1_S1x1 Facts₀.reduces_S20000x1_S1 Facts₀.shapeCasts_S1_S1x1 Facts₀.natLt_1_32 (.inl rfl) rfl u f).trans ?_
    exact (congrArg (· + _) (readCov_row_zero _ _ 6 _ hz u f)).trans (zero_add _)
  refine canon_row_stepA _ _ 5 (by decide) _ _ ?_ ?_
  · intro hz u f
    open_pay
    refine (cntRow (BitVec.ofNat 32 5) (ldI arg2 harg2 x1) _ Facts₀.shapeCasts_S1x1_S1x1 Facts₀.reduces_S20000x1_S1 Facts₀.shapeCasts_S1_S1x1 Facts₀.natLt_1_32 (.inl rfl) rfl u f).trans ?_
    exact (congrArg (· + _) (readCov_row_zero _ _ 5 _ hz u f)).trans (zero_add _)
  refine canon_row_stepA _ _ 4 (by decide) _ _ ?_ ?_
  · intro hz u f
    open_pay
    refine (cntRow (BitVec.ofNat 32 4) (ldI arg2 harg2 x1) _ Facts₀.shapeCasts_S1x1_S1x1 Facts₀.reduces_S20000x1_S1 Facts₀.shapeCasts_S1_S1x1 Facts₀.natLt_1_32 (.inl rfl) rfl u f).trans ?_
    exact (congrArg (· + _) (readCov_row_zero _ _ 4 _ hz u f)).trans (zero_add _)
  refine canon_row_stepA _ _ 3 (by decide) _ _ ?_ ?_
  · intro hz u f
    open_pay
    refine (cntRow (BitVec.ofNat 32 3) (ldI arg2 harg2 x1) _ Facts₀.shapeCasts_S1x1_S1x1 Facts₀.reduces_S20000x1_S1 Facts₀.shapeCasts_S1_S1x1 Facts₀.natLt_1_32 (.inl rfl) rfl u f).trans ?_
    exact (congrArg (· + _) (readCov_row_zero _ _ 3 _ hz u f)).trans (zero_add _)
  refine canon_row_stepA _ _ 2 (by decide) _ _ ?_ ?_
  · intro hz u f
    open_pay
    refine (cntRow (BitVec.ofNat 32 2) (ldI arg2 harg2 x1) _ Facts₀.shapeCasts_S1x1_S1x1 Facts₀.reduces_S20000x1_S1 Facts₀.shapeCasts_S1_S1x1 Facts₀.natLt_1_32 (.inl rfl) rfl u f).trans ?_
    exact (congrArg (· + _) (readCov_row_zero _ _ 2 _ hz u f)).trans (zero_add _)
  refine canon_row_stepA _ _ 1 (by decide) _ _ ?_ ?_
  · intro hz u f
    open_pay
    refine (cntRow (BitVec.ofNat 32 1) (ldI arg2 harg2 x1) _ Facts₀.shapeCasts_S1x1_S1x1 Facts₀.reduces_S20000x1_S1 Facts₀.shapeCasts_S1_S1x1 Facts₀.natLt_1_32 (.inl rfl) rfl u f).trans ?_
    exact (congrArg (· + _) (readCov_row_zero _ _ 1 _ hz u f)).trans (zero_add _)
  refine canon_row_stepA _ _ 0 (by decide) _ _ ?_ ?_
  · intro hz u f
    open_pay
    refine (cntRow (BitVec.ofNat 32 0) (ldI arg2 harg2 x1) _ Facts₀.shapeCasts_S1x1_S1x1 Facts₀.reduces_S20000x1_S1 Facts₀.shapeCasts_S1_S1x1 Facts₀.natLt_1_32 (.inl rfl) rfl u f).trans ?_
    exact (congrArg (· + _) (readCov_row_zero _ _ 0 _ hz u f)).trans (zero_add _)
  · exact ⟨fun y hy => absurd hy (Nat.not_lt_zero _), fun y _ => canon_zero _ y⟩
  rw [ldI_eq]
  rfl

/-- A later point, sums: what the point before left plus the masked column sum of this point's rows. -/
theorem outB_sum (c : Dev nD) (i : grid0.Coords) (arg1 : Memref sig .tc .vmem S20000x64 .f32) (harg1 : arg1.IsWhole) (arg2 : Memref sig .tc .vmem S20000x1 .i32) (harg2 : arg2.IsWhole) (arg3 : Memref sig .tc .vmem S16x64 .f32) (harg3 : arg3.IsWhole) (arg4 : Memref sig .tc .vmem S16x64 .f32) (harg4 : arg4.IsWhole) (arg5 : Memref sig .tc .vmem S16x1 .f32) (harg5 : arg5.IsWhole) (hc0 : ¬cond0_0 i)
    (x0 : Vec Ideal S20000x64 .f32) (x1 : Vec Ideal S20000x1 .i32) (xo2 xo3 : Vec Ideal S16x64 .f32) (xo4 : Vec Ideal S16x1 .f32)
    (b : Fin 16) (f : Fin 64) :
    out0_B_2 (F := Ideal) c i arg1 harg1 arg2 harg2 arg3 harg3 arg4 harg4 arg5 harg5 hc0 x0 x1 xo2 xo3 xo4 (ix2 b f)
      = xo2 (ix2 b f) + ∑ r : Fin 20000, x0 (ix2 r f) * GN.ind (x1 (ix2 r (0 : Fin 1))) b.val := by
  unfold out0_B_2
  rw [View.read_writes_eq_canon _ _ _ (cover0_B_2 c i arg1 harg1 arg2 harg2 arg3 harg3 arg4 harg4 arg5 harg5 hc0 x0 x1 xo2 xo3 xo4)]
  unfold kernelRun0_B
  dsimp only
  sl_unfold_words
  open_pay
  refine (canon_row_step (fun y => xo2 y + sumTbl (ldX arg1 harg1 x0) (ldI arg2 harg2 x1) y) _ 15 (by decide) _ _ ?_ ?_ (ix2 b f) b.isLt).trans ?_
  · intro u f
    refine (sumRow (BitVec.ofNat 32 15) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact congrArg (· + _) (readAt_row arg3 harg3 xo2 15 (by decide) _ u f)
  refine canon_row_step _ _ 14 (by decide) _ _ ?_ ?_
  · intro u f
    refine (sumRow (BitVec.ofNat 32 14) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact congrArg (· + _) (readAt_row arg3 harg3 xo2 14 (by decide) _ u f)
  refine canon_row_step _ _ 13 (by decide) _ _ ?_ ?_
  · intro u f
    refine (sumRow (BitVec.ofNat 32 13) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact congrArg (· + _) (readAt_row arg3 harg3 xo2 13 (by decide) _ u f)
  refine canon_row_step _ _ 12 (by decide) _ _ ?_ ?_
  · intro u f
    refine (sumRow (BitVec.ofNat 32 12) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact congrArg (· + _) (readAt_row arg3 harg3 xo2 12 (by decide) _ u f)
  refine canon_row_step _ _ 11 (by decide) _ _ ?_ ?_
  · intro u f
    refine (sumRow (BitVec.ofNat 32 11) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact congrArg (· + _) (readAt_row arg3 harg3 xo2 11 (by decide) _ u f)
  refine canon_row_step _ _ 10 (by decide) _ _ ?_ ?_
  · intro u f
    refine (sumRow (BitVec.ofNat 32 10) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact congrArg (· + _) (readAt_row arg3 harg3 xo2 10 (by decide) _ u f)
  refine canon_row_step _ _ 9 (by decide) _ _ ?_ ?_
  · intro u f
    refine (sumRow (BitVec.ofNat 32 9) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact congrArg (· + _) (readAt_row arg3 harg3 xo2 9 (by decide) _ u f)
  refine canon_row_step _ _ 8 (by decide) _ _ ?_ ?_
  · intro u f
    refine (sumRow (BitVec.ofNat 32 8) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact congrArg (· + _) (readAt_row arg3 harg3 xo2 8 (by decide) _ u f)
  refine canon_row_step _ _ 7 (by decide) _ _ ?_ ?_
  · intro u f
    refine (sumRow (BitVec.ofNat 32 7) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact congrArg (· + _) (readAt_row arg3 harg3 xo2 7 (by decide) _ u f)
  refine canon_row_step _ _ 6 (by decide) _ _ ?_ ?_
  · intro u f
    refine (sumRow (BitVec.ofNat 32 6) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact congrArg (· + _) (readAt_row arg3 harg3 xo2 6 (by decide) _ u f)
  refine canon_row_step _ _ 5 (by decide) _ _ ?_ ?_
  · intro u f
    refine (sumRow (BitVec.ofNat 32 5) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact congrArg (· + _) (readAt_row arg3 harg3 xo2 5 (by decide) _ u f)
  refine canon_row_step _ _ 4 (by decide) _ _ ?_ ?_
  · intro u f
    refine (sumRow (BitVec.ofNat 32 4) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact congrArg (· + _) (readAt_row arg3 harg3 xo2 4 (by decide) _ u f)
  refine canon_row_step _ _ 3 (by decide) _ _ ?_ ?_
  · intro u f
    refine (sumRow (BitVec.ofNat 32 3) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact congrArg (· + _) (readAt_row arg3 harg3 xo2 3 (by decide) _ u f)
  refine canon_row_step _ _ 2 (by decide) _ _ ?_ ?_
  · intro u f
    refine (sumRow (BitVec.ofNat 32 2) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact congrArg (· + _) (readAt_row arg3 harg3 xo2 2 (by decide) _ u f)
  refine canon_row_step _ _ 1 (by decide) _ _ ?_ ?_
  · intro u f
    refine (sumRow (BitVec.ofNat 32 1) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact congrArg (· + _) (readAt_row arg3 harg3 xo2 1 (by decide) _ u f)
  refine canon_row_step _ _ 0 (by decide) _ _ ?_ ?_
  · intro u f
    refine (sumRow (BitVec.ofNat 32 0) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact congrArg (· + _) (readAt_row arg3 harg3 xo2 0 (by decide) _ u f)
  · intro y hy; exact absurd hy (Nat.not_lt_zero _)
  rw [ldX_eq, ldI_eq]
  rfl

/-- A later point, squares. -/
theorem outB_sq (c : Dev nD) (i : grid0.Coords) (arg1 : Memref sig .tc .vmem S20000x64 .f32) (harg1 : arg1.IsWhole) (arg2 : Memref sig .tc .vmem S20000x1 .i32) (harg2 : arg2.IsWhole) (arg3 : Memref sig .tc .vmem S16x64 .f32) (harg3 : arg3.IsWhole) (arg4 : Memref sig .tc .vmem S16x64 .f32) (harg4 : arg4.IsWhole) (arg5 : Memref sig .tc .vmem S16x1 .f32) (harg5 : arg5.IsWhole) (hc0 : ¬cond0_0 i)
    (x0 : Vec Ideal S20000x64 .f32) (x1 : Vec Ideal S20000x1 .i32) (xo2 xo3 : Vec Ideal S16x64 .f32) (xo4 : Vec Ideal S16x1 .f32)
    (b : Fin 16) (f : Fin 64) :
    out0_B_3 (F := Ideal) c i arg1 harg1 arg2 harg2 arg3 harg3 arg4 harg4 arg5 harg5 hc0 x0 x1 xo2 xo3 xo4 (ix2 b f)
      = xo3 (ix2 b f) + ∑ r : Fin 20000, x0 (ix2 r f) * GN.ind (x1 (ix2 r (0 : Fin 1))) b.val * x0 (ix2 r f) := by
  unfold out0_B_3
  rw [View.read_writes_eq_canon _ _ _ (cover0_B_3 c i arg1 harg1 arg2 harg2 arg3 harg3 arg4 harg4 arg5 harg5 hc0 x0 x1 xo2 xo3 xo4)]
  unfold kernelRun0_B
  dsimp only
  sl_unfold_words
  open_pay
  refine (canon_row_step (fun y => xo3 y + sqTbl (ldX arg1 harg1 x0) (ldI arg2 harg2 x1) y) _ 15 (by decide) _ _ ?_ ?_ (ix2 b f) b.isLt).trans ?_
  · intro u f
    refine (sqRow (BitVec.ofNat 32 15) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact congrArg (· + _) (readAt_row arg4 harg4 xo3 15 (by decide) _ u f)
  refine canon_row_step _ _ 14 (by decide) _ _ ?_ ?_
  · intro u f
    refine (sqRow (BitVec.ofNat 32 14) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact congrArg (· + _) (readAt_row arg4 harg4 xo3 14 (by decide) _ u f)
  refine canon_row_step _ _ 13 (by decide) _ _ ?_ ?_
  · intro u f
    refine (sqRow (BitVec.ofNat 32 13) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact congrArg (· + _) (readAt_row arg4 harg4 xo3 13 (by decide) _ u f)
  refine canon_row_step _ _ 12 (by decide) _ _ ?_ ?_
  · intro u f
    refine (sqRow (BitVec.ofNat 32 12) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact congrArg (· + _) (readAt_row arg4 harg4 xo3 12 (by decide) _ u f)
  refine canon_row_step _ _ 11 (by decide) _ _ ?_ ?_
  · intro u f
    refine (sqRow (BitVec.ofNat 32 11) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact congrArg (· + _) (readAt_row arg4 harg4 xo3 11 (by decide) _ u f)
  refine canon_row_step _ _ 10 (by decide) _ _ ?_ ?_
  · intro u f
    refine (sqRow (BitVec.ofNat 32 10) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact congrArg (· + _) (readAt_row arg4 harg4 xo3 10 (by decide) _ u f)
  refine canon_row_step _ _ 9 (by decide) _ _ ?_ ?_
  · intro u f
    refine (sqRow (BitVec.ofNat 32 9) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact congrArg (· + _) (readAt_row arg4 harg4 xo3 9 (by decide) _ u f)
  refine canon_row_step _ _ 8 (by decide) _ _ ?_ ?_
  · intro u f
    refine (sqRow (BitVec.ofNat 32 8) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact congrArg (· + _) (readAt_row arg4 harg4 xo3 8 (by decide) _ u f)
  refine canon_row_step _ _ 7 (by decide) _ _ ?_ ?_
  · intro u f
    refine (sqRow (BitVec.ofNat 32 7) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact congrArg (· + _) (readAt_row arg4 harg4 xo3 7 (by decide) _ u f)
  refine canon_row_step _ _ 6 (by decide) _ _ ?_ ?_
  · intro u f
    refine (sqRow (BitVec.ofNat 32 6) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact congrArg (· + _) (readAt_row arg4 harg4 xo3 6 (by decide) _ u f)
  refine canon_row_step _ _ 5 (by decide) _ _ ?_ ?_
  · intro u f
    refine (sqRow (BitVec.ofNat 32 5) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact congrArg (· + _) (readAt_row arg4 harg4 xo3 5 (by decide) _ u f)
  refine canon_row_step _ _ 4 (by decide) _ _ ?_ ?_
  · intro u f
    refine (sqRow (BitVec.ofNat 32 4) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact congrArg (· + _) (readAt_row arg4 harg4 xo3 4 (by decide) _ u f)
  refine canon_row_step _ _ 3 (by decide) _ _ ?_ ?_
  · intro u f
    refine (sqRow (BitVec.ofNat 32 3) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact congrArg (· + _) (readAt_row arg4 harg4 xo3 3 (by decide) _ u f)
  refine canon_row_step _ _ 2 (by decide) _ _ ?_ ?_
  · intro u f
    refine (sqRow (BitVec.ofNat 32 2) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact congrArg (· + _) (readAt_row arg4 harg4 xo3 2 (by decide) _ u f)
  refine canon_row_step _ _ 1 (by decide) _ _ ?_ ?_
  · intro u f
    refine (sqRow (BitVec.ofNat 32 1) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact congrArg (· + _) (readAt_row arg4 harg4 xo3 1 (by decide) _ u f)
  refine canon_row_step _ _ 0 (by decide) _ _ ?_ ?_
  · intro u f
    refine (sqRow (BitVec.ofNat 32 0) (ldX arg1 harg1 x0) (ldI arg2 harg2 x1) _ Facts₀.shapeCasts_S1x64_S1x64 Facts₀.reduces_S20000x64_S64 Facts₀.shapeCasts_S64_S1x64 Facts₀.broadcasts_S20000x1_S20000x64 Facts₀.natLt_1_32 (.inl rfl) rfl u f).trans ?_
    exact congrArg (· + _) (readAt_row arg4 harg4 xo3 0 (by decide) _ u f)
  · intro y hy; exact absurd hy (Nat.not_lt_zero _)
  rw [ldX_eq, ldI_eq]
  rfl

/-- A later point, counts. -/
theorem outB_cnt (c : Dev nD) (i : grid0.Coords) (arg1 : Memref sig .tc .vmem S20000x64 .f32) (harg1 : arg1.IsWhole) (arg2 : Memref sig .tc .vmem S20000x1 .i32) (harg2 : arg2.IsWhole) (arg3 : Memref sig .tc .vmem S16x64 .f32) (harg3 : arg3.IsWhole) (arg4 : Memref sig .tc .vmem S16x64 .f32) (harg4 : arg4.IsWhole) (arg5 : Memref sig .tc .vmem S16x1 .f32) (harg5 : arg5.IsWhole) (hc0 : ¬cond0_0 i)
    (x0 : Vec Ideal S20000x64 .f32) (x1 : Vec Ideal S20000x1 .i32) (xo2 xo3 : Vec Ideal S16x64 .f32) (xo4 : Vec Ideal S16x1 .f32)
    (b : Fin 16) (z : Fin 1) :
    out0_B_4 (F := Ideal) c i arg1 harg1 arg2 harg2 arg3 harg3 arg4 harg4 arg5 harg5 hc0 x0 x1 xo2 xo3 xo4 (ix2 b z)
      = xo4 (ix2 b z) + ∑ r : Fin 20000, GN.ind (x1 (ix2 r (0 : Fin 1))) b.val := by
  unfold out0_B_4
  rw [View.read_writes_eq_canon _ _ _ (cover0_B_4 c i arg1 harg1 arg2 harg2 arg3 harg3 arg4 harg4 arg5 harg5 hc0 x0 x1 xo2 xo3 xo4)]
  unfold kernelRun0_B
  dsimp only
  sl_unfold_words
  open_pay
  refine (canon_row_step (fun y => xo4 y + cntTbl (ldI arg2 harg2 x1) y) _ 15 (by decide) _ _ ?_ ?_ (ix2 b z) b.isLt).trans ?_
  · intro u f
    refine (cntRow (BitVec.ofNat 32 15) (ldI arg2 harg2 x1) _ Facts₀.shapeCasts_S1x1_S1x1 Facts₀.reduces_S20000x1_S1 Facts₀.shapeCasts_S1_S1x1 Facts₀.natLt_1_32 (.inl rfl) rfl u f).trans ?_
    exact congrArg (· + _) (readAt_row arg5 harg5 xo4 15 (by decide) _ u f)
  refine canon_row_step _ _ 14 (by decide) _ _ ?_ ?_
  · intro u f
    refine (cntRow (BitVec.ofNat 32 14) (ldI arg2 harg2 x1) _ Facts₀.shapeCasts_S1x1_S1x1 Facts₀.reduces_S20000x1_S1 Facts₀.shapeCasts_S1_S1x1 Facts₀.natLt_1_32 (.inl rfl) rfl u f).trans ?_
    exact congrArg (· + _) (readAt_row arg5 harg5 xo4 14 (by decide) _ u f)
  refine canon_row_step _ _ 13 (by decide) _ _ ?_ ?_
  · intro u f
    refine (cntRow (BitVec.ofNat 32 13) (ldI arg2 harg2 x1) _ Facts₀.shapeCasts_S1x1_S1x1 Facts₀.reduces_S20000x1_S1 Facts₀.shapeCasts_S1_S1x1 Facts₀.natLt_1_32 (.inl rfl) rfl u f).trans ?_
    exact congrArg (· + _) (readAt_row arg5 harg5 xo4 13 (by decide) _ u f)
  refine canon_row_step _ _ 12 (by decide) _ _ ?_ ?_
  · intro u f
    refine (cntRow (BitVec.ofNat 32 12) (ldI arg2 harg2 x1) _ Facts₀.shapeCasts_S1x1_S1x1 Facts₀.reduces_S20000x1_S1 Facts₀.shapeCasts_S1_S1x1 Facts₀.natLt_1_32 (.inl rfl) rfl u f).trans ?_
    exact congrArg (· + _) (readAt_row arg5 harg5 xo4 12 (by decide) _ u f)
  refine canon_row_step _ _ 11 (by decide) _ _ ?_ ?_
  · intro u f
    refine (cntRow (BitVec.ofNat 32 11) (ldI arg2 harg2 x1) _ Facts₀.shapeCasts_S1x1_S1x1 Facts₀.reduces_S20000x1_S1 Facts₀.shapeCasts_S1_S1x1 Facts₀.natLt_1_32 (.inl rfl) rfl u f).trans ?_
    exact congrArg (· + _) (readAt_row arg5 harg5 xo4 11 (by decide) _ u f)
  refine canon_row_step _ _ 10 (by decide) _ _ ?_ ?_
  · intro u f
    refine (cntRow (BitVec.ofNat 32 10) (ldI arg2 harg2 x1) _ Facts₀.shapeCasts_S1x1_S1x1 Facts₀.reduces_S20000x1_S1 Facts₀.shapeCasts_S1_S1x1 Facts₀.natLt_1_32 (.inl rfl) rfl u f).trans ?_
    exact congrArg (· + _) (readAt_row arg5 harg5 xo4 10 (by decide) _ u f)
  refine canon_row_step _ _ 9 (by decide) _ _ ?_ ?_
  · intro u f
    refine (cntRow (BitVec.ofNat 32 9) (ldI arg2 harg2 x1) _ Facts₀.shapeCasts_S1x1_S1x1 Facts₀.reduces_S20000x1_S1 Facts₀.shapeCasts_S1_S1x1 Facts₀.natLt_1_32 (.inl rfl) rfl u f).trans ?_
    exact congrArg (· + _) (readAt_row arg5 harg5 xo4 9 (by decide) _ u f)
  refine canon_row_step _ _ 8 (by decide) _ _ ?_ ?_
  · intro u f
    refine (cntRow (BitVec.ofNat 32 8) (ldI arg2 harg2 x1) _ Facts₀.shapeCasts_S1x1_S1x1 Facts₀.reduces_S20000x1_S1 Facts₀.shapeCasts_S1_S1x1 Facts₀.natLt_1_32 (.inl rfl) rfl u f).trans ?_
    exact congrArg (· + _) (readAt_row arg5 harg5 xo4 8 (by decide) _ u f)
  refine canon_row_step _ _ 7 (by decide) _ _ ?_ ?_
  · intro u f
    refine (cntRow (BitVec.ofNat 32 7) (ldI arg2 harg2 x1) _ Facts₀.shapeCasts_S1x1_S1x1 Facts₀.reduces_S20000x1_S1 Facts₀.shapeCasts_S1_S1x1 Facts₀.natLt_1_32 (.inl rfl) rfl u f).trans ?_
    exact congrArg (· + _) (readAt_row arg5 harg5 xo4 7 (by decide) _ u f)
  refine canon_row_step _ _ 6 (by decide) _ _ ?_ ?_
  · intro u f
    refine (cntRow (BitVec.ofNat 32 6) (ldI arg2 harg2 x1) _ Facts₀.shapeCasts_S1x1_S1x1 Facts₀.reduces_S20000x1_S1 Facts₀.shapeCasts_S1_S1x1 Facts₀.natLt_1_32 (.inl rfl) rfl u f).trans ?_
    exact congrArg (· + _) (readAt_row arg5 harg5 xo4 6 (by decide) _ u f)
  refine canon_row_step _ _ 5 (by decide) _ _ ?_ ?_
  · intro u f
    refine (cntRow (BitVec.ofNat 32 5) (ldI arg2 harg2 x1) _ Facts₀.shapeCasts_S1x1_S1x1 Facts₀.reduces_S20000x1_S1 Facts₀.shapeCasts_S1_S1x1 Facts₀.natLt_1_32 (.inl rfl) rfl u f).trans ?_
    exact congrArg (· + _) (readAt_row arg5 harg5 xo4 5 (by decide) _ u f)
  refine canon_row_step _ _ 4 (by decide) _ _ ?_ ?_
  · intro u f
    refine (cntRow (BitVec.ofNat 32 4) (ldI arg2 harg2 x1) _ Facts₀.shapeCasts_S1x1_S1x1 Facts₀.reduces_S20000x1_S1 Facts₀.shapeCasts_S1_S1x1 Facts₀.natLt_1_32 (.inl rfl) rfl u f).trans ?_
    exact congrArg (· + _) (readAt_row arg5 harg5 xo4 4 (by decide) _ u f)
  refine canon_row_step _ _ 3 (by decide) _ _ ?_ ?_
  · intro u f
    refine (cntRow (BitVec.ofNat 32 3) (ldI arg2 harg2 x1) _ Facts₀.shapeCasts_S1x1_S1x1 Facts₀.reduces_S20000x1_S1 Facts₀.shapeCasts_S1_S1x1 Facts₀.natLt_1_32 (.inl rfl) rfl u f).trans ?_
    exact congrArg (· + _) (readAt_row arg5 harg5 xo4 3 (by decide) _ u f)
  refine canon_row_step _ _ 2 (by decide) _ _ ?_ ?_
  · intro u f
    refine (cntRow (BitVec.ofNat 32 2) (ldI arg2 harg2 x1) _ Facts₀.shapeCasts_S1x1_S1x1 Facts₀.reduces_S20000x1_S1 Facts₀.shapeCasts_S1_S1x1 Facts₀.natLt_1_32 (.inl rfl) rfl u f).trans ?_
    exact congrArg (· + _) (readAt_row arg5 harg5 xo4 2 (by decide) _ u f)
  refine canon_row_step _ _ 1 (by decide) _ _ ?_ ?_
  · intro u f
    refine (cntRow (BitVec.ofNat 32 1) (ldI arg2 harg2 x1) _ Facts₀.shapeCasts_S1x1_S1x1 Facts₀.reduces_S20000x1_S1 Facts₀.shapeCasts_S1_S1x1 Facts₀.natLt_1_32 (.inl rfl) rfl u f).trans ?_
    exact congrArg (· + _) (readAt_row arg5 harg5 xo4 1 (by decide) _ u f)
  refine canon_row_step _ _ 0 (by decide) _ _ ?_ ?_
  · intro u f
    refine (cntRow (BitVec.ofNat 32 0) (ldI arg2 harg2 x1) _ Facts₀.shapeCasts_S1x1_S1x1 Facts₀.reduces_S20000x1_S1 Facts₀.shapeCasts_S1_S1x1 Facts₀.natLt_1_32 (.inl rfl) rfl u f).trans ?_
    exact congrArg (· + _) (readAt_row arg5 harg5 xo4 0 (by decide) _ u f)
  · intro y hy; exact absurd hy (Nat.not_lt_zero _)
  rw [ldI_eq]
  rfl

end Cert.KernelIdeal.StatsPieces

end
-- ==== Proof.StatsValue.lean ====
/-
  The statistics pass over its fifty grid points: each running table after the last point, written back once, is
  the masked sum over all 1,000,000 rows — point t holds rows 20000 t … 20000 t + 19999.

  The argument.  A point's blocks are rows 20000 t + r of the two arrays.  The first point leaves, in each table,
  its own block's masked column sums; every later point adds its block's sums to what the point before left.  So
  after point n a table entry is the sum of its summand over the rows below 20000 (n + 1) (induction on n, the
  summand continued by zero past the last row so that the partial sums are sums over an initial stretch of the
  naturals), and after point 49 over all rows.  The tables' block never moves and is the whole table, so the one
  write-back, after the last point, writes exactly that.
-/
import proofs.«422416_j58806692216853_3_alg».proof.Proof.Gen.KernelIdeal.Frame
import proofs.«422416_j58806692216853_3_alg».proof.Proof.Spec
import proofs.«422416_j58806692216853_3_alg».proof.Proof.StatsPieces
import Idealize.ShloMosaic.Lib.Pipeline.Value
import Idealize.ShloMosaic.Lib.ValueIdx
import Mathlib.Algebra.BigOperators.Fin
import Mathlib.Algebra.BigOperators.Group.Finset.Basic

set_option maxRecDepth 16384

noncomputable section

namespace Cert.KernelIdeal.StatsValue

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window BodyObligation cellOf)
open scoped BigOperators

variable (V : (c : Dev nD) → (b : Ref sig .tc) → Buf (Elt Ideal) ((c : Thread nD τ).loc b))

/-! ### The arrays, and a point's blocks of them -/

/-- The features, [1000000, 64], as the pass finds them, -/
abbrev xarr (c : Dev nD) : Vec Ideal S1000000x64 .f32 := V c main_arg0
/-- the ids, [1000000, 1], -/
abbrev idarr (c : Dev nD) : Vec Ideal S1000000x1 .i32 := V c main_v0
/-- the 20000 rows of the features that point t holds, -/
abbrev xblk (c : Dev nD) (t : Fin cfg0.N) : Vec Ideal S20000x64 .f32 := iblk0 V c 0 t
/-- and their ids. -/
abbrev idblk (c : Dev nD) (t : Fin cfg0.N) : Vec Ideal S20000x1 .i32 := iblk0 V c 1 t

/-- Row r of point t is a row of the array: 20000 t + r < 1000000. -/
theorem rowlt (t : Fin cfg0.N) (r : Fin 20000) : 20000 * t.val + r.val < 1000000 := by
  have := lt_of_lt_of_eq t.isLt (show cfg0.N = 50 from N_0); have := r.isLt; omega

/-- The features' block index at point t is (t, 0); -/
theorem hidx0 : ∀ t : Fin cfg0.N, win0_0.index t 0 = t.val ∧ win0_0.index t 1 = 0 :=
  (by decide +kernel : ∀ t : Fin grid0.N, win0_0.index t 0 = t.val ∧ win0_0.index t 1 = 0)

/-- so is the ids'. -/
theorem hidx1 : ∀ t : Fin cfg0.N, win0_1.index t 0 = t.val ∧ win0_1.index t 1 = 0 :=
  (by decide +kernel : ∀ t : Fin grid0.N, win0_1.index t 0 = t.val ∧ win0_1.index t 1 = 0)

/-- Entry (r, f) of point t's block of features is entry (20000 t + r, f) of the array. -/
theorem xblk_apply (c : Dev nD) (t : Fin cfg0.N) (r : Fin 20000) (f : Fin 64) :
    xblk V c t (ix2 r f) = xarr V c (ix2 ⟨20000 * t.val + r.val, rowlt t r⟩ f) := by
  show V c main_arg0 (((cfg0.win 0).blk t).view.emb (ix2 r f)) = V c main_arg0 _
  congr 1
  funext a
  apply Fin.ext
  match a with
  | ⟨0, _⟩ => show win0_0.index t 0 * 20000 + 1 * r.val = 20000 * t.val + r.val; rw [(hidx0 t).1]; omega
  | ⟨1, _⟩ => show win0_0.index t 1 * 64 + 1 * f.val = f.val; rw [(hidx0 t).2]; omega

/-- Entry (r, 0) of point t's block of ids is entry (20000 t + r, 0) of the array. -/
theorem idblk_apply (c : Dev nD) (t : Fin cfg0.N) (r : Fin 20000) (z : Fin 1) :
    idblk V c t (ix2 r z) = idarr V c (ix2 ⟨20000 * t.val + r.val, rowlt t r⟩ z) := by
  show V c main_v0 (((cfg0.win 1).blk t).view.emb (ix2 r z)) = V c main_v0 _
  congr 1
  funext a
  apply Fin.ext
  match a with
  | ⟨0, _⟩ => show win0_1.index t 0 * 20000 + 1 * r.val = 20000 * t.val + r.val; rw [(hidx1 t).1]; omega
  | ⟨1, _⟩ => show win0_1.index t 1 * 1 + 1 * z.val = z.val; rw [(hidx1 t).2]; omega

/-! ### Fifty block sums make the sum over all rows -/

/-- A function of the rows, continued by zero past the last row. -/
def ext0 (g : Fin 1000000 → EReal) (k : ℕ) : EReal := if h : k < 1000000 then g ⟨k, h⟩ else 0

/-- The sum of the continued function over the first 1,000,000 naturals is the sum over the rows. -/
theorem sum_ext0 (g : Fin 1000000 → EReal) : ∑ k ∈ Finset.range 1000000, ext0 g k = ∑ n : Fin 1000000, g n := by
  rw [Finset.sum_range]
  refine Fintype.sum_congr _ _ (fun n => ?_)
  unfold ext0
  rw [dif_pos n.isLt]

/-- The rows of point t, summed, are a stretch of 20000 naturals from 20000 t. -/
theorem blk_ext0 (g : Fin 1000000 → EReal) (t : Fin cfg0.N) :
    ∑ r : Fin 20000, g ⟨20000 * t.val + r.val, rowlt t r⟩ = ∑ x ∈ Finset.range 20000, ext0 g (20000 * t.val + x) := by
  rw [Finset.sum_range]
  refine Fintype.sum_congr _ _ (fun r => ?_)
  unfold ext0
  rw [dif_pos (rowlt t r)]

/-- A quantity that starts at the first point's block sum and grows by each later point's block sum is, after
    point n, the sum over the rows below 20000 (n + 1). -/
theorem acc_rows (g : Fin 1000000 → EReal) (a : (n : ℕ) → n < cfg0.N → EReal)
    (h0 : ∀ h : 0 < cfg0.N, a 0 h = ∑ r : Fin 20000, g ⟨20000 * (⟨0, h⟩ : Fin cfg0.N).val + r.val, rowlt ⟨0, h⟩ r⟩)
    (hs : ∀ (n : ℕ) (h : n + 1 < cfg0.N), a (n + 1) h = a n (Nat.lt_of_succ_lt h)
        + ∑ r : Fin 20000, g ⟨20000 * (⟨n + 1, h⟩ : Fin cfg0.N).val + r.val, rowlt ⟨n + 1, h⟩ r⟩) :
    ∀ (n : ℕ) (h : n < cfg0.N), a n h = ∑ k ∈ Finset.range (20000 * (n + 1)), ext0 g k
  | 0, h => by
    rw [h0 h, blk_ext0 g ⟨0, h⟩]
    refine Finset.sum_congr rfl (fun x _ => ?_)
    show ext0 g (20000 * 0 + x) = ext0 g x
    rw [Nat.mul_zero, Nat.zero_add]
  | n + 1, h => by
    rw [hs n h, acc_rows g a h0 hs n (Nat.lt_of_succ_lt h), blk_ext0 g ⟨n + 1, h⟩,
      show 20000 * (n + 1 + 1) = 20000 * (n + 1) + 20000 from by omega, Finset.sum_range_add]

/-- So after the last point it is the sum over all rows. -/
theorem acc_total (g : Fin 1000000 → EReal) (a : (n : ℕ) → n < cfg0.N → EReal)
    (h0 : ∀ h : 0 < cfg0.N, a 0 h = ∑ r : Fin 20000, g ⟨20000 * (⟨0, h⟩ : Fin cfg0.N).val + r.val, rowlt ⟨0, h⟩ r⟩)
    (hs : ∀ (n : ℕ) (h : n + 1 < cfg0.N), a (n + 1) h = a n (Nat.lt_of_succ_lt h)
        + ∑ r : Fin 20000, g ⟨20000 * (⟨n + 1, h⟩ : Fin cfg0.N).val + r.val, rowlt ⟨n + 1, h⟩ r⟩)
    (h : 49 < cfg0.N) : a 49 h = ∑ n : Fin 1000000, g n := by
  rw [acc_rows g a h0 hs 49 h, ← sum_ext0 g]

/-! ### The three summands -/

/-- The summand of the table of sums at row n, -/
abbrev gS (c : Dev nD) (b : Fin 16) (f : Fin 64) (n : Fin 1000000) : EReal :=
  xarr V c (ix2 n f) * GN.ind (idarr V c (ix2 n (0 : Fin 1))) b.val
/-- of the table of squares, -/
abbrev gQ (c : Dev nD) (b : Fin 16) (f : Fin 64) (n : Fin 1000000) : EReal :=
  xarr V c (ix2 n f) * GN.ind (idarr V c (ix2 n (0 : Fin 1))) b.val * xarr V c (ix2 n f)
/-- of the table of counts. -/
abbrev gC (c : Dev nD) (b : Fin 16) (n : Fin 1000000) : EReal :=
  GN.ind (idarr V c (ix2 n (0 : Fin 1))) b.val

/-- No point after the first is a multiple of fifty. -/
theorem later (n : ℕ) (h : n + 1 < cfg0.N) : ¬(⟨n + 1, h⟩ : Fin cfg0.N).val % 50 = 0 := by
  have := lt_of_lt_of_eq h (show cfg0.N = 50 from N_0)
  show ¬(n + 1) % 50 = 0
  omega

/-! ### The first point leaves its own block sums -/

theorem first_sum (c : Dev nD) (b : Fin 16) (f : Fin 64) (h : 0 < cfg0.N) :
    (outsAt0 V c 0 h).1 (ix2 b f)
      = ∑ r : Fin 20000, gS V c b f ⟨20000 * (⟨0, h⟩ : Fin cfg0.N).val + r.val, rowlt ⟨0, h⟩ r⟩ := by
  rw [outsAt0_A V c ⟨0, h⟩ rfl]
  dsimp only
  refine (StatsPieces.outA_sum c (grid0.coords ⟨0, h⟩) (ms0_0 ⟨0, h⟩) (hs0_0 ⟨0, h⟩) (ms0_1 ⟨0, h⟩) (hs0_1 ⟨0, h⟩)
    (ms0_2 ⟨0, h⟩) (hs0_2 ⟨0, h⟩) (ms0_3 ⟨0, h⟩) (hs0_3 ⟨0, h⟩) (ms0_4 ⟨0, h⟩) (hs0_4 ⟨0, h⟩)
    ((hcond0_0 ⟨0, h⟩).mpr rfl) (xblk V c ⟨0, h⟩) (idblk V c ⟨0, h⟩) b f).trans ?_
  refine Fintype.sum_congr _ _ (fun r => ?_)
  rw [xblk_apply, idblk_apply]

theorem first_sq (c : Dev nD) (b : Fin 16) (f : Fin 64) (h : 0 < cfg0.N) :
    (outsAt0 V c 0 h).2.1 (ix2 b f)
      = ∑ r : Fin 20000, gQ V c b f ⟨20000 * (⟨0, h⟩ : Fin cfg0.N).val + r.val, rowlt ⟨0, h⟩ r⟩ := by
  rw [outsAt0_A V c ⟨0, h⟩ rfl]
  dsimp only
  refine (StatsPieces.outA_sq c (grid0.coords ⟨0, h⟩) (ms0_0 ⟨0, h⟩) (hs0_0 ⟨0, h⟩) (ms0_1 ⟨0, h⟩) (hs0_1 ⟨0, h⟩)
    (ms0_2 ⟨0, h⟩) (hs0_2 ⟨0, h⟩) (ms0_3 ⟨0, h⟩) (hs0_3 ⟨0, h⟩) (ms0_4 ⟨0, h⟩) (hs0_4 ⟨0, h⟩)
    ((hcond0_0 ⟨0, h⟩).mpr rfl) (xblk V c ⟨0, h⟩) (idblk V c ⟨0, h⟩) b f).trans ?_
  refine Fintype.sum_congr _ _ (fun r => ?_)
  rw [xblk_apply, idblk_apply]

theorem first_cnt (c : Dev nD) (b : Fin 16) (z : Fin 1) (h : 0 < cfg0.N) :
    (outsAt0 V c 0 h).2.2 (ix2 b z)
      = ∑ r : Fin 20000, gC V c b ⟨20000 * (⟨0, h⟩ : Fin cfg0.N).val + r.val, rowlt ⟨0, h⟩ r⟩ := by
  rw [outsAt0_A V c ⟨0, h⟩ rfl]
  dsimp only
  refine (StatsPieces.outA_cnt c (grid0.coords ⟨0, h⟩) (ms0_0 ⟨0, h⟩) (hs0_0 ⟨0, h⟩) (ms0_1 ⟨0, h⟩) (hs0_1 ⟨0, h⟩)
    (ms0_2 ⟨0, h⟩) (hs0_2 ⟨0, h⟩) (ms0_3 ⟨0, h⟩) (hs0_3 ⟨0, h⟩) (ms0_4 ⟨0, h⟩) (hs0_4 ⟨0, h⟩)
    ((hcond0_0 ⟨0, h⟩).mpr rfl) (xblk V c ⟨0, h⟩) (idblk V c ⟨0, h⟩) b z).trans ?_
  refine Fintype.sum_congr _ _ (fun r => ?_)
  rw [idblk_apply]

/-! ### A later point adds its block sums to what the point before left -/

theorem step_sum (c : Dev nD) (b : Fin 16) (f : Fin 64) (n : ℕ) (h : n + 1 < cfg0.N) :
    (outsAt0 V c (n + 1) h).1 (ix2 b f) = (outsAt0 V c n (Nat.lt_of_succ_lt h)).1 (ix2 b f)
      + ∑ r : Fin 20000, gS V c b f ⟨20000 * (⟨n + 1, h⟩ : Fin cfg0.N).val + r.val, rowlt ⟨n + 1, h⟩ r⟩ := by
  rw [outsAt0_B V c ⟨n + 1, h⟩ (later n h)]
  dsimp only
  refine (StatsPieces.outB_sum c (grid0.coords ⟨n + 1, h⟩) (ms0_0 ⟨n + 1, h⟩) (hs0_0 ⟨n + 1, h⟩) (ms0_1 ⟨n + 1, h⟩) (hs0_1 ⟨n + 1, h⟩)
    (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩)
    (fun h' => later n h ((hcond0_0 ⟨n + 1, h⟩).mp h')) (xblk V c ⟨n + 1, h⟩) (idblk V c ⟨n + 1, h⟩)
    (outsAt0 V c n (Nat.lt_of_succ_lt h)).1 (outsAt0 V c n (Nat.lt_of_succ_lt h)).2.1 (outsAt0 V c n (Nat.lt_of_succ_lt h)).2.2 b f).trans ?_
  refine congrArg (fun s => (outsAt0 V c n (Nat.lt_of_succ_lt h)).1 (ix2 b f) + s) ?_
  refine Fintype.sum_congr _ _ (fun r => ?_)
  rw [xblk_apply, idblk_apply]

theorem step_sq (c : Dev nD) (b : Fin 16) (f : Fin 64) (n : ℕ) (h : n + 1 < cfg0.N) :
    (outsAt0 V c (n + 1) h).2.1 (ix2 b f) = (outsAt0 V c n (Nat.lt_of_succ_lt h)).2.1 (ix2 b f)
      + ∑ r : Fin 20000, gQ V c b f ⟨20000 * (⟨n + 1, h⟩ : Fin cfg0.N).val + r.val, rowlt ⟨n + 1, h⟩ r⟩ := by
  rw [outsAt0_B V c ⟨n + 1, h⟩ (later n h)]
  dsimp only
  refine (StatsPieces.outB_sq c (grid0.coords ⟨n + 1, h⟩) (ms0_0 ⟨n + 1, h⟩) (hs0_0 ⟨n + 1, h⟩) (ms0_1 ⟨n + 1, h⟩) (hs0_1 ⟨n + 1, h⟩)
    (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩)
    (fun h' => later n h ((hcond0_0 ⟨n + 1, h⟩).mp h')) (xblk V c ⟨n + 1, h⟩) (idblk V c ⟨n + 1, h⟩)
    (outsAt0 V c n (Nat.lt_of_succ_lt h)).1 (outsAt0 V c n (Nat.lt_of_succ_lt h)).2.1 (outsAt0 V c n (Nat.lt_of_succ_lt h)).2.2 b f).trans ?_
  refine congrArg (fun s => (outsAt0 V c n (Nat.lt_of_succ_lt h)).2.1 (ix2 b f) + s) ?_
  refine Fintype.sum_congr _ _ (fun r => ?_)
  rw [xblk_apply, idblk_apply]

theorem step_cnt (c : Dev nD) (b : Fin 16) (z : Fin 1) (n : ℕ) (h : n + 1 < cfg0.N) :
    (outsAt0 V c (n + 1) h).2.2 (ix2 b z) = (outsAt0 V c n (Nat.lt_of_succ_lt h)).2.2 (ix2 b z)
      + ∑ r : Fin 20000, gC V c b ⟨20000 * (⟨n + 1, h⟩ : Fin cfg0.N).val + r.val, rowlt ⟨n + 1, h⟩ r⟩ := by
  rw [outsAt0_B V c ⟨n + 1, h⟩ (later n h)]
  dsimp only
  refine (StatsPieces.outB_cnt c (grid0.coords ⟨n + 1, h⟩) (ms0_0 ⟨n + 1, h⟩) (hs0_0 ⟨n + 1, h⟩) (ms0_1 ⟨n + 1, h⟩) (hs0_1 ⟨n + 1, h⟩)
    (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩)
    (fun h' => later n h ((hcond0_0 ⟨n + 1, h⟩).mp h')) (xblk V c ⟨n + 1, h⟩) (idblk V c ⟨n + 1, h⟩)
    (outsAt0 V c n (Nat.lt_of_succ_lt h)).1 (outsAt0 V c n (Nat.lt_of_succ_lt h)).2.1 (outsAt0 V c n (Nat.lt_of_succ_lt h)).2.2 b z).trans ?_
  refine congrArg (fun s => (outsAt0 V c n (Nat.lt_of_succ_lt h)).2.2 (ix2 b z) + s) ?_
  refine Fintype.sum_congr _ _ (fun r => ?_)
  rw [idblk_apply]

/-! ### After the last point each table is the masked sum over all rows -/

theorem last_sum (c : Dev nD) (h : 49 < cfg0.N) :
    (outsAt0 V c 49 h).1 = GN.sumT (V c main_arg0) (V c main_v0) := by
  funext i
  obtain ⟨b, f, rfl⟩ : ∃ (b : Fin 16) (f : Fin 64), i = ix2 b f := ⟨i 0, i 1, eq_ix2 i⟩
  exact (acc_total (gS V c b f) (fun n hn => (outsAt0 V c n hn).1 (ix2 b f))
    (first_sum V c b f) (step_sum V c b f) h).trans (GN.sumT_apply (xarr V c) (idarr V c) b f).symm

theorem last_sq (c : Dev nD) (h : 49 < cfg0.N) :
    (outsAt0 V c 49 h).2.1 = GN.sqT (V c main_arg0) (V c main_v0) := by
  funext i
  obtain ⟨b, f, rfl⟩ : ∃ (b : Fin 16) (f : Fin 64), i = ix2 b f := ⟨i 0, i 1, eq_ix2 i⟩
  exact (acc_total (gQ V c b f) (fun n hn => (outsAt0 V c n hn).2.1 (ix2 b f))
    (first_sq V c b f) (step_sq V c b f) h).trans (GN.sqT_apply (xarr V c) (idarr V c) b f).symm

theorem last_cnt (c : Dev nD) (h : 49 < cfg0.N) :
    (outsAt0 V c 49 h).2.2 = GN.cntT (V c main_v0) := by
  funext i
  obtain ⟨b, z, rfl⟩ : ∃ (b : Fin 16) (z : Fin 1), i = ix2 b z := ⟨i 0, i 1, eq_ix2 i⟩
  exact (acc_total (gC V c b) (fun n hn => (outsAt0 V c n hn).2.2 (ix2 b z))
    (first_cnt V c b z) (step_cnt V c b z) h).trans (GN.cntT_apply (idarr V c) b z).symm

/-! ### The one write-back, after the last point, writes the whole table -/

/-- The last point. -/
abbrev tL : Fin cfg0.N := ⟨49, lt_of_lt_of_eq (by decide : 49 < 50) N_0.symm⟩

/-- A point that writes back is the last point. -/
theorem eq_tL (t : Fin cfg0.N) (h : t.val % 50 = 49) : t = tL := by
  have := lt_of_lt_of_eq t.isLt (show cfg0.N = 50 from N_0)
  exact Fin.ext (show t.val = 49 by omega)

/-- The three tables' block never moves — its index is (0, 0) at every point — and is the whole table. -/
theorem hidx2 : ∀ (t : Fin cfg0.N) (a : Fin 2), win0_2.index t a = 0 ∧ win0_2.xsize (grid0.coords t) a = S16x64.size a :=
  (by decide +kernel : ∀ (t : Fin grid0.N) (a : Fin 2), win0_2.index t a = 0 ∧ win0_2.xsize (grid0.coords t) a = S16x64.size a)
theorem hidx3 : ∀ (t : Fin cfg0.N) (a : Fin 2), win0_3.index t a = 0 ∧ win0_3.xsize (grid0.coords t) a = S16x64.size a :=
  (by decide +kernel : ∀ (t : Fin grid0.N) (a : Fin 2), win0_3.index t a = 0 ∧ win0_3.xsize (grid0.coords t) a = S16x64.size a)
theorem hidx4 : ∀ (t : Fin cfg0.N) (a : Fin 2), win0_4.index t a = 0 ∧ win0_4.xsize (grid0.coords t) a = S16x1.size a :=
  (by decide +kernel : ∀ (t : Fin grid0.N) (a : Fin 2), win0_4.index t a = 0 ∧ win0_4.xsize (grid0.coords t) a = S16x1.size a)

theorem flushed_sum (c : Dev nD) (t : Fin cfg0.N) (hf : (cfg0.win 2).flush t = true) :
    (dat0 V c).flushed 2 t = ((cfg0.win 2).blk t).view.read (Elt Ideal) (GN.sumT (V c main_arg0) (V c main_v0)) := by
  obtain rfl : t = tL := eq_tL t ((flush0_2 t).mp hf)
  show (cfg0.win 2).cut (grid0.coords tL) ((dat0 V c).after 2 tL) = _
  rw [after0_2, last_sum V c tL.isLt]
  have hz : (fun a => win0_2.index tL a * main_v1_0.ty.shape.size a) = fun _ => 0 :=
    funext fun a => by rw [(hidx2 tL a).1, Nat.zero_mul]
  exact (Memref.read_access_unit_zero (Elt Ideal) main_v1_0 hz (fun a => by rw [congrFun hz a, Nat.zero_add])
    (GN.sumT (V c main_arg0) (V c main_v0))).symm

theorem flushed_sq (c : Dev nD) (t : Fin cfg0.N) (hf : (cfg0.win 3).flush t = true) :
    (dat0 V c).flushed 3 t = ((cfg0.win 3).blk t).view.read (Elt Ideal) (GN.sqT (V c main_arg0) (V c main_v0)) := by
  obtain rfl : t = tL := eq_tL t ((flush0_3 t).mp hf)
  show (cfg0.win 3).cut (grid0.coords tL) ((dat0 V c).after 3 tL) = _
  rw [after0_3, last_sq V c tL.isLt]
  have hz : (fun a => win0_3.index tL a * main_v1_1.ty.shape.size a) = fun _ => 0 :=
    funext fun a => by rw [(hidx3 tL a).1, Nat.zero_mul]
  exact (Memref.read_access_unit_zero (Elt Ideal) main_v1_1 hz (fun a => by rw [congrFun hz a, Nat.zero_add])
    (GN.sqT (V c main_arg0) (V c main_v0))).symm

theorem flushed_cnt (c : Dev nD) (t : Fin cfg0.N) (hf : (cfg0.win 4).flush t = true) :
    (dat0 V c).flushed 4 t = ((cfg0.win 4).blk t).view.read (Elt Ideal) (GN.cntT (V c main_v0)) := by
  obtain rfl : t = tL := eq_tL t ((flush0_4 t).mp hf)
  show (cfg0.win 4).cut (grid0.coords tL) ((dat0 V c).after 4 tL) = _
  rw [after0_4, last_cnt V c tL.isLt]
  have hz : (fun a => win0_4.index tL a * main_v1_2.ty.shape.size a) = fun _ => 0 :=
    funext fun a => by rw [(hidx4 tL a).1, Nat.zero_mul]
  exact (Memref.read_access_unit_zero (Elt Ideal) main_v1_2 hz (fun a => by rw [congrFun hz a, Nat.zero_add])
    (GN.cntT (V c main_v0))).symm

/-- After the pass the table of sums holds, per cloud and channel, the sum of the cloud's points. -/
theorem stats_sum (c : Dev nD) :
    (dat0 (F := Ideal) V c).arrAt 2 cfg0.N = GN.sumT (V c main_arg0) (V c main_v0) :=
  (dat0 V c).arrAt_eq_of_cover 2 (GN.sumT (V c main_arg0) (V c main_v0)) (flushed_sum V c) fun i =>
    ⟨tL, (flush0_2 tL).mpr rfl, by
      show i ∈ ((View.whole main_v1_0).slice (win0_2.rect tL)).set
      rw [View.set_slice_whole, Rect.mem_set_unit]
      intro a
      show win0_2.index tL a * win0_2.size a ≤ (i a : Nat)
        ∧ (i a : Nat) < win0_2.index tL a * win0_2.size a + win0_2.xsize (grid0.coords tL) a
      rw [(hidx2 tL a).1, (hidx2 tL a).2, Nat.zero_mul, Nat.zero_add]
      exact ⟨Nat.zero_le _, (i a).isLt⟩⟩

/-- … the table of squares, the sum of their squares. -/
theorem stats_sq (c : Dev nD) :
    (dat0 (F := Ideal) V c).arrAt 3 cfg0.N = GN.sqT (V c main_arg0) (V c main_v0) :=
  (dat0 V c).arrAt_eq_of_cover 3 (GN.sqT (V c main_arg0) (V c main_v0)) (flushed_sq V c) fun i =>
    ⟨tL, (flush0_3 tL).mpr rfl, by
      show i ∈ ((View.whole main_v1_1).slice (win0_3.rect tL)).set
      rw [View.set_slice_whole, Rect.mem_set_unit]
      intro a
      show win0_3.index tL a * win0_3.size a ≤ (i a : Nat)
        ∧ (i a : Nat) < win0_3.index tL a * win0_3.size a + win0_3.xsize (grid0.coords tL) a
      rw [(hidx3 tL a).1, (hidx3 tL a).2, Nat.zero_mul, Nat.zero_add]
      exact ⟨Nat.zero_le _, (i a).isLt⟩⟩

/-- … and the table of counts, the number of the cloud's points. -/
theorem stats_cnt (c : Dev nD) :
    (dat0 (F := Ideal) V c).arrAt 4 cfg0.N = GN.cntT (V c main_v0) :=
  (dat0 V c).arrAt_eq_of_cover 4 (GN.cntT (V c main_v0)) (flushed_cnt V c) fun i =>
    ⟨tL, (flush0_4 tL).mpr rfl, by
      show i ∈ ((View.whole main_v1_2).slice (win0_4.rect tL)).set
      rw [View.set_slice_whole, Rect.mem_set_unit]
      intro a
      show win0_4.index tL a * win0_4.size a ≤ (i a : Nat)
        ∧ (i a : Nat) < win0_4.index tL a * win0_4.size a + win0_4.xsize (grid0.coords tL) a
      rw [(hidx4 tL a).1, (hidx4 tL a).2, Nat.zero_mul, Nat.zero_add]
      exact ⟨Nat.zero_le _, (i a).isLt⟩⟩

end Cert.KernelIdeal.StatsValue

end
-- ==== Proof.LibMatmulPrec.lean ====
/-
  A matrix product with ONE contracted axis, into the zero accumulator, read at an entry of a rank-two result — for
  ANY contraction precision the operation carries (over the extended reals the precision does not enter the value).

  At entry (p, n) the product is the sum over the contracted coordinate k of the left operand at L k times the right
  operand at R k, once the operand indices at the contraction position whose one coordinate is k are known to be
  L k and R k (whatever the operands' shapes and whichever of their axes is contracted).
-/
import Idealize.ShloMosaic.Lib.Pipeline.Value
import Idealize.ShloMosaic.Lib.ValueIdx
import Idealize.ShloMosaic.PureOps.Ideal.Laws

noncomputable section

namespace Cert.LibMatmulPrec

open Idealize.ShloMosaic Idealize.ShloMosaic.ValueIdx
open scoped BigOperators

/-- A product with one contracted axis of extent K at any precision `prec`, into the zero accumulator, at entry
    (p, n): the sum over k of the left operand at L k times the right at R k. -/
theorem matmul_zero_ix2_prec {sl sr : Shape} {M N K : ℕ} (D : DotDims sl sr ⟨2, ![M, N]⟩) (prec : Option ContractPrecision)
    (hr : D.contr.rank = 1) (hs : D.contr.size ⟨0, by omega⟩ = K) (l : FVec Ideal sl .f32) (r : FVec Ideal sr .f32)
    (p : Fin M) (n : Fin N) (L : Fin K → sl.Idx) (R : Fin K → sr.Idx)
    (hL : ∀ (k : Fin K) (q : D.contr.Idx), (q ⟨0, by omega⟩ : ℕ) = k.val → D.lhsIdx (ix2 p n) q = L k)
    (hR : ∀ (k : Fin K) (q : D.contr.Idx), (q ⟨0, by omega⟩ : ℕ) = k.val → D.rhsIdx (ix2 p n) q = R k) :
    matmul D prec l r (constant ⟨2, ![M, N]⟩ .f32 0x00000000#32) (ix2 p n) = ∑ k : Fin K, l (L k) * r (R k) := by
  simp only [matmul]
  rw [Ideal.matmul_constant_zero_apply, ← Equiv.sum_comp (contrEquiv1 D K hr hs).symm]
  refine Finset.sum_congr rfl fun k _ => ?_
  rw [hL k _ (contrEquiv1_symm_val D K hr hs k), hR k _ (contrEquiv1_symm_val D K hr hs k)]

end Cert.LibMatmulPrec

end
-- ==== Proof.NormValue.lean ====
/-
  The normalisation pass: point t holds rows 2000 t … 2000 t + 1999; each row picks its cloud's row of the two
  [16, 8] tables by a one-hot product, repeats it over the eight members of each group, and the blocks tile the result.
-/
import proofs.«422416_j58806692216853_3_alg».proof.Proof.Gen.KernelIdeal.Frame
import proofs.«422416_j58806692216853_3_alg».proof.Proof.Spec
import proofs.«422416_j58806692216853_3_alg».proof.Proof.LibMatmulPrec
import Idealize.ShloMosaic.Lib.Pipeline.Value
import Idealize.ShloMosaic.Lib.ValueIdx

set_option maxRecDepth 16384

noncomputable section

namespace Cert.KernelIdeal.NormValue

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window BodyObligation cellOf)
open scoped BigOperators

/-- A one-bit word widened to 32 bits and read as a signed integer is one when the bit is set and zero otherwise. -/
theorem bit_toReal (b : BitVec 1) : ((((b.setWidth 32).toInt : ℤ) : ℝ) : EReal) = if b = 1#1 then 1 else 0 := by
  rcases BitVec.eq_zero_or_eq_one b with h | h <;> subst h <;> simp

/-- The one-hot matrix of a block of cloud ids: entry (p, k) is one exactly when row p's id is the word k. -/
theorem onehot_apply (ids : IVec S2000x1 32) (hb : S2000x1.Broadcasts S2000x16) (hi : S2000x16.Iotas .tc 32 [1])
    (hlt : 1 < 32) (p : Fin 2000) (k : Fin 16) :
    (sitofp .f32 (extui 32 (cmpi .eq (broadcastTo S2000x16 ids hb) (iota .tc S2000x16 32 [1] hi)) hlt) : FVec Ideal S2000x16 .f32) (ix2 p k)
      = GN.ind (ids (ix2 p (0 : Fin 1))) k.val := by
  rw [sitofp_apply, extui_apply]
  show ((((IntOp.cmpi .eq (broadcastTo S2000x16 ids hb (ix2 p k)) (iota .tc S2000x16 32 [1] hi (ix2 p k))).setWidth 32).toInt : ℝ) : EReal) = _
  rw [bit_toReal, iota_single_apply, broadcastTo_apply ids hb (ix2 p k) (ix2 p (0 : Fin 1)) (fun a => by
    match a with
    | ⟨0, _⟩ => rfl
    | ⟨1, _⟩ => rfl)]
  unfold GN.ind IntOp.cmpi
  show (if BitVec.ofBool (ids (ix2 p (0 : Fin 1)) == BitVec.ofNat 32 k.val) = 1#1 then (1 : EReal) else 0) = _
  by_cases h : ids (ix2 p (0 : Fin 1)) = BitVec.ofNat 32 k.val
  · rw [if_pos h, h]; simp
  · rw [if_neg h, beq_eq_false_iff_ne.mpr h]; simp

/-- The dimension record of the two products: the left operand's axis 1 against the right operand's axis 0. -/
abbrev DD : DotDims S2000x16 S16x8 S2000x8 := dot_S2000x16_S16x8_S2000x8_1_0_0_1_n_n

/-- On its free axis the left operand's index is the result's row. -/
theorem lhs_axis0 (j : S2000x8.Idx) (q : DD.contr.Idx) : (DD.lhsIdx j q 0).val = (j 0).val := by
  simp [DotDims.lhsIdx, DD, dot_S2000x16_S16x8_S2000x8_1_0_0_1_n_n]
  rfl

/-- On its contracted axis the left operand's index is the contraction position. -/
theorem lhs_axis1 (j : S2000x8.Idx) (q : DD.contr.Idx) : (DD.lhsIdx j q 1).val = (q ⟨0, by decide⟩).val :=
  DD.lhsIdx_val_of_single (cl := 1) rfl j q

/-- On its contracted axis the right operand's index is the contraction position. -/
theorem rhs_axis0 (j : S2000x8.Idx) (q : DD.contr.Idx) : (DD.rhsIdx j q 0).val = (q ⟨0, by decide⟩).val :=
  DD.rhsIdx_val_of_single (cr := 0) rfl j q

/-- On its free axis the right operand's index is the result's column. -/
theorem rhs_axis1 (j : S2000x8.Idx) (q : DD.contr.Idx) : (DD.rhsIdx j q 1).val = (j 1).val := by
  simp [DotDims.rhsIdx, DD, dot_S2000x16_S16x8_S2000x8_1_0_0_1_n_n]
  rfl

/-- The product of a [2000, 16] matrix with a [16, 8] table into the zero accumulator, at (p, g): the sum over the
    sixteen contraction positions (the contraction precision does not enter the exact value). -/
theorem mm_apply (oh : FVec Ideal S2000x16 .f32) (tb : FVec Ideal S16x8 .f32) (prec : Option ContractPrecision)
    (p : Fin 2000) (g : Fin 8) :
    matmul DD prec oh tb (constant (F := Ideal) S2000x8 .f32 0x00000000#32) (ix2 p g)
      = ∑ k : Fin 16, oh (ix2 p k) * tb (ix2 k g) :=
  Cert.LibMatmulPrec.matmul_zero_ix2_prec DD prec rfl rfl oh tb p g (fun k => ix2 p k) (fun k => ix2 k g)
    (fun k q hq => Shape.idx_ext₂ (lhs_axis0 _ _) ((lhs_axis1 _ _).trans hq))
    (fun k q hq => Shape.idx_ext₂ ((rhs_axis0 _ _).trans hq) (rhs_axis1 _ _))

/-- Eight copies of a [2000, 8] value side by side along the channels: column q reads column q mod 8. -/
theorem tile8_apply (v : FVec Ideal S2000x8 .f32)
    (h : Shape.Concatenates [S2000x8, S2000x8, S2000x8, S2000x8, S2000x8, S2000x8, S2000x8, S2000x8] S2000x64 1)
    (p : Fin 2000) (q : Fin 64) :
    concatenate S2000x64 1 [⟨S2000x8, v⟩, ⟨S2000x8, v⟩, ⟨S2000x8, v⟩, ⟨S2000x8, v⟩, ⟨S2000x8, v⟩, ⟨S2000x8, v⟩, ⟨S2000x8, v⟩, ⟨S2000x8, v⟩] h (ix2 p q)
      = v (ix2 p (GN.grpOf q)) :=
  concatenate_replicate_apply (t := S2000x64) (s₁ := S2000x8) 1 8 v h rfl (ix2 p q) (ix2 p (GN.grpOf q)) rfl
    (fun b hb => by
      match b with
      | ⟨0, _⟩ => rfl
      | ⟨1, _⟩ => exact absurd rfl hb)

/-- A [1, 64] row laid along every row of a [2000, 64] block reads the row's column. -/
theorem row_apply (v : FVec Ideal S1x64 .f32) (h : S1x64.Broadcasts S2000x64) (p : Fin 2000) (q : Fin 64) :
    broadcastTo S2000x64 v h (ix2 p q) = v (ix2 (0 : Fin 1) q) :=
  broadcastTo_apply v h (ix2 p q) (ix2 (0 : Fin 1) q) (fun a => by
    match a with
    | ⟨0, _⟩ => rfl
    | ⟨1, _⟩ => rfl)

/-- The block the body stores, entry by entry: the feature minus the one-hot pick of its cloud's mean, times the
    one-hot pick of its cloud's inverse deviation, scaled and shifted by the channel's pair. -/
theorem pay_apply (x0 : Vec Ideal S2000x64 .f32) (x1 : Vec Ideal S2000x1 .i32) (x2 x3 : Vec Ideal S16x8 .f32)
    (x4 x5 : Vec Ideal S1x64 .f32) (p : Fin 2000) (q : Fin 64) :
    k1_pay1 (F := Ideal) x0 x1 x2 x3 x4 x5 (ix2 p q)
      = (x0 (ix2 p q) - ∑ k : Fin 16, GN.ind (x1 (ix2 p (0 : Fin 1))) k.val * x2 (ix2 k (GN.grpOf q)))
          * (∑ k : Fin 16, GN.ind (x1 (ix2 p (0 : Fin 1))) k.val * x3 (ix2 k (GN.grpOf q)))
          * x4 (ix2 (0 : Fin 1) q)
        + x5 (ix2 (0 : Fin 1) q) := by
  unfold k1_pay1
  dsimp only
  rw [addf_apply, mulf_apply, mulf_apply, subf_apply, tile8_apply, tile8_apply, row_apply, row_apply]
  rw [mm_apply, mm_apply]
  simp only [shapeCast_self]
  refine congrArg₂ (· + ·) (congrArg₂ (· * ·) (congrArg₂ (· * ·) (congrArg₂ (· - ·) rfl
    (Finset.sum_congr rfl fun k _ => ?_)) (Finset.sum_congr rfl fun k _ => ?_)) rfl) rfl
  · exact congrArg (· * x2 (ix2 k (GN.grpOf q))) (onehot_apply x1 _ _ _ p k)
  · exact congrArg (· * x3 (ix2 k (GN.grpOf q))) (onehot_apply x1 _ _ _ p k)

variable (V : (c : Dev nD) → (b : Ref sig .tc) → Buf (Elt Ideal) ((c : Thread nD τ).loc b))

/-- The zero offsets of a whole-block access, however spelt. -/
theorem hz : (![0, 0] : Fin 2 → Nat) = fun _ => 0 := funext fun a => by fin_cases a <;> rfl

/-- The index maps over the grid: the features, the ids and the result move with the point along the rows; the two
    tables and the scale and shift rows stay at their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The features' block at point t is rows 2000 t … 2000 t + 1999 of the array. -/
theorem blk0_apply (c : Dev nD) (t : Fin cfg1.N) (y : S2000x64.Idx) (i : S1000000x64.Idx)
    (e0 : (i 0).val = 2000 * t.val + (y 0).val) (e1 : (i 1).val = (y 1).val) :
    (iblk1 (F := Ideal) V c 0 t : Vec Ideal S2000x64 .f32) y = (V c main_arg0 : S1000000x64.Idx → Elt Ideal .f32) i := by
  obtain ⟨f0, f1, -⟩ := idx_facts t
  show V c main_arg0 (((cfg1.win 0).blk t).view.emb y) = V c main_arg0 i
  refine congrArg _ (funext fun a => Fin.ext ?_)
  match a with
  | ⟨0, _⟩ => show win1_0.index t (0 : Fin 2) * 2000 + 1 * (y 0).val = (i 0).val; rw [f0, e0]; omega
  | ⟨1, _⟩ => show win1_0.index t (1 : Fin 2) * 64 + 1 * (y 1).val = (i 1).val; rw [f1, e1]; omega

/-- The ids' block at point t is rows 2000 t … 2000 t + 1999 of the id column. -/
theorem blk1_apply (c : Dev nD) (t : Fin cfg1.N) (y : S2000x1.Idx) (i : S1000000x1.Idx)
    (e0 : (i 0).val = 2000 * t.val + (y 0).val) :
    (iblk1 (F := Ideal) V c 1 t : Vec Ideal S2000x1 .i32) y = (V c main_v0 : S1000000x1.Idx → Elt Ideal .i32) i := by
  obtain ⟨-, -, f0, f1, -⟩ := idx_facts t
  show V c main_v0 (((cfg1.win 1).blk t).view.emb y) = V c main_v0 i
  refine congrArg _ (funext fun a => Fin.ext ?_)
  match a with
  | ⟨0, _⟩ => show win1_1.index t (0 : Fin 2) * 2000 + 1 * (y 0).val = (i 0).val; rw [f0, e0]; omega
  | ⟨1, _⟩ =>
    show win1_1.index t (1 : Fin 2) * 1 + 1 * (y 1).val = (i 1).val
    have h1 : (y 1).val < 1 := (y 1).isLt
    have h2 : (i 1).val < 1 := (i 1).isLt
    rw [f1]; omega

/-- The table of means is one block: every point reads the whole table. -/
theorem blk2_eq (c : Dev nD) (t : Fin cfg1.N) :
    (iblk1 (F := Ideal) V c 2 t : Vec Ideal S16x8 .f32) = (V c main_v13 : S16x8.Idx → Elt Ideal .f32) := by
  obtain ⟨-, -, -, -, f0, f1, -⟩ := idx_facts t
  funext y
  show V c main_v13 (((cfg1.win 2).blk t).view.emb y) = V c main_v13 y
  refine congrArg _ (funext fun a => Fin.ext ?_)
  match a with
  | ⟨0, _⟩ => show win1_2.index t (0 : Fin 2) * 16 + 1 * (y 0).val = (y 0).val; rw [f0]; omega
  | ⟨1, _⟩ => show win1_2.index t (1 : Fin 2) * 8 + 1 * (y 1).val = (y 1).val; rw [f1]; omega

/-- The table of inverse deviations is one block. -/
theorem blk3_eq (c : Dev nD) (t : Fin cfg1.N) :
    (iblk1 (F := Ideal) V c 3 t : Vec Ideal S16x8 .f32) = (V c main_v24 : S16x8.Idx → Elt Ideal .f32) := by
  obtain ⟨-, -, -, -, -, -, f0, f1, -⟩ := idx_facts t
  funext y
  show V c main_v24 (((cfg1.win 3).blk t).view.emb y) = V c main_v24 y
  refine congrArg _ (funext fun a => Fin.ext ?_)
  match a with
  | ⟨0, _⟩ => show win1_3.index t (0 : Fin 2) * 16 + 1 * (y 0).val = (y 0).val; rw [f0]; omega
  | ⟨1, _⟩ => show win1_3.index t (1 : Fin 2) * 8 + 1 * (y 1).val = (y 1).val; rw [f1]; omega

/-- The scale row is one block. -/
theorem blk4_eq (c : Dev nD) (t : Fin cfg1.N) :
    (iblk1 (F := Ideal) V c 4 t : Vec Ideal S1x64 .f32) = (V c main_arg2 : S1x64.Idx → Elt Ideal .f32) := by
  obtain ⟨-, -, -, -, -, -, -, -, f0, f1, -⟩ := idx_facts t
  funext y
  show V c main_arg2 (((cfg1.win 4).blk t).view.emb y) = V c main_arg2 y
  refine congrArg _ (funext fun a => Fin.ext ?_)
  match a with
  | ⟨0, _⟩ => show win1_4.index t (0 : Fin 2) * 1 + 1 * (y 0).val = (y 0).val; rw [f0]; omega
  | ⟨1, _⟩ => show win1_4.index t (1 : Fin 2) * 64 + 1 * (y 1).val = (y 1).val; rw [f1]; omega

/-- The shift row is one block. -/
theorem blk5_eq (c : Dev nD) (t : Fin cfg1.N) :
    (iblk1 (F := Ideal) V c 5 t : Vec Ideal S1x64 .f32) = (V c main_arg3 : S1x64.Idx → Elt Ideal .f32) := by
  obtain ⟨-, -, -, -, -, -, -, -, -, -, f0, f1, -⟩ := idx_facts t
  funext y
  show V c main_arg3 (((cfg1.win 5).blk t).view.emb y) = V c main_arg3 y
  refine congrArg _ (funext fun a => Fin.ext ?_)
  match a with
  | ⟨0, _⟩ => show win1_5.index t (0 : Fin 2) * 1 + 1 * (y 0).val = (y 0).val; rw [f0]; omega
  | ⟨1, _⟩ => show win1_5.index t (1 : Fin 2) * 64 + 1 * (y 1).val = (y 1).val; rw [f1]; omega

/-- One entry of the block the body stores at a point whose feature and id blocks are rows 2000 t … of the arrays and
    whose other blocks are the whole tables and rows: the normalisation of the arrays at the entry's place. -/
theorem point_eq (x0 : Vec Ideal S2000x64 .f32) (x1 : Vec Ideal S2000x1 .i32) (x2 x3 : Vec Ideal S16x8 .f32)
    (x4 x5 : Vec Ideal S1x64 .f32)
    (X : FVec Ideal GN.SX .f32) (I : IVec GN.SId 32) (M N : FVec Ideal GN.SG .f32) (Gm Bt : FVec Ideal GN.SP .f32) (t : ℕ)
    (h0 : ∀ (y : S2000x64.Idx) (i : GN.SX.Idx), (i 0).val = 2000 * t + (y 0).val → (i 1).val = (y 1).val → x0 y = X i)
    (h1 : ∀ (y : S2000x1.Idx) (i : GN.SId.Idx), (i 0).val = 2000 * t + (y 0).val → x1 y = I i)
    (h2 : x2 = M) (h3 : x3 = N) (h4 : x4 = Gm) (h5 : x5 = Bt)
    (j : S2000x64.Idx) (i : GN.SX.Idx) (hi0 : (i 0).val = 2000 * t + (j 0).val) (hi1 : (i 1).val = (j 1).val) :
    k1_pay1 (F := Ideal) x0 x1 x2 x3 x4 x5 j = GN.normT X I M N Gm Bt i := by
  obtain ⟨p, q, rfl⟩ : ∃ (p : Fin 2000) (q : Fin 64), j = ix2 p q := ⟨j 0, j 1, eq_ix2 j⟩
  obtain ⟨n, f, rfl⟩ : ∃ (n : Fin 1000000) (f : Fin 64), i = ix2 n f := ⟨i 0, i 1, eq_ix2 i⟩
  obtain rfl : f = q := Fin.ext hi1
  rw [pay_apply, GN.normT_apply, h0 (ix2 p f) (ix2 n f) hi0 rfl, h1 (ix2 p (0 : Fin 1)) (ix2 n (0 : Fin 1)) hi0, h2, h3, h4, h5]

/-- What point t writes back is block t of the normalisation of the arrays as the pass found them. -/
theorem flushed_eq (c : Dev nD) (t : Fin cfg1.N) :
    (dat1 (F := Ideal) V c).flushed 6 t = ((cfg1.win 6).blk t).view.read (Elt Ideal)
      (GN.normT (V c main_arg0) (V c main_v0) (V c main_v13) (V c main_v24) (V c main_arg2) (V c main_arg3)) := by
  show (cfg1.win 6).cut (grid1.coords t) ((dat1 V c).after 6 t) = _
  rw [after1_6]
  unfold out1_6
  rw [View.canon_unit_zero hz]
  simp only [View.ld_unit_zero (S := S2000x64) hz, View.ld_unit_zero (S := S2000x1) hz, View.ld_unit_zero (S := S16x8) hz,
    View.ld_unit_zero (S := S1x64) hz]
  obtain ⟨-, -, -, -, -, -, -, -, -, -, -, -, f0, f1⟩ := idx_facts t
  funext j
  show k1_pay1 (F := Ideal) (iblk1 V c 0 t) (iblk1 V c 1 t) (iblk1 V c 2 t) (iblk1 V c 3 t) (iblk1 V c 4 t) (iblk1 V c 5 t) j
    = GN.normT (V c main_arg0) (V c main_v0) (V c main_v13) (V c main_v24) (V c main_arg2) (V c main_arg3) (((cfg1.win 6).blk t).view.emb j)
  refine point_eq (iblk1 V c 0 t) (iblk1 V c 1 t) (iblk1 V c 2 t) (iblk1 V c 3 t) (iblk1 V c 4 t) (iblk1 V c 5 t)
    (V c main_arg0) (V c main_v0) (V c main_v13) (V c main_v24) (V c main_arg2) (V c main_arg3) t.val
    (fun y i e0 e1 => blk0_apply V c t y i e0 e1) (fun y i e0 => blk1_apply V c t y i e0)
    (blk2_eq V c t) (blk3_eq V c t) (blk4_eq V c t) (blk5_eq V c t) j (((cfg1.win 6).blk t).view.emb j) ?_ ?_
  · show win1_6.index t (0 : Fin 2) * 2000 + 1 * (j 0).val = 2000 * t.val + (j 0).val
    rw [f0]; omega
  · show win1_6.index t (1 : Fin 2) * 64 + 1 * (j 1).val = (j 1).val
    rw [f1]; omega

/-- An index of the result array is in point t's block exactly when each coordinate is in the block's range. -/
theorem mem_blk (t : Fin cfg1.N) (i : S1000000x64.Idx) :
    i ∈ ((cfg1.win 6).blk t).view.set ↔ ∀ a : Fin 2, win1_6.index t a * S2000x64.size a ≤ (i a).val
      ∧ (i a).val < win1_6.index t a * S2000x64.size a + S2000x64.size a := by
  show i ∈ ((View.whole main_v25).slice (win1_6.rect t)).set ↔ _
  rw [View.set_slice_whole, Rect.mem_set_unit]
  exact Iff.rfl

/-- Row r of the result lies in the block of point r / 2000, and every point writes its block back. -/
theorem cover (i : S1000000x64.Idx) :
    ∃ t : Fin cfg1.N, (cfg1.win 6).flush t = true ∧ i ∈ ((cfg1.win 6).blk t).view.set := by
  have hi0 : (i 0).val < 1000000 := (i 0).isLt
  have hi1 : (i 1).val < 64 := (i 1).isLt
  have hN : cfg1.N = 500 := N_1
  have ht : (i 0).val / 2000 < cfg1.N := by rw [hN]; omega
  obtain ⟨-, -, -, -, -, -, -, -, -, -, -, -, f0, f1⟩ := idx_facts ⟨(i 0).val / 2000, ht⟩
  refine ⟨⟨(i 0).val / 2000, ht⟩, flush1_6 _, ?_⟩
  rw [mem_blk]
  intro a
  match a with
  | ⟨0, _⟩ =>
    show win1_6.index ⟨(i 0).val / 2000, ht⟩ (0 : Fin 2) * 2000 ≤ (i 0).val
      ∧ (i 0).val < win1_6.index ⟨(i 0).val / 2000, ht⟩ (0 : Fin 2) * 2000 + 2000
    rw [f0]
    show (i 0).val / 2000 * 2000 ≤ (i 0).val ∧ (i 0).val < (i 0).val / 2000 * 2000 + 2000
    omega
  | ⟨1, _⟩ =>
    show win1_6.index ⟨(i 0).val / 2000, ht⟩ (1 : Fin 2) * 64 ≤ (i 1).val
      ∧ (i 1).val < win1_6.index ⟨(i 0).val / 2000, ht⟩ (1 : Fin 2) * 64 + 64
    rw [f1]
    omega

/-- After the pass the result array is the normalisation of the features by the two tables as the pass found them. -/
theorem norm_value (c : Dev nD) :
    (dat1 (F := Ideal) V c).arrAt 6 cfg1.N
      = GN.normT (V c main_arg0) (V c main_v0) (V c main_v13) (V c main_v24) (V c main_arg2) (V c main_arg3) :=
  (dat1 (F := Ideal) V c).arrAt_eq_of_cover 6
    (GN.normT (V c main_arg0) (V c main_v0) (V c main_v13) (V c main_v24) (V c main_arg2) (V c main_arg3))
    (fun t _ => flushed_eq V c t) cover

end Cert.KernelIdeal.NormValue

end
-- ==== Proof.HostGlue.lean ====
/-
  The host operations between and around the two passes.  Before the statistics pass the ids are laid out as a
  column [1000000, 1].  Between the passes each [16, 64] table is summed over the eight members of every group,
  the count is multiplied by eight and raised to at least one, and the tables of means and of inverse deviations
  (one over the root of E[x²] − μ² clipped at zero plus ε) are formed.  Nothing else is written: the features,
  the scale and the shift reach the second pass as launched.
-/
import proofs.«422416_j58806692216853_3_alg».proof.Proof.Gen.KernelIdeal.Frame
import proofs.«422416_j58806692216853_3_alg».proof.Proof.Spec
import Idealize.ShloMosaic.Lib.Pipeline.Value
import Idealize.ShloMosaic.Lib.ValueIdx
import Idealize.ShloMosaic.Lib.IdealHost
import Idealize.ShloMosaic.Lib.StableHlo.Run
import Idealize.ShloMosaic.PureOps.Ideal.Laws

set_option maxRecDepth 16384

noncomputable section

namespace Cert.KernelIdeal.Glue

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window BodyObligation cellOf)
open scoped BigOperators
open Idealize.ShloMosaic.StableHlo

variable (m : (ℓ : Loc nD τ sig) → Buf (Elt Ideal) ℓ) (ρ : Dev nD → PrngReg)

/-! ## What the second pass finds of the arrays no host operation writes -/

theorem V3_arg0 (c : Dev nD) : V3 m ρ c main_arg0 = m ((c : Thread nD τ).loc main_arg0) :=
  ((W4_arr m ρ c 0).trans (((dat1 (V3 m ρ) c).arrAt_in 0 rfl _).trans (A_eq1 (V3 m ρ) c 0))).symm.trans (W4_main_arg0 m ρ c)

theorem V3_arg2 (c : Dev nD) : V3 m ρ c main_arg2 = m ((c : Thread nD τ).loc main_arg2) :=
  ((W4_arr m ρ c 4).trans (((dat1 (V3 m ρ) c).arrAt_in 4 rfl _).trans (A_eq1 (V3 m ρ) c 4))).symm.trans (W4_main_arg2 m ρ c)

theorem V3_arg3 (c : Dev nD) : V3 m ρ c main_arg3 = m ((c : Thread nD τ).loc main_arg3) :=
  ((W4_arr m ρ c 5).trans (((dat1 (V3 m ρ) c).arrAt_in 5 rfl _).trans (A_eq1 (V3 m ρ) c 5))).symm.trans (W4_main_arg3 m ρ c)

/-- The ids as a column: the one host operation before the first pass. -/
def idsCol (c : Dev nD) : IVec S1000000x1 32 :=
  shapeCast S1000000x1 (m ((c : Thread nD τ).loc main_arg1)) Facts₀.shapeCasts_S1000000_S1000000x1

theorem V1_arg0 (c : Dev nD) : V1 m ρ c main_arg0 = m ((c : Thread nD τ).loc main_arg0) :=
  StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem V1_v0 (c : Dev nD) : V1 m ρ c main_v0 = idsCol m c := by
  show StableHlo.after hostOps0 (W0 m ρ c) (Proc.devRef .tc main_v0) = _
  after_results
  rfl

theorem V3_v0 (c : Dev nD) : V3 m ρ c main_v0 = idsCol m c :=
  calc V3 m ρ c main_v0
    _ = W2 m ρ c (Proc.devRef .tc main_v0) := StableHlo.after_of_forall_not_mem (b := Proc.devRef .tc main_v0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v0) := (W2_arr m ρ c 1).trans (((dat0 (V1 m ρ) c).arrAt_in 1 rfl _).trans (A_eq0 (V1 m ρ) c 1))
    _ = idsCol m c := V1_v0 m ρ c

/-! ## The tables between the passes, as functions of the three statistics arrays -/

/-- A [16, 64] table summed over the eight members of every group. -/
def grpH (t : FVec Ideal S16x64 .f32) : FVec Ideal S16x8 .f32 :=
  Host.reduceAdd (shapeCast S16x8x8 t Facts₀.shapeCasts_S16x64_S16x8x8) (constant (F := Ideal) S_ .f32 0x00000000#32)
    Facts₀.reducesTo_S16x8x8_S16x8_d1 Facts₀.h_S_

/-- Eight times the count, at least one, as a column. -/
def ctH (cnt : FVec Ideal S16x1 .f32) : FVec Ideal S16x1 .f32 :=
  broadcastInDim S16x1 ![0] Facts₀.bcast_S16_S16x1_0
    (maximumf (mulf (shapeCast S16 cnt Facts₀.shapeCasts_S16x1_S16)
        (broadcastInDim S16 ![] Facts₀.bcast_S_S16 (constant (F := Ideal) S_ .f32 0x41000000#32)))
      (broadcastInDim S16 ![] Facts₀.bcast_S_S16 (constant (F := Ideal) S_ .f32 0x3F800000#32)))

/-- The table of means. -/
def meanH (s : FVec Ideal S16x64 .f32) (cnt : FVec Ideal S16x1 .f32) : FVec Ideal S16x8 .f32 :=
  Host.divf (grpH s) (broadcastInDim S16x8 ![0, 1] Facts₀.bcast_S16x1_S16x8_0_1 (ctH cnt))

/-- The table of inverse deviations. -/
def invH (s q : FVec Ideal S16x64 .f32) (cnt : FVec Ideal S16x1 .f32) : FVec Ideal S16x8 .f32 :=
  Host.divf (broadcastInDim S16x8 ![] Facts₀.bcast_S_S16x8 (constant (F := Ideal) S_ .f32 0x3F800000#32))
    (Host.sqrt (addf
      (maximumf
        (subf (Host.divf (grpH q) (broadcastInDim S16x8 ![0, 1] Facts₀.bcast_S16x1_S16x8_0_1 (ctH cnt)))
          (mulf (meanH s cnt) (meanH s cnt)))
        (broadcastInDim S16x8 ![] Facts₀.bcast_S_S16x8 (constant (F := Ideal) S_ .f32 0x00000000#32)))
      (broadcastInDim S16x8 ![] Facts₀.bcast_S_S16x8 (constant (F := Ideal) S_ .f32 0x322BCC77#32))))

theorem V3_v13 (c : Dev nD) :
    V3 m ρ c main_v13 = meanH (W2 m ρ c (Proc.devRef .tc main_v1_0)) (W2 m ρ c (Proc.devRef .tc main_v1_2)) := by
  show StableHlo.after hostOps1 (W2 m ρ c) (Proc.devRef .tc main_v13) = _
  after_results
  rfl

set_option maxHeartbeats 4000000 in
theorem V3_v24 (c : Dev nD) :
    V3 m ρ c main_v24 = invH (W2 m ρ c (Proc.devRef .tc main_v1_0)) (W2 m ρ c (Proc.devRef .tc main_v1_1))
      (W2 m ρ c (Proc.devRef .tc main_v1_2)) := by
  show StableHlo.after hostOps1 (W2 m ρ c) (Proc.devRef .tc main_v24) = _
  after_results
  rfl

/-! ## The tables read at an entry -/

/-- The group sum at (b, g): from the zero word, the eight members 8 j + g of the group. -/
theorem grpH_eq (t : FVec Ideal S16x64 .f32) : grpH t = GN.grp t := by
  funext i
  obtain ⟨b, g, rfl⟩ : ∃ (b : Fin 16) (g : Fin 8), i = ix2 b g := ⟨i 0, i 1, eq_ix2 i⟩
  have hR : S16x8x8.Reduces [1] S16x8 := by decide
  show Ideal.hostReduceAdd Facts₀.reducesTo_S16x8x8_S16x8_d1 _ _ (ix2 b g) = _
  rw [Ideal.hostReduceAdd_single _ hR]
  show _ + ∑ k : Fin 8, _ = _ + ∑ j : Fin 8, _
  refine congrArg _ (Finset.sum_congr rfl fun j _ => ?_)
  refine shapeCast_apply t Facts₀.shapeCasts_S16x64_S16x8x8 (hR.lift (ix2 b g) j) (ix2 b (GN.ch j g)) ?_
  rewrite [Shape.rowMajor_val_two, Shape.rowMajor_val_three]
  show b.val * 64 + (8 * j.val + g.val) = (b.val * 8 + j.val) * 8 + g.val
  omega

/-- The divisor column at (b, ·): eight times the count, at least one. -/
theorem ctH_apply (cnt : FVec Ideal S16x1 .f32) (b : Fin 16) (z : Fin 1) : ctH cnt (ix2 b z) = GN.ctT cnt b := by
  unfold ctH GN.ctT
  rw [broadcastInDim_apply _ Facts₀.bcast_S16_S16x1_0 _ (ix2 b z) (ix1 b) (fun a => match a with
    | ⟨0, _⟩ => by show b.val = if (16 : Nat) = 1 then 0 else b.val; rw [if_neg (by decide)])]
  rw [maximumf_apply, mulf_apply, broadcastInDim_scalar_apply, broadcastInDim_scalar_apply, constant_apply, constant_apply]
  congr 2
  refine shapeCast_apply cnt Facts₀.shapeCasts_S16x1_S16 (ix1 b) (ix2 b (0 : Fin 1)) ?_
  rewrite [Shape.rowMajor_val_two, Shape.rowMajor_val_one]
  show b.val * 1 + 0 = b.val
  omega

/-- The divisor spread over the eight groups. -/
theorem ctB_apply (cnt : FVec Ideal S16x1 .f32) (b : Fin 16) (g : Fin 8) :
    broadcastInDim S16x8 ![0, 1] Facts₀.bcast_S16x1_S16x8_0_1 (ctH cnt) (ix2 b g) = GN.ctT cnt b := by
  rw [broadcastInDim_apply _ Facts₀.bcast_S16x1_S16x8_0_1 _ (ix2 b g) (ix2 b (0 : Fin 1)) (fun a => match a with
    | ⟨0, _⟩ => by show b.val = if (16 : Nat) = 1 then 0 else b.val; rw [if_neg (by decide)]
    | ⟨1, _⟩ => by show (0 : Nat) = if (1 : Nat) = 1 then 0 else g.val; rw [if_pos rfl])]
  exact ctH_apply cnt b 0

theorem meanH_eq (s : FVec Ideal S16x64 .f32) (cnt : FVec Ideal S16x1 .f32) : meanH s cnt = GN.meanT s cnt := by
  funext i
  obtain ⟨b, g, rfl⟩ : ∃ (b : Fin 16) (g : Fin 8), i = ix2 b g := ⟨i 0, i 1, eq_ix2 i⟩
  unfold meanH
  rw [hostDivf_apply, ctB_apply, grpH_eq]
  rfl

theorem invH_eq (s q : FVec Ideal S16x64 .f32) (cnt : FVec Ideal S16x1 .f32) : invH s q cnt = GN.invT s q cnt := by
  funext i
  obtain ⟨b, g, rfl⟩ : ∃ (b : Fin 16) (g : Fin 8), i = ix2 b g := ⟨i 0, i 1, eq_ix2 i⟩
  unfold invH
  rw [hostDivf_apply, broadcastInDim_scalar_apply, constant_apply]
  show Ideal.div _ (Ideal.sqrt (addf (F := Ideal) (s := S16x8) (φ := .f32) _ _ (ix2 b g))) = _
  rw [addf_apply, maximumf_apply, subf_apply, mulf_apply, hostDivf_apply, ctB_apply, grpH_eq, meanH_eq,
    broadcastInDim_scalar_apply, broadcastInDim_scalar_apply, constant_apply, constant_apply]
  rfl

end Cert.KernelIdeal.Glue

end
-- ==== Proof.Bridge.lean ====
/-
  The kernel's program computes the streaming form.  The result array is what the second pass leaves of it: the
  normalisation of the features by the two tables the host operations formed from what the first pass left —
  the per-cloud sums, sums of squares and counts over all points — with the ids laid out as a column.
-/
import proofs.«422416_j58806692216853_3_alg».proof.Proof.KernelRun
import proofs.«422416_j58806692216853_3_alg».proof.Proof.StatsValue
import proofs.«422416_j58806692216853_3_alg».proof.Proof.NormValue
import proofs.«422416_j58806692216853_3_alg».proof.Proof.HostGlue
import proofs.«422416_j58806692216853_3_alg».proof.Proof.Spec

set_option maxRecDepth 16384

noncomputable section

namespace Cert.KernelIdeal.Bridge

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window BodyObligation cellOf)
open scoped BigOperators

variable (m : (ℓ : Loc nD τ sig) → Buf (Elt Ideal) ℓ) (ρ : Dev nD → PrngReg)

/-- The result array after the run, as one function of the launch contents of the four arguments. -/
theorem result_eq (c : Dev nD) :
    W4 m ρ c (Proc.devRef .tc main_v25)
      = GN.streamOut (m ((c : Thread nD τ).loc main_arg0)) (Glue.idsCol m c)
          (m ((c : Thread nD τ).loc main_arg2)) (m ((c : Thread nD τ).loc main_arg3)) := by
  have e6 : W4 m ρ c (Proc.devRef .tc main_v25) = (dat1 (V3 m ρ) c).arrAt 6 cfg1.N := W4_arr m ρ c 6
  have e2 : W2 m ρ c (Proc.devRef .tc main_v1_0) = (dat0 (V1 m ρ) c).arrAt 2 cfg0.N := W2_arr m ρ c 2
  have e3 : W2 m ρ c (Proc.devRef .tc main_v1_1) = (dat0 (V1 m ρ) c).arrAt 3 cfg0.N := W2_arr m ρ c 3
  have e4 : W2 m ρ c (Proc.devRef .tc main_v1_2) = (dat0 (V1 m ρ) c).arrAt 4 cfg0.N := W2_arr m ρ c 4
  rw [e6, NormValue.norm_value (V3 m ρ) c, Glue.V3_arg0 m ρ c, Glue.V3_v0 m ρ c, Glue.V3_v13 m ρ c, Glue.V3_v24 m ρ c,
    Glue.V3_arg2 m ρ c, Glue.V3_arg3 m ρ c, e2, e3, e4, StatsValue.stats_sum (V1 m ρ) c, StatsValue.stats_sq (V1 m ρ) c,
    StatsValue.stats_cnt (V1 m ρ) c, Glue.V1_arg0 m ρ c, Glue.V1_v0 m ρ c, Glue.meanH_eq, Glue.invH_eq]
  rfl

/-- Every weakly fair execution of the kernel's program terminates, nothing faulting, with the result array at the
    streaming form of the launch contents and the arguments unchanged. -/
theorem run : θ_run defs (onTc (τ := τ) (main (F := Ideal))) ⟨m, fun _ => 0, ρ⟩ (fun r => ∀ c : Dev nD,
      r.2.mem ((c.tc : Thread nD τ).loc main_v25)
        = GN.streamOut (m ((c : Thread nD τ).loc main_arg0)) (Glue.idsCol m c)
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩) (Cert.KernelIdeal.GenP.run_value m ρ)

/-- The ids column at a point is the point's id. -/
theorem idsCol_apply (c : Dev nD) (n : Fin 1000000) :
    Glue.idsCol m c (ix2 n (0 : Fin 1)) = m ((c : Thread nD τ).loc main_arg1) (ix1 n) := by
  unfold Glue.idsCol
  refine shapeCast_apply _ Facts₀.shapeCasts_S1000000_S1000000x1 (ix2 n (0 : Fin 1)) (ix1 n) ?_
  rewrite [Shape.rowMajor_val_two, Shape.rowMajor_val_one]
  show n.val = n.val * 1 + 0
  omega

end Cert.KernelIdeal.Bridge

end
-- ==== Proof.LibRealVariance.lean ====
/-
  The calculus of "this extended real is a real number", and the variance law.

  A float is read as an extended real; the sum, difference and product of two extended reals that
  are real numbers are the real sum, difference and product, and a quotient by a nonzero real is the
  real quotient. So a column of real numbers has a real mean, and its variance computed as
  E[a²] − E[a]² equals the variance computed as E[(a − E a)²]: the identity is the textbook one in ℝ,
  carried back along the embedding ℝ → [-∞, +∞]. (At an infinity the two differ; that is why every
  entry is assumed real.)
-/
import Idealize.ShloMosaic.PureOps.Ideal
import Idealize.ShloMosaic.PureOps.Ideal.Laws
import Mathlib.Data.EReal.Basic
import Mathlib.Data.EReal.Operations
import Mathlib.Data.EReal.Inv
import Mathlib.Algebra.BigOperators.Group.Finset.Basic
import Mathlib.Algebra.BigOperators.Group.Finset.Sigma
import Mathlib.Algebra.Order.BigOperators.Group.Finset
import Mathlib.Logic.Equiv.Fin.Basic
import Mathlib.Tactic.FieldSimp
import Mathlib.Tactic.Ring
import Mathlib.Tactic.NormNum

noncomputable section

namespace Cert.Alg

open Idealize.ShloMosaic
open scoped BigOperators

/-- An extended real that is a real number. -/
def IsReal (x : EReal) : Prop := ∃ r : ℝ, x = (r : EReal)

namespace IsReal

/-- A real number, embedded, is a real number. -/
theorem coe (r : ℝ) : IsReal (r : EReal) := ⟨r, rfl⟩

theorem zero : IsReal 0 := ⟨0, rfl⟩

theorem one : IsReal 1 := ⟨1, rfl⟩

/-- The sum of two reals is the real sum. -/
theorem add {x y : EReal} (hx : IsReal x) (hy : IsReal y) : IsReal (x + y) := by
  obtain ⟨a, rfl⟩ := hx
  obtain ⟨b, rfl⟩ := hy
  exact ⟨a + b, (EReal.coe_add a b).symm⟩

/-- The negation of a real is the real negation. -/
theorem neg {x : EReal} (hx : IsReal x) : IsReal (-x) := by
  obtain ⟨a, rfl⟩ := hx
  exact ⟨-a, (EReal.coe_neg a).symm⟩

/-- The difference of two reals is the real difference. -/
theorem sub {x y : EReal} (hx : IsReal x) (hy : IsReal y) : IsReal (x - y) := by
  obtain ⟨a, rfl⟩ := hx
  obtain ⟨b, rfl⟩ := hy
  exact ⟨a - b, (EReal.coe_sub a b).symm⟩

/-- The product of two reals is the real product. -/
theorem mul {x y : EReal} (hx : IsReal x) (hy : IsReal y) : IsReal (x * y) := by
  obtain ⟨a, rfl⟩ := hx
  obtain ⟨b, rfl⟩ := hy
  exact ⟨a * b, (EReal.coe_mul a b).symm⟩

/-- The greater of two reals is one of them. -/
theorem max {x y : EReal} (hx : IsReal x) (hy : IsReal y) : IsReal (max x y) := by
  rcases max_choice x y with h | h <;> rw [h] <;> assumption

/-- The lesser of two reals is one of them. -/
theorem min {x y : EReal} (hx : IsReal x) (hy : IsReal y) : IsReal (min x y) := by
  rcases min_choice x y with h | h <;> rw [h] <;> assumption

/-- A finite sum of reals is a real: by induction on the index set. -/
theorem finset_sum {ι : Type*} (s : Finset ι) (a : ι → EReal) (h : ∀ i ∈ s, IsReal (a i)) :
    IsReal (∑ i ∈ s, a i) := by
  classical
  induction s using Finset.induction_on with
  | empty => simpa using zero
  | insert j s hj ih =>
    rw [Finset.sum_insert hj]
    exact add (h j (Finset.mem_insert_self j s)) (ih fun i hi => h i (Finset.mem_insert_of_mem hi))

/-- The sum of a whole finite family of reals is a real. -/
theorem sum {ι : Type*} [Fintype ι] (a : ι → EReal) (h : ∀ i, IsReal (a i)) : IsReal (∑ i, a i) :=
  finset_sum Finset.univ a fun i _ => h i

/-- The quotient of a real by a nonzero real is the real quotient (the product with the reciprocal). -/
theorem div {x y : EReal} (hx : IsReal x) (hy : IsReal y) (hy0 : y ≠ 0) : IsReal (Ideal.div x y) := by
  obtain ⟨b, rfl⟩ := hy
  have hb : b ≠ 0 := fun h => hy0 (by rw [h]; rfl)
  rw [Ideal.div_coe hb]
  exact mul hx (coe _)

/-- The reciprocal square root of a positive real r is the real (√r)⁻¹. -/
theorem rsqrt_of_pos {x : EReal} (hx : IsReal x) (h0 : 0 < x) : IsReal (Ideal.rsqrt x) := by
  obtain ⟨r, rfl⟩ := hx
  have hr : 0 < r := EReal.coe_pos.mp h0
  rw [Ideal.rsqrt_coe, if_neg (not_lt.mpr hr.le), if_neg hr.ne']
  exact coe _

end IsReal

/-- A real number is an extended real that is neither infinity. -/
theorem isReal_iff (x : EReal) : IsReal x ↔ x ≠ ⊤ ∧ x ≠ ⊥ := by
  constructor
  · rintro ⟨r, rfl⟩
    exact ⟨EReal.coe_ne_top r, EReal.coe_ne_bot r⟩
  · rintro ⟨ht, hb⟩
    exact ⟨x.toReal, (EReal.coe_toReal ht hb).symm⟩

/-- An extended real whose absolute value, max x (-x), is below +∞ is a real number: at ⊤ the
    first argument is ⊤, at ⊥ the second is. -/
theorem isReal_of_abs_lt_top {x : EReal} (h : max x (-x) < ⊤) : IsReal x := by
  rw [isReal_iff]
  constructor
  · rintro rfl
    exact absurd h (by simp)
  · rintro rfl
    exact absurd h (by simp)

/-! ### The four literals -/

/-- The pattern of 200000.0 denotes the real 200000. -/
theorem ofBits_N : Ideal.ofBits .f32 0x48435000#32 = ((200000 : ℝ) : EReal) := by
  simp [Ideal.ofBits, Ideal.ieee, -EReal.coe_mul]; norm_num

/-- The pattern of +0.0 denotes 0. -/
theorem ofBits_zero : Ideal.ofBits .f32 0x00000000#32 = 0 := Ideal.ofBits_zero_f32

/-- The pattern of 1.0 denotes the real 1. -/
theorem ofBits_one : Ideal.ofBits .f32 0x3F800000#32 = ((1 : ℝ) : EReal) := by
  simp [Ideal.ofBits, Ideal.ieee, -EReal.coe_mul]; norm_num

/-- The pattern 0x3727C5AC (the float nearest 1e-5) denotes a positive real, 10995116 · 2⁻⁴⁰.
    Only its sign and finiteness are used. -/
theorem ofBits_eps_pos : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-! ### Sums of reals -/

/-- The embedding of the reals carries a finite sum to the sum of the embedded terms. -/
theorem coe_finset_sum {ι : Type*} (s : Finset ι) (r : ι → ℝ) :
    ((∑ i ∈ s, r i : ℝ) : EReal) = ∑ i ∈ s, (r i : EReal) := by
  classical
  induction s using Finset.induction_on with
  | empty => simp
  | insert j s hj ih => rw [Finset.sum_insert hj, Finset.sum_insert hj, EReal.coe_add, ih]

/-- The mean of a column of embedded reals over a nonzero real count is the embedded real mean. -/
theorem div_sum_coe {ι : Type*} [Fintype ι] (r : ι → ℝ) {N : ℝ} (hN0 : N ≠ 0) :
    Ideal.div (∑ i, (r i : EReal)) (N : EReal) = (((∑ i, r i) * (1 / N) : ℝ) : EReal) := by
  rw [Ideal.div_coe hN0, ← coe_finset_sum, ← EReal.coe_mul]

/-! ### The variance law in ℝ -/

/-- The sum of squared deviations from any m, expanded. -/
theorem real_sum_sq_dev {ι : Type*} [Fintype ι] (r : ι → ℝ) (m : ℝ) :
    ∑ i, (r i - m) * (r i - m)
      = (∑ i, r i * r i) - 2 * m * (∑ i, r i) + (Fintype.card ι : ℝ) * (m * m) := by
  have h : ∀ i, (r i - m) * (r i - m) = r i * r i - 2 * m * r i + m * m := fun i => by ring
  simp only [h, Finset.sum_add_distrib, Finset.sum_sub_distrib, ← Finset.mul_sum, Finset.sum_const,
    Finset.card_univ, nsmul_eq_mul]
  ring

/-- E[r²] − E[r]² = E[(r − E r)²] over N ≠ 0 real entries. -/
theorem real_variance_eq {ι : Type*} [Fintype ι] (r : ι → ℝ) (N : ℝ)
    (hN : (Fintype.card ι : ℝ) = N) (hN0 : N ≠ 0) :
    (∑ i, r i * r i) * (1 / N) - (∑ i, r i) * (1 / N) * ((∑ i, r i) * (1 / N))
      = (∑ i, (r i - (∑ i, r i) * (1 / N)) * (r i - (∑ i, r i) * (1 / N))) * (1 / N) := by
  rw [real_sum_sq_dev, hN]
  field_simp
  ring

/-- The mean of squared deviations is a nonnegative real: a sum of squares times 1 / N, N a count. -/
theorem real_variance_nonneg {ι : Type*} [Fintype ι] (r : ι → ℝ) (m : ℝ) (N : ℝ)
    (hN : (Fintype.card ι : ℝ) = N) :
    0 ≤ (∑ i, (r i - m) * (r i - m)) * (1 / N) := by
  have hN' : 0 ≤ N := hN ▸ Nat.cast_nonneg _
  exact mul_nonneg (Finset.sum_nonneg fun i _ => mul_self_nonneg _) (one_div_nonneg.mpr hN')

/-! ### The variance law at the extended reals -/

/-- The mean of squared deviations of a column of embedded reals is the embedded real one. -/
theorem div_sum_sq_dev_coe {ι : Type*} [Fintype ι] (r : ι → ℝ) {N : ℝ} (hN0 : N ≠ 0) :
    Ideal.div (∑ i, ((r i : EReal) - Ideal.div (∑ i, (r i : EReal)) (N : EReal))
        * ((r i : EReal) - Ideal.div (∑ i, (r i : EReal)) (N : EReal))) (N : EReal)
      = (((∑ i, (r i - (∑ i, r i) * (1 / N)) * (r i - (∑ i, r i) * (1 / N))) * (1 / N) : ℝ) : EReal) := by
  simp only [div_sum_coe r hN0, ← EReal.coe_sub, ← EReal.coe_mul]
  exact div_sum_coe (fun i => (r i - (∑ i, r i) * (1 / N)) * (r i - (∑ i, r i) * (1 / N))) hN0

/-- THE LAW: for a column of N ≠ 0 real entries, the variance as E[a²] − E[a]² is the variance as
    E[(a − E a)²]. -/
theorem variance_eq {ι : Type} [Fintype ι] (a : ι → EReal) (ha : ∀ i, IsReal (a i)) (N : ℝ)
    (hN : (Fintype.card ι : ℝ) = N) (hN0 : N ≠ 0) :
    Ideal.div (∑ i, a i * a i) (N : EReal)
        - Ideal.div (∑ i, a i) (N : EReal) * Ideal.div (∑ i, a i) (N : EReal)
      = Ideal.div (∑ i, (a i - Ideal.div (∑ i, a i) (N : EReal))
          * (a i - Ideal.div (∑ i, a i) (N : EReal))) (N : EReal) := by
  choose r hr using ha
  obtain rfl : a = fun i => (r i : EReal) := funext hr
  rw [div_sum_sq_dev_coe r hN0, div_sum_coe r hN0]
  simp only [← EReal.coe_mul]
  rw [div_sum_coe (fun i => r i * r i) hN0, ← EReal.coe_sub, real_variance_eq r N hN hN0]

/-- The variance of a column of N ≠ 0 real entries is a nonnegative real. -/
theorem variance_nonneg {ι : Type} [Fintype ι] (a : ι → EReal) (ha : ∀ i, IsReal (a i)) (N : ℝ)
    (hN : (Fintype.card ι : ℝ) = N) (hN0 : N ≠ 0) :
    ∃ v : ℝ, 0 ≤ v ∧
      Ideal.div (∑ i, (a i - Ideal.div (∑ i, a i) (N : EReal))
          * (a i - Ideal.div (∑ i, a i) (N : EReal))) (N : EReal) = (v : EReal) := by
  choose r hr using ha
  obtain rfl : a = fun i => (r i : EReal) := funext hr
  exact ⟨_, real_variance_nonneg r _ N hN, div_sum_sq_dev_coe r hN0⟩

/-- The mean of a column of real entries over a nonzero real count is a real. -/
theorem mean_isReal {ι : Type} [Fintype ι] (a : ι → EReal) (ha : ∀ i, IsReal (a i)) (N : ℝ)
    (hN0 : N ≠ 0) : IsReal (Ideal.div (∑ i, a i) (N : EReal)) :=
  IsReal.div (IsReal.sum a ha) (IsReal.coe N) (by exact_mod_cast hN0)

/-! ### The same, with each sum written from an initial zero

A float sum on the host is "the initial value plus the sum"; with the initial value 0 that is the sum. -/

theorem variance_eq_zero_add {ι : Type} [Fintype ι] (a : ι → EReal) (ha : ∀ i, IsReal (a i)) (N : ℝ)
    (hN : (Fintype.card ι : ℝ) = N) (hN0 : N ≠ 0) :
    Ideal.div (0 + ∑ i, a i * a i) (N : EReal)
        - Ideal.div (0 + ∑ i, a i) (N : EReal) * Ideal.div (0 + ∑ i, a i) (N : EReal)
      = Ideal.div (0 + ∑ i, (a i - Ideal.div (0 + ∑ i, a i) (N : EReal))
          * (a i - Ideal.div (0 + ∑ i, a i) (N : EReal))) (N : EReal) := by
  simp only [zero_add]
  exact variance_eq a ha N hN hN0

theorem variance_nonneg_zero_add {ι : Type} [Fintype ι] (a : ι → EReal) (ha : ∀ i, IsReal (a i))
    (N : ℝ) (hN : (Fintype.card ι : ℝ) = N) (hN0 : N ≠ 0) :
    ∃ v : ℝ, 0 ≤ v ∧
      Ideal.div (0 + ∑ i, (a i - Ideal.div (0 + ∑ i, a i) (N : EReal))
          * (a i - Ideal.div (0 + ∑ i, a i) (N : EReal))) (N : EReal) = (v : EReal) := by
  simp only [zero_add]
  exact variance_nonneg a ha N hN hN0

/-! ### Regrouping a sum into blocks -/

/-- A sum over γ is the iterated sum over α then β along any bijection α × β ≃ γ. -/
theorem sum_regroup {α β γ M : Type*} [Fintype α] [Fintype β] [Fintype γ] [AddCommMonoid M]
    (e : α × β ≃ γ) (f : γ → M) : ∑ x, ∑ y, f (e (x, y)) = ∑ k, f k := by
  rw [← Fintype.sum_prod_type (fun p : α × β => f (e p))]
  exact Fintype.sum_equiv e _ _ fun _ => rfl

/-- The 200000 rows as 20 blocks of 10000: (b, r) ↦ 10000 · b + r. -/
def blockEquiv : Fin 20 × Fin 10000 ≃ Fin 200000 := finProdFinEquiv

theorem blockEquiv_val (b : Fin 20) (r : Fin 10000) :
    (blockEquiv (b, r)).val = 10000 * b.val + r.val := by
  show r.val + 10000 * b.val = 10000 * b.val + r.val
  exact Nat.add_comm _ _

/-- A sum over the 200000 rows is the sum over the 20 blocks of the sums over each block's 10000 rows. -/
theorem sum_blocks {M : Type*} [AddCommMonoid M] (f : Fin 200000 → M) :
    ∑ b : Fin 20, ∑ r : Fin 10000, f (blockEquiv (b, r)) = ∑ k, f k :=
  sum_regroup blockEquiv f

end Cert.Alg

end
-- ==== Proof.KernelAlg.lean ====
/-
  The two-pass form computes the function.  With every feature, scale and shift a real and every id a cloud
  number below sixteen: the masked sums over all points are the sums over the cloud's points; the one-hot sum
  over the sixteen clouds picks the point's own cloud; eight times a positive count is the number of terms, so
  E[x²] − μ² is the mean squared deviation, which is not negative, so the clip at zero does nothing; and
  (x − μ)·(1/√(v + ε)) is (x − μ)/√(v + ε) for the positive real v + ε.
-/
import proofs.«422416_j58806692216853_3_alg».proof.Proof.Spec
import proofs.«422416_j58806692216853_3_alg».proof.Proof.LibRealVariance

noncomputable section

namespace Cert.GN

open Idealize.ShloMosaic Idealize.ShloMosaic.ValueIdx
open scoped BigOperators

/-! ## The mask of a cloud -/

/-- Two numbers below sixteen with the same 32-bit word are equal: both are their own residues mod 2³². -/
theorem ofNat32_inj {a b : Nat} (ha : a < 16) (hb : b < 16) :
    BitVec.ofNat 32 a = BitVec.ofNat 32 b ↔ a = b := by
  constructor
  · intro h
    have h' := congrArg BitVec.toNat h
    simp only [BitVec.toNat_ofNat] at h'
    omega
  · rintro rfl; rfl

/-- The mask of cloud b at the word of cloud a: one when a = b, zero otherwise. -/
theorem ind_ofNat (a b : Fin 16) :
    ind (BitVec.ofNat 32 a.val) b.val = if a = b then 1 else 0 := by
  unfold ind
  by_cases h : a = b
  · subst h; simp
  · have hne : ¬ BitVec.ofNat 32 a.val = BitVec.ofNat 32 b.val := fun e =>
      h (Fin.ext ((ofNat32_inj a.isLt b.isLt).mp e))
    rw [if_neg hne, if_neg h]

/-- The same mask, as an embedded real. -/
theorem ind_ofNat_coe (a b : Fin 16) :
    ind (BitVec.ofNat 32 a.val) b.val = (((if a = b then 1 else 0 : ℝ)) : EReal) := by
  rw [ind_ofNat]; split_ifs <;> simp

/-- The embedding of the reals carries the greater of two reals to the greater of their images. -/
theorem coe_max (a b : ℝ) : ((max a b : ℝ) : EReal) = max (a : EReal) (b : EReal) :=
  EReal.coe_strictMono.monotone.map_max

/-- The pattern of 8.0 denotes the real 8. -/
theorem ofBits_eight : Ideal.ofBits .f32 0x41000000#32 = ((8 : ℝ) : EReal) := by
  simp [Ideal.ofBits, Ideal.ieee, -EReal.coe_mul]; norm_num

/-! ## The three running tables, as embedded reals -/

section Tables

variable (x : FVec Ideal SX .f32) (ids : IVec SId 32)
    (xr : Fin 1000000 → Fin 64 → ℝ) (id : Fin 1000000 → Fin 16)

/-- The masked sum over all points is the real sum over the cloud's points. -/
theorem sumT_coe (hx : ∀ (n : Fin 1000000) (f : Fin 64), x (ix2 n f) = ((xr n f : ℝ) : EReal))
    (hid : ∀ n : Fin 1000000, ids (ix2 n (0 : Fin 1)) = BitVec.ofNat 32 (id n).val)
    (b : Fin 16) (f : Fin 64) :
    sumT x ids (ix2 b f) = ((∑ n : Fin 1000000, (if id n = b then xr n f else 0) : ℝ) : EReal) := by
  rw [sumT_apply, Cert.Alg.coe_finset_sum]
  refine Finset.sum_congr rfl fun n _ => ?_
  rw [hx, hid, ind_ofNat_coe, ← EReal.coe_mul]
  congr 1
  split_ifs <;> simp

/-- The masked sum of squares over all points is the real sum of squares over the cloud's points. -/
theorem sqT_coe (hx : ∀ (n : Fin 1000000) (f : Fin 64), x (ix2 n f) = ((xr n f : ℝ) : EReal))
    (hid : ∀ n : Fin 1000000, ids (ix2 n (0 : Fin 1)) = BitVec.ofNat 32 (id n).val)
    (b : Fin 16) (f : Fin 64) :
    sqT x ids (ix2 b f)
      = ((∑ n : Fin 1000000, (if id n = b then xr n f * xr n f else 0) : ℝ) : EReal) := by
  rw [sqT_apply, Cert.Alg.coe_finset_sum]
  refine Finset.sum_congr rfl fun n _ => ?_
  rw [hx, hid, ind_ofNat_coe, ← EReal.coe_mul, ← EReal.coe_mul]
  congr 1
  split_ifs <;> simp

/-- The sum of the masks is the cloud's count. -/
theorem cntT_coe (hid : ∀ n : Fin 1000000, ids (ix2 n (0 : Fin 1)) = BitVec.ofNat 32 (id n).val)
    (b : Fin 16) (z : Fin 1) :
    cntT ids (ix2 b z) = ((cntR id b : ℝ) : EReal) := by
  rw [cntT_apply, cntR, Cert.Alg.coe_finset_sum]
  refine Finset.sum_congr rfl fun n _ => ?_
  rw [hid, ind_ofNat_coe]

end Tables

/-! ## Group sums, the divisor and the mean -/

theorem grp_apply (t : FVec Ideal ST .f32) (b : Fin 16) (g : Fin 8) :
    grp t (ix2 b g) = Ideal.ofBits .f32 0x00000000#32 + ∑ j : Fin 8, t (ix2 b (ch j g)) := rfl

/-- The group sum of a row of embedded reals is the embedded real group sum. -/
theorem grp_coe (t : FVec Ideal ST .f32) (tr : Fin 64 → ℝ) (b : Fin 16)
    (ht : ∀ f : Fin 64, t (ix2 b f) = ((tr f : ℝ) : EReal)) (g : Fin 8) :
    grp t (ix2 b g) = ((∑ j : Fin 8, tr (ch j g) : ℝ) : EReal) := by
  rw [grp_apply, Ideal.ofBits_zero_f32, zero_add, Cert.Alg.coe_finset_sum]
  exact Finset.sum_congr rfl fun j _ => ht _

/-- The divisor is at least one, so positive. -/
theorem ctR_pos (id : Fin 1000000 → Fin 16) (b : Fin 16) : 0 < ctR id b :=
  lt_of_lt_of_le one_pos (le_max_right _ _)

/-- The divisor as an embedded real. -/
theorem ctT_coe (ids : IVec SId 32) (id : Fin 1000000 → Fin 16)
    (hid : ∀ n : Fin 1000000, ids (ix2 n (0 : Fin 1)) = BitVec.ofNat 32 (id n).val) (b : Fin 16) :
    ctT (cntT ids) b = ((ctR id b : ℝ) : EReal) := by
  unfold ctT
  rw [cntT_coe ids id hid, ofBits_eight, Cert.Alg.ofBits_one, ← EReal.coe_mul, ← coe_max]
  rfl

theorem meanT_apply (s : FVec Ideal ST .f32) (cnt : FVec Ideal SC .f32) (b : Fin 16) (g : Fin 8) :
    meanT s cnt (ix2 b g) = Ideal.div (grp s (ix2 b g)) (ctT cnt b) := rfl

theorem invT_apply (s q : FVec Ideal ST .f32) (cnt : FVec Ideal SC .f32) (b : Fin 16) (g : Fin 8) :
    invT s q cnt (ix2 b g) = Ideal.div (Ideal.ofBits .f32 0x3F800000#32)
      (Ideal.sqrt (max (Ideal.div (grp q (ix2 b g)) (ctT cnt b) - meanT s cnt (ix2 b g) * meanT s cnt (ix2 b g))
          (Ideal.ofBits .f32 0x00000000#32) + Ideal.ofBits .f32 0x322BCC77#32)) := rfl

section Real

variable (xr : Fin 1000000 → Fin 64 → ℝ) (id : Fin 1000000 → Fin 16)

/-- The sum of cloud b's entries in group g. -/
def sR (b : Fin 16) (g : Fin 8) : ℝ :=
  ∑ n : Fin 1000000, ∑ j : Fin 8, if id n = b then xr n (ch j g) else 0

/-- The sum of the squares of cloud b's entries in group g. -/
def sqR (b : Fin 16) (g : Fin 8) : ℝ :=
  ∑ n : Fin 1000000, ∑ j : Fin 8, if id n = b then xr n (ch j g) * xr n (ch j g) else 0

theorem muR_eq (b : Fin 16) (g : Fin 8) : muR xr id b g = sR xr id b g / ctR id b := rfl

end Real

/-- The table of means holds the real means. -/
theorem meanT_coe (x : FVec Ideal SX .f32) (ids : IVec SId 32)
    (xr : Fin 1000000 → Fin 64 → ℝ) (id : Fin 1000000 → Fin 16)
    (hx : ∀ (n : Fin 1000000) (f : Fin 64), x (ix2 n f) = ((xr n f : ℝ) : EReal))
    (hid : ∀ n : Fin 1000000, ids (ix2 n (0 : Fin 1)) = BitVec.ofNat 32 (id n).val)
    (b : Fin 16) (g : Fin 8) :
    meanT (sumT x ids) (cntT ids) (ix2 b g) = ((muR xr id b g : ℝ) : EReal) := by
  rw [meanT_apply, grp_coe _ _ b (sumT_coe x ids xr id hx hid b) g, ctT_coe ids id hid,
    Ideal.div_coe (ctR_pos id b).ne', ← EReal.coe_mul, muR_eq, sR, Finset.sum_comm, mul_one_div]

/-! ## The variance law, in the reals -/

section Variance

variable (xr : Fin 1000000 → Fin 64 → ℝ) (id : Fin 1000000 → Fin 16)

/-- The sum of squared deviations from any m over a cloud's group, expanded: the number of terms is eight
    times the cloud's count. -/
theorem sum_sq_dev (b : Fin 16) (g : Fin 8) (m : ℝ) :
    (∑ n : Fin 1000000, ∑ j : Fin 8, if id n = b then (xr n (ch j g) - m) * (xr n (ch j g) - m) else 0)
      = sqR xr id b g - 2 * m * sR xr id b g + m * m * (cntR id b * 8) := by
  have hexp : ∀ (n : Fin 1000000) (j : Fin 8),
      (if id n = b then (xr n (ch j g) - m) * (xr n (ch j g) - m) else 0)
        = (if id n = b then xr n (ch j g) * xr n (ch j g) else 0)
          - 2 * m * (if id n = b then xr n (ch j g) else 0) + m * m * (if id n = b then 1 else 0) := by
    intro n j; split_ifs <;> ring
  have hK : (∑ n : Fin 1000000, ∑ j : Fin 8, (if id n = b then (1 : ℝ) else 0)) = cntR id b * 8 := by
    rw [cntR, Finset.sum_mul]
    refine Finset.sum_congr rfl fun n _ => ?_
    rw [Finset.sum_const, Finset.card_univ, Fintype.card_fin, nsmul_eq_mul]
    push_cast; ring
  simp only [hexp, Finset.sum_add_distrib, Finset.sum_sub_distrib, ← Finset.mul_sum, hK]
  rfl

/-- The mean squared deviation is not negative. -/
theorem vR_nonneg (b : Fin 16) (g : Fin 8) : 0 ≤ vR xr id b g := by
  unfold vR
  refine div_nonneg (Finset.sum_nonneg fun n _ => Finset.sum_nonneg fun j _ => ?_) (ctR_pos id b).le
  split_ifs
  · exact mul_self_nonneg _
  · exact le_rfl

/-- A cloud that has a point: E[x²] − μ² is the mean squared deviation, and the clip at zero does nothing. -/
theorem var_law (b : Fin 16) (g : Fin 8) (hc : 1 ≤ cntR id b) :
    max (sqR xr id b g * (1 / ctR id b) - muR xr id b g * muR xr id b g) 0 = vR xr id b g := by
  have hct : ctR id b = cntR id b * 8 := max_eq_left (by linarith)
  have hpos : 0 < ctR id b := ctR_pos id b
  have hv : vR xr id b g
      = (sqR xr id b g - 2 * muR xr id b g * sR xr id b g
          + muR xr id b g * muR xr id b g * (cntR id b * 8)) / ctR id b := by
    unfold vR; rw [sum_sq_dev]
  have heq : sqR xr id b g * (1 / ctR id b) - muR xr id b g * muR xr id b g = vR xr id b g := by
    rw [hv, muR_eq, ← hct]
    field_simp
    ring
  rw [heq]
  exact max_eq_left (vR_nonneg xr id b g)

/-- A point's own cloud has a point. -/
theorem one_le_cntR (n : Fin 1000000) : 1 ≤ cntR id (id n) := by
  unfold cntR
  calc (1 : ℝ) = (if id n = id n then (1 : ℝ) else 0) := (if_pos rfl).symm
    _ ≤ ∑ m : Fin 1000000, (if id m = id n then (1 : ℝ) else 0) :=
      Finset.single_le_sum (f := fun m : Fin 1000000 => if id m = id n then (1 : ℝ) else 0)
        (fun m _ => by split_ifs <;> norm_num) (Finset.mem_univ n)

end Variance

/-- The table of inverse deviations holds 1/√(v + ε) at a cloud that has a point. -/
theorem invT_coe (x : FVec Ideal SX .f32) (ids : IVec SId 32)
    (xr : Fin 1000000 → Fin 64 → ℝ) (id : Fin 1000000 → Fin 16) (ε : ℝ)
    (hx : ∀ (n : Fin 1000000) (f : Fin 64), x (ix2 n f) = ((xr n f : ℝ) : EReal))
    (hid : ∀ n : Fin 1000000, ids (ix2 n (0 : Fin 1)) = BitVec.ofNat 32 (id n).val)
    (hε : Ideal.ofBits .f32 0x322BCC77#32 = ((ε : ℝ) : EReal)) (hε0 : 0 < ε)
    (b : Fin 16) (g : Fin 8) (hc : 1 ≤ cntR id b) :
    invT (sumT x ids) (sqT x ids) (cntT ids) (ix2 b g)
      = ((1 / Real.sqrt (vR xr id b g + ε) : ℝ) : EReal) := by
  have hpos : 0 < vR xr id b g + ε := add_pos_of_nonneg_of_pos (vR_nonneg xr id b g) hε0
  have hsq : Real.sqrt (vR xr id b g + ε) ≠ 0 := (Real.sqrt_pos.mpr hpos).ne'
  have hq : grp (sqT x ids) (ix2 b g) = ((sqR xr id b g : ℝ) : EReal) := by
    rw [grp_coe _ _ b (sqT_coe x ids xr id hx hid b) g, sqR, Finset.sum_comm]
  rw [invT_apply, meanT_coe x ids xr id hx hid, hq, ctT_coe ids id hid,
    Ideal.div_coe (ctR_pos id b).ne', Ideal.ofBits_zero_f32, Cert.Alg.ofBits_one, hε,
    ← EReal.coe_mul, ← EReal.coe_mul, ← EReal.coe_sub, ← EReal.coe_zero, ← coe_max, ← EReal.coe_add,
    var_law xr id b g hc, Ideal.sqrt_coe, if_neg (not_lt.mpr hpos.le), Ideal.div_coe hsq,
    ← EReal.coe_mul, one_mul]

/-- The one-hot sum over the sixteen clouds picks the row of the point's own cloud. -/
theorem onehot_sum (ids : IVec SId 32) (id : Fin 1000000 → Fin 16)
    (hid : ∀ n : Fin 1000000, ids (ix2 n (0 : Fin 1)) = BitVec.ofNat 32 (id n).val)
    (t : FVec Ideal SG .f32) (n : Fin 1000000) (g : Fin 8) :
    (∑ b : Fin 16, ind (ids (ix2 n (0 : Fin 1))) b.val * t (ix2 b g)) = t (ix2 (id n) g) := by
  rw [hid]
  simp only [ind_ofNat, ite_mul, one_mul, zero_mul, Finset.sum_ite_eq, Finset.mem_univ, if_true]

/-- The streaming computation, at a point and channel, is the real function's value. -/
theorem streamOut_eq (x : FVec Ideal SX .f32) (ids : IVec SId 32) (gam bet : FVec Ideal SP .f32)
    (xr : Fin 1000000 → Fin 64 → ℝ) (id : Fin 1000000 → Fin 16) (γ β : Fin 64 → ℝ) (ε : ℝ)
    (hx : ∀ (n : Fin 1000000) (f : Fin 64), x (ix2 n f) = ((xr n f : ℝ) : EReal))
    (hid : ∀ n : Fin 1000000, ids (ix2 n (0 : Fin 1)) = BitVec.ofNat 32 (id n).val)
    (hγ : ∀ f : Fin 64, gam (ix2 (0 : Fin 1) f) = ((γ f : ℝ) : EReal))
    (hβ : ∀ f : Fin 64, bet (ix2 (0 : Fin 1) f) = ((β f : ℝ) : EReal))
    (hε : Ideal.ofBits .f32 0x322BCC77#32 = ((ε : ℝ) : EReal)) (hε0 : 0 < ε)
    (n : Fin 1000000) (f : Fin 64) :
    streamOut x ids gam bet (ix2 n f) = ((outR xr id γ β ε n f : ℝ) : EReal) := by
  unfold streamOut
  rw [normT_apply, onehot_sum ids id hid, onehot_sum ids id hid, hx, hγ, hβ,
    meanT_coe x ids xr id hx hid, invT_coe x ids xr id ε hx hid hε hε0 _ _ (one_le_cntR id n),
    ← EReal.coe_sub, ← EReal.coe_mul, ← EReal.coe_mul, ← EReal.coe_add, outR, mul_one_div]

end Cert.GN

end
-- ==== Proof.LibRowScatter.lean ====
/-
  Row scatter-adds and a row gather read at an entry.

  `segment_sum(v, ids)` and `x.at[ids].add(v)` along the LEADING axis lower to `stablehlo.scatter` with an `add` body, the
  scatter indices reshaped to `[R, 1]` (index vector on axis 1), the leading operand axis inserted and named by the
  index map, every other operand axis a window axis taken whole.  Update row `r` lands on operand row `ids[r, 0]`, read
  as a SIGNED integer and NOT clamped: a row whose index is negative or ≥ N is dropped.  So entry `n` (or `(n, b)`) of the
  result is the operand's entry plus the sum of the update entries of the rows `r` with `ids[r, 0] = n`.
  `x[ids]` for a rank-one operand lowers to `stablehlo.gather` with the same `[R, 1]` start indices: result entry `r` is
  operand entry `ids[r, 0]` read signed and clamped into `[0, N − 1]`.
-/
import Idealize.ShloMosaic.Lib.ValueIdx
import Idealize.ShloMosaic.PureOps.Ideal
import Idealize.ShloMosaic.PureOps.Ideal.Laws
import Idealize.ShloMosaic.PureOps.Contract

noncomputable section

namespace Cert.LibRowScatter

open Idealize.ShloMosaic Idealize.ShloMosaic.ValueIdx
open scoped BigOperators

/-- The dimension numbers of a leading-axis scatter of `[R]` updates into `[N]` by scatter indices `[R, 1]`. -/
abbrev rowSDims1 (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- The dimension numbers of a leading-axis scatter of `[R, B]` update rows into `[N, B]` by scatter indices `[R, 1]`. -/
abbrev rowSDims2 (N B R : Nat) (wf : ScatterDims.WF ⟨2, ![N, B]⟩ ⟨2, ![R, 1]⟩ ⟨2, ![R, B]⟩ [1] [0] [0] 1) :
    ScatterDims ⟨2, ![N, B]⟩ ⟨2, ![R, 1]⟩ ⟨2, ![R, B]⟩ where
  updateWindowDims := [1]
  insertedWindowDims := [0]
  scatterDimsToOperandDims := [0]
  indexVectorDim := 1
  wf := wf

/-- The rows of the updates that land on operand row `n`: those whose index, read signed, is `n`. -/
abbrev hits {R w : Nat} (idx : IVec ⟨2, ![R, 1]⟩ w) (n : Nat) : Finset (Fin R) :=
  Finset.univ.filter fun r : Fin R => (idx (ix2 r (0 : Fin 1))).toInt = (n : Int)

/-- On the operand's one axis the window of update row `r` starts at the row's index, read signed. -/
theorem rowSDims1_start {N R w : Nat}
    (wf : ScatterDims.WF ⟨1, ![N]⟩ ⟨2, ![R, 1]⟩ ⟨1, ![R]⟩ [] [0] [0] 1)
    (idx : IVec ⟨2, ![R, 1]⟩ w) (r : Fin R) :
    (rowSDims1 N R wf).start (ix1 r) idx ⟨0, Nat.one_pos⟩ = (idx (ix2 r (0 : Fin 1))).toInt := by
  unfold ScatterDims.start
  rw [dif_pos (show (⟨0, Nat.one_pos⟩ : Fin 1) ∈ (rowSDims1 N R wf).scatterDimsToOperandDims from List.mem_singleton.mpr rfl)]
  have hsi : (rowSDims1 N R wf).siIdx (ix1 r) ⟨List.idxOf (⟨0, Nat.one_pos⟩ : Fin 1) (rowSDims1 N R wf).scatterDimsToOperandDims,
      List.idxOf_lt_length_iff.2 (List.mem_singleton.mpr rfl)⟩ = ix2 r (0 : Fin 1) := by
    funext c; refine Fin.ext ?_
    match c with
    | ⟨0, _⟩ => rfl
    | ⟨1, _⟩ => rfl
  rw [hsi]

/-- The operand's one axis is inserted: an update row has no window coordinate on it. -/
theorem rowSDims1_window {N R : Nat}
    (wf : ScatterDims.WF ⟨1, ![N]⟩ ⟨2, ![R, 1]⟩ ⟨1, ![R]⟩ [] [0] [0] 1) (r : Fin R) :
    (rowSDims1 N R wf).window (ix1 r) ⟨0, Nat.one_pos⟩ = 0 := by
  unfold ScatterDims.window
  rw [dif_neg]
  intro h
  simp [ScatterDims.sKept, Shape.kept] at h

/-- Update row `r` lands at its index read signed: start plus window coordinate on the operand's one axis. -/
theorem rowSDims1_land {N R w : Nat}
    (wf : ScatterDims.WF ⟨1, ![N]⟩ ⟨2, ![R, 1]⟩ ⟨1, ![R]⟩ [] [0] [0] 1)
    (idx : IVec ⟨2, ![R, 1]⟩ w) (r : Fin R) (a : Fin 1) :
    (rowSDims1 N R wf).start (ix1 r) idx a + ((rowSDims1 N R wf).window (ix1 r) a : Int)
      = (idx (ix2 r (0 : Fin 1))).toInt := by
  match a with
  | ⟨0, _⟩ => rw [rowSDims1_start, rowSDims1_window]; simp

/-- Update row `r` lands on operand entry `n` exactly when its index, read signed, is `n`: a negative index or one
    past the operand's end lands nowhere. -/
theorem rowSDims1_resultIdx_iff {N R w : Nat}
    (wf : ScatterDims.WF ⟨1, ![N]⟩ ⟨2, ![R, 1]⟩ ⟨1, ![R]⟩ [] [0] [0] 1)
    (idx : IVec ⟨2, ![R, 1]⟩ w) (r : Fin R) (n : Fin N) :
    (rowSDims1 N R wf).resultIdx? (ix1 r) idx = some (ix1 n)
      ↔ (idx (ix2 r (0 : Fin 1))).toInt = (n.val : Int) := by
  unfold ScatterDims.resultIdx?
  constructor
  · intro h
    split at h
    · have h0 := congrArg Fin.val (congrFun (Option.some.inj h) ⟨0, Nat.one_pos⟩)
      rename_i hc
      have hc0 := (hc ⟨0, Nat.one_pos⟩).1
      rw [rowSDims1_land] at hc0
      have h1 : ((rowSDims1 N R wf).start (ix1 r) idx ⟨0, Nat.one_pos⟩
          + ((rowSDims1 N R wf).window (ix1 r) ⟨0, Nat.one_pos⟩ : Int)).toNat = n.val := h0
      rw [rowSDims1_land] at h1
      omega
    · exact absurd h (by simp)
  · intro h
    have hc : ∀ a : Fin 1, 0 ≤ (rowSDims1 N R wf).start (ix1 r) idx a + ((rowSDims1 N R wf).window (ix1 r) a : Int)
        ∧ (rowSDims1 N R wf).start (ix1 r) idx a + ((rowSDims1 N R wf).window (ix1 r) a : Int)
          < (((⟨1, ![N]⟩ : Shape).size a : Nat) : Int) := by
      intro a
      rw [rowSDims1_land, h]
      match a with
      | ⟨0, _⟩ =>
        refine ⟨by omega, ?_⟩
        show (n.val : Int) < ((N : Nat) : Int)
        have := n.isLt
        omega
    rw [dif_pos hc]
    congr 1
    funext a
    match a with
    | ⟨0, _⟩ =>
      refine Fin.ext ?_
      show ((rowSDims1 N R wf).start (ix1 r) idx ⟨0, Nat.one_pos⟩
          + ((rowSDims1 N R wf).window (ix1 r) ⟨0, Nat.one_pos⟩ : Int)).toNat = n.val
      rw [rowSDims1_land, h]
      omega

/-- Entry `n` of the accumulating row scatter into `[N]`: the operand's entry plus the updates of the rows that land on it. -/
theorem rowScatterAdd1_apply {N R w : Nat} {φ : FTy}
    (wf : ScatterDims.WF ⟨1, ![N]⟩ ⟨2, ![R, 1]⟩ ⟨1, ![R]⟩ [] [0] [0] 1)
    (x : FVec Ideal ⟨1, ![N]⟩ φ) (idx : IVec ⟨2, ![R, 1]⟩ w) (upd : FVec Ideal ⟨1, ![R]⟩ φ) (n : Fin N) :
    Host.scatterAdd (rowSDims1 N R wf) x idx upd (ix1 n)
      = x (ix1 n) + ∑ r ∈ hits idx n.val, upd (ix1 r) := by
  unfold Host.scatterAdd
  rw [Ideal.hostScatterAdd_def]
  unfold Ideal.hostScatterAdd
  congr 1
  refine Finset.sum_nbij' (fun j => (j 0 : Fin R)) (fun r => ix1 r) ?_ ?_ ?_ ?_ ?_
  · intro j hj
    have h := (Finset.mem_filter.mp hj).2
    rw [eq_ix1 j] at h
    exact Finset.mem_filter.mpr ⟨Finset.mem_univ _, (rowSDims1_resultIdx_iff wf idx (j 0) n).mp h⟩
  · intro r hr
    exact Finset.mem_filter.mpr ⟨Finset.mem_univ _, (rowSDims1_resultIdx_iff wf idx r n).mpr (Finset.mem_filter.mp hr).2⟩
  · intro j _
    exact (eq_ix1 j).symm
  · intro r _
    rfl
  · intro j _
    exact congrArg upd (eq_ix1 j)

/-- On the row axis the window of update entry `(r, b')` starts at row `r`'s index, read signed. -/
theorem rowSDims2_start_row {N B R w : Nat}
    (wf : ScatterDims.WF ⟨2, ![N, B]⟩ ⟨2, ![R, 1]⟩ ⟨2, ![R, B]⟩ [1] [0] [0] 1)
    (idx : IVec ⟨2, ![R, 1]⟩ w) (r : Fin R) (b' : Fin B) :
    (rowSDims2 N B R wf).start (ix2 r b') idx ⟨0, Nat.zero_lt_two⟩ = (idx (ix2 r (0 : Fin 1))).toInt := by
  unfold ScatterDims.start
  rw [dif_pos (show (⟨0, Nat.zero_lt_two⟩ : Fin 2) ∈ (rowSDims2 N B R wf).scatterDimsToOperandDims from List.mem_singleton.mpr rfl)]
  have hsi : (rowSDims2 N B R wf).siIdx (ix2 r b') ⟨List.idxOf (⟨0, Nat.zero_lt_two⟩ : Fin 2) (rowSDims2 N B R wf).scatterDimsToOperandDims,
      List.idxOf_lt_length_iff.2 (List.mem_singleton.mpr rfl)⟩ = ix2 r (0 : Fin 1) := by
    funext c; refine Fin.ext ?_
    match c with
    | ⟨0, _⟩ => rfl
    | ⟨1, _⟩ => rfl
  rw [hsi]

/-- The column axis is not named by the index map: the window starts at `0` there. -/
theorem rowSDims2_start_col {N B R w : Nat}
    (wf : ScatterDims.WF ⟨2, ![N, B]⟩ ⟨2, ![R, 1]⟩ ⟨2, ![R, B]⟩ [1] [0] [0] 1)
    (idx : IVec ⟨2, ![R, 1]⟩ w) (r : Fin R) (b' : Fin B) :
    (rowSDims2 N B R wf).start (ix2 r b') idx ⟨1, Nat.one_lt_two⟩ = 0 := by
  unfold ScatterDims.start
  rw [dif_neg (fun h => absurd (congrArg Fin.val (List.mem_singleton.mp h)) (Nat.succ_ne_zero _))]

/-- The row axis is inserted: an update entry has no window coordinate on it. -/
theorem rowSDims2_window_row {N B R : Nat}
    (wf : ScatterDims.WF ⟨2, ![N, B]⟩ ⟨2, ![R, 1]⟩ ⟨2, ![R, B]⟩ [1] [0] [0] 1) (r : Fin R) (b' : Fin B) :
    (rowSDims2 N B R wf).window (ix2 r b') ⟨0, Nat.zero_lt_two⟩ = 0 := by
  unfold ScatterDims.window
  rw [dif_neg]
  intro h
  simp [ScatterDims.sKept, Shape.kept] at h

/-- On the column axis the window coordinate of update entry `(r, b')` is `b'`. -/
theorem rowSDims2_window_col {N B R : Nat}
    (wf : ScatterDims.WF ⟨2, ![N, B]⟩ ⟨2, ![R, 1]⟩ ⟨2, ![R, B]⟩ [1] [0] [0] 1) (r : Fin R) (b' : Fin B) :
    (rowSDims2 N B R wf).window (ix2 r b') ⟨1, Nat.one_lt_two⟩ = b'.val := by
  unfold ScatterDims.window
  rw [dif_pos (show (⟨1, Nat.one_lt_two⟩ : Fin 2) ∈ (rowSDims2 N B R wf).sKept by simp [ScatterDims.sKept, Shape.kept])]
  rfl

/-- Update entry `(r, b')` lands on the row its index names, read signed. -/
theorem rowSDims2_land_row {N B R w : Nat}
    (wf : ScatterDims.WF ⟨2, ![N, B]⟩ ⟨2, ![R, 1]⟩ ⟨2, ![R, B]⟩ [1] [0] [0] 1)
    (idx : IVec ⟨2, ![R, 1]⟩ w) (r : Fin R) (b' : Fin B) :
    (rowSDims2 N B R wf).start (ix2 r b') idx ⟨0, Nat.zero_lt_two⟩
        + ((rowSDims2 N B R wf).window (ix2 r b') ⟨0, Nat.zero_lt_two⟩ : Int)
      = (idx (ix2 r (0 : Fin 1))).toInt := by
  rw [rowSDims2_start_row, rowSDims2_window_row]; simp

/-- Update entry `(r, b')` lands on column `b'`. -/
theorem rowSDims2_land_col {N B R w : Nat}
    (wf : ScatterDims.WF ⟨2, ![N, B]⟩ ⟨2, ![R, 1]⟩ ⟨2, ![R, B]⟩ [1] [0] [0] 1)
    (idx : IVec ⟨2, ![R, 1]⟩ w) (r : Fin R) (b' : Fin B) :
    (rowSDims2 N B R wf).start (ix2 r b') idx ⟨1, Nat.one_lt_two⟩
        + ((rowSDims2 N B R wf).window (ix2 r b') ⟨1, Nat.one_lt_two⟩ : Int)
      = (b'.val : Int) := by
  rw [rowSDims2_start_col, rowSDims2_window_col]; simp

/-- Update entry `(r, b')` lands on operand entry `(n, b)` exactly when row `r`'s index, read signed, is `n` and
    `b' = b`. -/
theorem rowSDims2_resultIdx_iff {N B R w : Nat}
    (wf : ScatterDims.WF ⟨2, ![N, B]⟩ ⟨2, ![R, 1]⟩ ⟨2, ![R, B]⟩ [1] [0] [0] 1)
    (idx : IVec ⟨2, ![R, 1]⟩ w) (r : Fin R) (b' : Fin B) (n : Fin N) (b : Fin B) :
    (rowSDims2 N B R wf).resultIdx? (ix2 r b') idx = some (ix2 n b)
      ↔ (idx (ix2 r (0 : Fin 1))).toInt = (n.val : Int) ∧ b' = b := by
  unfold ScatterDims.resultIdx?
  constructor
  · intro h
    split at h
    · rename_i hc
      have h0 := congrArg Fin.val (congrFun (Option.some.inj h) ⟨0, Nat.zero_lt_two⟩)
      have h1 := congrArg Fin.val (congrFun (Option.some.inj h) ⟨1, Nat.one_lt_two⟩)
      have hc0 := (hc ⟨0, Nat.zero_lt_two⟩).1
      rw [rowSDims2_land_row] at hc0
      have e0 : ((rowSDims2 N B R wf).start (ix2 r b') idx ⟨0, Nat.zero_lt_two⟩
          + ((rowSDims2 N B R wf).window (ix2 r b') ⟨0, Nat.zero_lt_two⟩ : Int)).toNat = n.val := h0
      have e1 : ((rowSDims2 N B R wf).start (ix2 r b') idx ⟨1, Nat.one_lt_two⟩
          + ((rowSDims2 N B R wf).window (ix2 r b') ⟨1, Nat.one_lt_two⟩ : Int)).toNat = b.val := h1
      rw [rowSDims2_land_row] at e0
      rw [rowSDims2_land_col] at e1
      exact ⟨by omega, Fin.ext (by omega)⟩
    · exact absurd h (by simp)
  · rintro ⟨h, rfl⟩
    have hc : ∀ a : Fin 2, 0 ≤ (rowSDims2 N B R wf).start (ix2 r b') idx a + ((rowSDims2 N B R wf).window (ix2 r b') a : Int)
        ∧ (rowSDims2 N B R wf).start (ix2 r b') idx a + ((rowSDims2 N B R wf).window (ix2 r b') a : Int)
          < (((⟨2, ![N, B]⟩ : Shape).size a : Nat) : Int) := by
      intro a
      match a with
      | ⟨0, _⟩ =>
        rw [rowSDims2_land_row, h]
        refine ⟨by omega, ?_⟩
        show (n.val : Int) < ((N : Nat) : Int)
        have := n.isLt
        omega
      | ⟨1, _⟩ =>
        rw [rowSDims2_land_col]
        refine ⟨by omega, ?_⟩
        show (b'.val : Int) < ((B : Nat) : Int)
        have := b'.isLt
        omega
    rw [dif_pos hc]
    congr 1
    funext a
    match a with
    | ⟨0, _⟩ =>
      refine Fin.ext ?_
      show ((rowSDims2 N B R wf).start (ix2 r b') idx ⟨0, Nat.zero_lt_two⟩
          + ((rowSDims2 N B R wf).window (ix2 r b') ⟨0, Nat.zero_lt_two⟩ : Int)).toNat = n.val
      rw [rowSDims2_land_row, h]
      omega
    | ⟨1, _⟩ =>
      refine Fin.ext ?_
      show ((rowSDims2 N B R wf).start (ix2 r b') idx ⟨1, Nat.one_lt_two⟩
          + ((rowSDims2 N B R wf).window (ix2 r b') ⟨1, Nat.one_lt_two⟩ : Int)).toNat = b'.val
      rw [rowSDims2_land_col]
      omega

/-- Entry `(n, b)` of the accumulating row scatter into `[N, B]`: the operand's entry plus column `b` of the update rows
    that land on row `n`. -/
theorem rowScatterAdd2_apply {N B R w : Nat} {φ : FTy}
    (wf : ScatterDims.WF ⟨2, ![N, B]⟩ ⟨2, ![R, 1]⟩ ⟨2, ![R, B]⟩ [1] [0] [0] 1)
    (x : FVec Ideal ⟨2, ![N, B]⟩ φ) (idx : IVec ⟨2, ![R, 1]⟩ w) (upd : FVec Ideal ⟨2, ![R, B]⟩ φ) (n : Fin N) (b : Fin B) :
    Host.scatterAdd (rowSDims2 N B R wf) x idx upd (ix2 n b)
      = x (ix2 n b) + ∑ r ∈ hits idx n.val, upd (ix2 r b) := by
  unfold Host.scatterAdd
  rw [Ideal.hostScatterAdd_def]
  unfold Ideal.hostScatterAdd
  congr 1
  have hland : ∀ j : (⟨2, ![R, B]⟩ : Shape).Idx,
      (rowSDims2 N B R wf).resultIdx? j idx = some (ix2 n b) →
        (idx (ix2 (j 0) (0 : Fin 1))).toInt = (n.val : Int) ∧ j = ix2 (j 0) b := by
    intro j h
    rw [eq_ix2 j] at h
    obtain ⟨h0, h1⟩ := (rowSDims2_resultIdx_iff wf idx (j 0) (j 1) n b).mp h
    refine ⟨h0, ?_⟩
    rw [← h1]
    exact eq_ix2 j
  refine Finset.sum_nbij' (fun j => (j 0 : Fin R)) (fun r => ix2 r b) ?_ ?_ ?_ ?_ ?_
  · intro j hj
    exact Finset.mem_filter.mpr ⟨Finset.mem_univ _, (hland j (Finset.mem_filter.mp hj).2).1⟩
  · intro r hr
    exact Finset.mem_filter.mpr ⟨Finset.mem_univ _,
      (rowSDims2_resultIdx_iff wf idx r b n b).mpr ⟨(Finset.mem_filter.mp hr).2, rfl⟩⟩
  · intro j hj
    exact (hland j (Finset.mem_filter.mp hj).2).2.symm
  · intro r _
    rfl
  · intro j hj
    exact congrArg upd (hland j (Finset.mem_filter.mp hj).2).2

/-- The dimension numbers of a gather out of `[N]` by start indices `[R, 1]`. -/
abbrev rowDims1 (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Result entry `r` of the gather out of `[N]` is operand entry `clamp idx[r, 0]`. -/
theorem rowGather1_apply {α : Type} {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (rowDims1 N R wf) x idx (ix1 r)
      = x (ix1 ⟨min (idx (ix2 r (0 : Fin 1))).toInt.toNat (N - 1), by omega⟩) := by
  unfold Host.gather
  congr 1
  funext ax
  refine Fin.ext ?_
  show (rowDims1 N R wf).start (ix1 r) idx ax + (rowDims1 N R wf).batchCoord (ix1 r) ax
    + (rowDims1 N R wf).offCoord (ix1 r) ax = _
  rw [GatherDims.batchCoord_eq_zero _ _ _ List.not_mem_nil, Nat.add_zero]
  match ax with
  | ⟨0, _⟩ =>
    rw [GatherDims.offCoord_eq_zero _ _ _ (fun h => ((GatherDims.mem_sKept _ _).mp h).1 (List.mem_singleton.mpr rfl)),
      Nat.add_zero]
    unfold GatherDims.start
    rw [dif_pos (show (⟨0, by decide⟩ : Fin 1) ∈ (rowDims1 N R wf).startIndexMap from List.mem_singleton.mpr rfl)]
    have hsi : (rowDims1 N R wf).siIdx (ix1 r) ⟨List.idxOf (⟨0, by decide⟩ : Fin 1) (rowDims1 N R wf).startIndexMap,
        List.idxOf_lt_length_iff.2 (List.mem_singleton.mpr rfl)⟩ = ix2 r (0 : Fin 1) := by
      funext c; refine Fin.ext ?_
      match c with
      | ⟨0, _⟩ => rfl
      | ⟨1, _⟩ => rfl
    rw [hsi]
    rfl

end Cert.LibRowScatter

end
-- ==== Proof.LibRowGather.lean ====
/-
  A row gather read at an entry.

  `x[idx]` for an integer vector `idx : [R]` and an operand `x` whose LEADING axis is gathered lowers to
  `stablehlo.gather` with the start indices reshaped to `[R, 1]` (index vector on axis 1), the leading operand axis
  collapsed and named by the start index map, and every other operand axis an offset axis taken whole.  Result row
  `r` is then operand row `idx[r, 0]`, read as a signed integer and clamped into `[0, N − 1]` (StableHLO clamps
  every start index so that the slice fits), and the remaining coordinates pass through unchanged.  Stated for an
  operand of rank three (`[N, A, B]`, result `[R, A, B]`) and of rank two (`[N, B]`, result `[R, B]`).
-/
import Idealize.ShloMosaic.Lib.ValueIdx

noncomputable section

namespace Cert.LibRowGather

open Idealize.ShloMosaic Idealize.ShloMosaic.ValueIdx

variable {α : Type}

/-- The dimension numbers of a leading-axis row gather out of `[N, A, B]` by start indices `[R, 1]`. -/
abbrev rowDims3 (N A B R : Nat)
    (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- Result entry `(r, a, b)` of the row gather is operand entry `(clamp idx[r, 0], a, b)`. -/
theorem rowGather3_apply {N A B R w : Nat} (hN : 0 < N)
    (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ w) (r : Fin R) (a : Fin A) (b : Fin B) :
    Host.gather (rowDims3 N A B R wf) x idx (ix3 r a b)
      = x (ix3 ⟨min (idx (ix2 r (0 : Fin 1))).toInt.toNat (N - 1), by omega⟩ a b) := by
  unfold Host.gather
  congr 1
  funext ax
  refine Fin.ext ?_
  show (rowDims3 N A B R wf).start (ix3 r a b) idx ax + (rowDims3 N A B R wf).batchCoord (ix3 r a b) ax
    + (rowDims3 N A B R wf).offCoord (ix3 r a b) ax = _
  rw [GatherDims.batchCoord_eq_zero _ _ _ List.not_mem_nil, Nat.add_zero]
  match ax with
  | ⟨0, _⟩ =>
    rw [GatherDims.offCoord_eq_zero _ _ _ (fun h => ((GatherDims.mem_sKept _ _).mp h).1 (List.mem_singleton.mpr rfl)),
      Nat.add_zero]
    unfold GatherDims.start
    rw [dif_pos (show (⟨0, by decide⟩ : Fin 3) ∈ (rowDims3 N A B R wf).startIndexMap from List.mem_singleton.mpr rfl)]
    have hsi : (rowDims3 N A B R wf).siIdx (ix3 r a b) ⟨List.idxOf (⟨0, by decide⟩ : Fin 3) (rowDims3 N A B R wf).startIndexMap,
        List.idxOf_lt_length_iff.2 (List.mem_singleton.mpr rfl)⟩ = ix2 r (0 : Fin 1) := by
      funext c; refine Fin.ext ?_
      match c with
      | ⟨0, _⟩ => rfl
      | ⟨1, _⟩ => rfl
    rw [hsi]
    rfl
  | ⟨1, _⟩ =>
    unfold GatherDims.start
    rw [dif_neg (fun h => absurd (congrArg Fin.val (List.mem_singleton.mp h)) (Nat.succ_ne_zero _)), Nat.zero_add]
    rfl
  | ⟨2, _⟩ =>
    unfold GatherDims.start
    rw [dif_neg (fun h => absurd (congrArg Fin.val (List.mem_singleton.mp h)) (Nat.succ_ne_zero _)), Nat.zero_add]
    rfl

/-- The dimension numbers of a leading-axis row gather out of `[N, B]` by start indices `[R, 1]`. -/
abbrev rowDims2 (N B R : Nat)
    (wf : GatherDims.WF ⟨2, ![N, B]⟩ ⟨2, ![R, 1]⟩ ⟨2, ![R, B]⟩ [1] [0] [] [0] [] 1 ![1, B]) :
    GatherDims ⟨2, ![N, B]⟩ ⟨2, ![R, 1]⟩ ⟨2, ![R, B]⟩ where
  offsetDims := [1]
  collapsedSliceDims := [0]
  operandBatchingDims := []
  startIndicesBatchingDims := []
  startIndexMap := [0]
  indexVectorDim := 1
  sliceSizes := ![1, B]
  wf := wf

/-- Result entry `(r, b)` of the row gather is operand entry `(clamp idx[r, 0], b)`. -/
theorem rowGather2_apply {N B R w : Nat} (hN : 0 < N)
    (wf : GatherDims.WF ⟨2, ![N, B]⟩ ⟨2, ![R, 1]⟩ ⟨2, ![R, B]⟩ [1] [0] [] [0] [] 1 ![1, B])
    (x : (⟨2, ![N, B]⟩ : Shape).Idx → α) (idx : IVec ⟨2, ![R, 1]⟩ w) (r : Fin R) (b : Fin B) :
    Host.gather (rowDims2 N B R wf) x idx (ix2 r b)
      = x (ix2 ⟨min (idx (ix2 r (0 : Fin 1))).toInt.toNat (N - 1), by omega⟩ b) := by
  unfold Host.gather
  congr 1
  funext ax
  refine Fin.ext ?_
  show (rowDims2 N B R wf).start (ix2 r b) idx ax + (rowDims2 N B R wf).batchCoord (ix2 r b) ax
    + (rowDims2 N B R wf).offCoord (ix2 r b) ax = _
  rw [GatherDims.batchCoord_eq_zero _ _ _ List.not_mem_nil, Nat.add_zero]
  match ax with
  | ⟨0, _⟩ =>
    rw [GatherDims.offCoord_eq_zero _ _ _ (fun h => ((GatherDims.mem_sKept _ _).mp h).1 (List.mem_singleton.mpr rfl)),
      Nat.add_zero]
    unfold GatherDims.start
    rw [dif_pos (show (⟨0, by decide⟩ : Fin 2) ∈ (rowDims2 N B R wf).startIndexMap from List.mem_singleton.mpr rfl)]
    have hsi : (rowDims2 N B R wf).siIdx (ix2 r b) ⟨List.idxOf (⟨0, by decide⟩ : Fin 2) (rowDims2 N B R wf).startIndexMap,
        List.idxOf_lt_length_iff.2 (List.mem_singleton.mpr rfl)⟩ = ix2 r (0 : Fin 1) := by
      funext c; refine Fin.ext ?_
      match c with
      | ⟨0, _⟩ => rfl
      | ⟨1, _⟩ => rfl
    rw [hsi]
    rfl
  | ⟨1, _⟩ =>
    unfold GatherDims.start
    rw [dif_neg (fun h => absurd (congrArg Fin.val (List.mem_singleton.mp h)) (Nat.succ_ne_zero _)), Nat.zero_add]
    rfl

end Cert.LibRowGather

end
-- ==== Proof.RefAlg.lean ====
/-
  The reference computes the function.  It lays the features out as [8000000, 8] (row 8 n + j holds channels
  8 j … 8 j + 7 of point n, so column g of that row is channel 8 j + g), repeats each id eight times, and takes
  per-cloud sums by scatter-add and per-row values by gather.  With every id a cloud number below sixteen no
  update is dropped and no gather index is wrapped or clamped: the scatter sums are the sums over the cloud's
  rows, the gathers read the point's own cloud.
-/
import proofs.«422416_j58806692216853_3_alg».proof.Proof.Gen.ReferenceIdeal.Read
import proofs.«422416_j58806692216853_3_alg».proof.Proof.Spec
import proofs.«422416_j58806692216853_3_alg».proof.Proof.LibRowScatter
import proofs.«422416_j58806692216853_3_alg».proof.Proof.LibRowGather
import proofs.«422416_j58806692216853_3_alg».proof.Proof.LibRealVariance

noncomputable section

namespace Cert.GN

open Idealize.ShloMosaic Idealize.ShloMosaic.ValueIdx
open scoped BigOperators

namespace Ref

open Cert.ReferenceIdeal Cert.ReferenceIdeal.Gen Cert.ReferenceIdeal.Read
open Cert.LibRowScatter Cert.LibRowGather Cert.Alg

/-! ## The rows of the [8000000, 8] layout -/

/-- Row `R` of the layout belongs to point `R / 8` … -/
def rowPt (R : Fin 8000000) : Fin 1000000 := ⟨R.val / 8, by have := R.isLt; omega⟩

/-- … and holds member `R % 8` of each of the eight groups. -/
def rowMem (R : Fin 8000000) : Fin 8 := ⟨R.val % 8, Nat.mod_lt _ (by decide)⟩

/-- The rows as (point, member) pairs: (n, j) ↦ 8 n + j. -/
def rowEquiv : Fin 1000000 × Fin 8 ≃ Fin 8000000 := finProdFinEquiv

theorem rowEquiv_val (n : Fin 1000000) (j : Fin 8) : (rowEquiv (n, j)).val = 8 * n.val + j.val := by
  show j.val + 8 * n.val = 8 * n.val + j.val
  exact Nat.add_comm _ _

theorem rowPt_rowEquiv (n : Fin 1000000) (j : Fin 8) : rowPt (rowEquiv (n, j)) = n := by
  refine Fin.ext ?_
  show (rowEquiv (n, j)).val / 8 = n.val
  rw [rowEquiv_val]; have := j.isLt; omega

theorem rowMem_rowEquiv (n : Fin 1000000) (j : Fin 8) : rowMem (rowEquiv (n, j)) = j := by
  refine Fin.ext ?_
  show (rowEquiv (n, j)).val % 8 = j.val
  rw [rowEquiv_val]; have := j.isLt; omega

/-- A sum over the rows is the sum over the points of the sums over a point's eight rows. -/
theorem sum_rows {M : Type*} [AddCommMonoid M] (f : Fin 8000000 → M) :
    ∑ R, f R = ∑ n : Fin 1000000, ∑ j : Fin 8, f (rowEquiv (n, j)) := (sum_regroup rowEquiv f).symm

/-! ## Cloud numbers as 32-bit words -/

/-- A cloud number below sixteen, as a 32-bit word read signed, is itself. -/
theorem toInt_small (k : Fin 16) : (BitVec.ofNat 32 k.val).toInt = (k.val : Int) := by
  revert k; decide

/-- Such a word is not negative. -/
theorem slt_small (k : Fin 16) : IntOp.cmpi .slt (BitVec.ofNat 32 k.val) 0#32 = 0#1 := by
  revert k; decide

/-- Clamping it into [0, 15] changes nothing. -/
theorem clamp_small (k : Fin 16) : min (BitVec.ofNat 32 k.val).toInt.toNat (16 - 1) = k.val := by
  rw [toInt_small, Int.toNat_natCast]; have := k.isLt; omega

/-! ## The layout and the repeated ids, read at a row -/

/-- Column `g` of row `R` of the reshaped features is channel `8 (R % 8) + g` of point `R / 8`. -/
theorem cur_apply (x : FVec Ideal SX .f32) (xr : Fin 1000000 → Fin 64 → ℝ)
    (hx : ∀ (n : Fin 1000000) (f : Fin 64), x (ix2 n f) = ((xr n f : ℝ) : EReal))
    (R : Fin 8000000) (g : Fin 8) :
    val_main_v0 (F := Ideal) x (ix2 R g) = ((xr (rowPt R) (ch (rowMem R) g) : ℝ) : EReal) := by
  rw [val_main_v0_apply]
  have hi : idx_main_v0 (ix2 R g) = ix2 (rowPt R) (ch (rowMem R) g) := by
    funext a
    match a with
    | ⟨0, _⟩ =>
      refine Fin.ext ?_
      show (R.val * 8 + g.val) / 64 = R.val / 8
      have := g.isLt; omega
    | ⟨1, _⟩ =>
      refine Fin.ext ?_
      show (R.val * 8 + g.val) % 64 = 8 * (R.val % 8) + g.val
      have := g.isLt; omega
  rw [hi, hx]

/-- Entry `R` of the ids repeated eight times is the id of point `R / 8`. -/
theorem ids8_apply (ids : IVec SIv 32) (id : Fin 1000000 → Fin 16)
    (hid : ∀ n : Fin 1000000, ids (ix1 n) = BitVec.ofNat 32 (id n).val) (R : Fin 8000000) :
    val_main_v2 (F := Ideal) ids (ix1 R) = BitVec.ofNat 32 (id (rowPt R)).val := by
  rw [val_main_v2_apply, val_main_v1_apply]
  have hi : idx_main_v1 (idx_main_v2 (ix1 R)) = ix1 (rowPt R) := by
    funext a
    match a with
    | ⟨0, _⟩ => rfl
  rw [hi, hid]

/-- The scatter indices of the counts: the repeated ids as a column. -/
theorem col5_apply (ids : IVec SIv 32) (id : Fin 1000000 → Fin 16)
    (hid : ∀ n : Fin 1000000, ids (ix1 n) = BitVec.ofNat 32 (id n).val) (R : Fin 8000000) :
    val_main_v5 (F := Ideal) ids (ix2 R (0 : Fin 1)) = BitVec.ofNat 32 (id (rowPt R)).val := by
  rw [val_main_v5_apply]
  have hi : idx_main_v5 (ix2 R (0 : Fin 1)) = ix1 R := by
    funext a
    match a with
    | ⟨0, _⟩ => rfl
  rw [hi, ids8_apply ids id hid]

/-- The scatter indices of the sums: the same column. -/
theorem col11_apply (ids : IVec SIv 32) (id : Fin 1000000 → Fin 16)
    (hid : ∀ n : Fin 1000000, ids (ix1 n) = BitVec.ofNat 32 (id n).val) (R : Fin 8000000) :
    val_main_v11 (F := Ideal) ids (ix2 R (0 : Fin 1)) = BitVec.ofNat 32 (id (rowPt R)).val := by
  rw [val_main_v11_apply]
  have hi : idx_main_v11 (ix2 R (0 : Fin 1)) = ix1 R := by
    funext a
    match a with
    | ⟨0, _⟩ => rfl
  rw [hi, ids8_apply ids id hid]

/-- The scatter indices of the squared deviations: the same column. -/
theorem col25_apply (ids : IVec SIv 32) (id : Fin 1000000 → Fin 16)
    (hid : ∀ n : Fin 1000000, ids (ix1 n) = BitVec.ofNat 32 (id n).val) (R : Fin 8000000) :
    val_main_v25 (F := Ideal) ids (ix2 R (0 : Fin 1)) = BitVec.ofNat 32 (id (rowPt R)).val := by
  rw [val_main_v25_apply]
  have hi : idx_main_v25 (ix2 R (0 : Fin 1)) = ix1 R := by
    funext a
    match a with
    | ⟨0, _⟩ => rfl
  rw [hi, ids8_apply ids id hid]

/-- The gather indices of the means: a negative id would have sixteen added; none is negative, so the column is the
    repeated ids again. -/
theorem col20_apply (ids : IVec SIv 32) (id : Fin 1000000 → Fin 16)
    (hid : ∀ n : Fin 1000000, ids (ix1 n) = BitVec.ofNat 32 (id n).val) (R : Fin 8000000) :
    val_main_v20 (F := Ideal) ids (ix2 R (0 : Fin 1)) = BitVec.ofNat 32 (id (rowPt R)).val := by
  rw [val_main_v20_apply]
  have hi : idx_main_v20 (ix2 R (0 : Fin 1)) = ix1 R := by
    funext a
    match a with
    | ⟨0, _⟩ => rfl
  rw [hi, val_main_v19_apply, val_main_v16_apply, val_main_v15_apply, val_main_c_apply, ids8_apply ids id hid,
    slt_small, select_zero]

/-- The gather indices of the variances: likewise. -/
theorem col35_apply (ids : IVec SIv 32) (id : Fin 1000000 → Fin 16)
    (hid : ∀ n : Fin 1000000, ids (ix1 n) = BitVec.ofNat 32 (id n).val) (R : Fin 8000000) :
    val_main_v35 (F := Ideal) ids (ix2 R (0 : Fin 1)) = BitVec.ofNat 32 (id (rowPt R)).val := by
  rw [val_main_v35_apply]
  have hi : idx_main_v35 (ix2 R (0 : Fin 1)) = ix1 R := by
    funext a
    match a with
    | ⟨0, _⟩ => rfl
  rw [hi, val_main_v34_apply, val_main_v31_apply, val_main_v30_apply, val_main_c_5_apply, ids8_apply ids id hid,
    slt_small, select_zero]

/-! ## A scatter-add by the repeated ids is a sum over the cloud's points -/

/-- The rows that land on cloud `b` are the rows of the points of cloud `b`. -/
theorem hits_eq (idx : IVec ⟨2, ![8000000, 1]⟩ 32) (id : Fin 1000000 → Fin 16)
    (hidx : ∀ R : Fin 8000000, idx (ix2 R (0 : Fin 1)) = BitVec.ofNat 32 (id (rowPt R)).val) (b : Fin 16) :
    hits idx b.val = Finset.univ.filter (fun R : Fin 8000000 => id (rowPt R) = b) := by
  refine Finset.filter_congr fun R _ => ?_
  rw [hidx, toInt_small]
  constructor
  · intro h
    exact Fin.ext (by omega)
  · intro h
    rw [h]

/-- The updates of the rows that land on cloud `b`, when row `R` carries the real `u (R / 8) (R % 8)`, add up to
    the sum of `u n j` over the points `n` of cloud `b` and the eight members `j`. -/
theorem seg_sum (idx : IVec ⟨2, ![8000000, 1]⟩ 32) (id : Fin 1000000 → Fin 16)
    (hidx : ∀ R : Fin 8000000, idx (ix2 R (0 : Fin 1)) = BitVec.ofNat 32 (id (rowPt R)).val)
    (upd : Fin 8000000 → EReal) (u : Fin 1000000 → Fin 8 → ℝ)
    (hu : ∀ R : Fin 8000000, upd R = ((u (rowPt R) (rowMem R) : ℝ) : EReal)) (b : Fin 16) :
    ∑ R ∈ hits idx b.val, upd R
      = ((∑ n : Fin 1000000, ∑ j : Fin 8, (if id n = b then u n j else 0) : ℝ) : EReal) := by
  rw [hits_eq idx id hidx b, Finset.sum_filter, sum_rows, coe_finset_sum]
  refine Finset.sum_congr rfl fun n _ => ?_
  rw [coe_finset_sum]
  refine Finset.sum_congr rfl fun j _ => ?_
  rw [hu, rowPt_rowEquiv, rowMem_rowEquiv]
  split_ifs
  · rfl
  · exact EReal.coe_zero.symm

/-! ## The scatters and gathers of this program, read at an entry -/

/-- Entry `b` of a scatter-add of [8000000] updates into [16]. -/
theorem scat1_apply (a : FVec Ideal ⟨1, ![16]⟩ .f32) (idx : IVec ⟨2, ![8000000, 1]⟩ 32)
    (upd : FVec Ideal ⟨1, ![8000000]⟩ .f32) (b : Fin 16) :
    Host.scatterAdd scatter_S16_S8000000x1_S8000000_n_0_0_1 a idx upd (ix1 b)
      = a (ix1 b) + ∑ r ∈ hits idx b.val, upd (ix1 r) :=
  rowScatterAdd1_apply Cert.ReferenceIdeal.Gen.scatter_S16_S8000000x1_S8000000_n_0_0_1_wf a idx upd b

/-- Entry `(b, g)` of a scatter-add of [8000000, 8] update rows into [16, 8]. -/
theorem scat2_apply (a : FVec Ideal ⟨2, ![16, 8]⟩ .f32) (idx : IVec ⟨2, ![8000000, 1]⟩ 32)
    (upd : FVec Ideal ⟨2, ![8000000, 8]⟩ .f32) (b : Fin 16) (g : Fin 8) :
    Host.scatterAdd scatter_S16x8_S8000000x1_S8000000x8_1_0_0_1 a idx upd (ix2 b g)
      = a (ix2 b g) + ∑ r ∈ hits idx b.val, upd (ix2 r g) :=
  rowScatterAdd2_apply Cert.ReferenceIdeal.Gen.scatter_S16x8_S8000000x1_S8000000x8_1_0_0_1_wf a idx upd b g

/-- Entry `(R, g)` of a row gather out of [16, 8]. -/
theorem gath2_apply (a : FVec Ideal ⟨2, ![16, 8]⟩ .f32) (idx : IVec ⟨2, ![8000000, 1]⟩ 32)
    (R : Fin 8000000) (g : Fin 8) :
    Host.gather gather_S16x8_S8000000x1_S8000000x8_1_0_n_n_0_1_18 a idx (ix2 R g)
      = a (ix2 ⟨min (idx (ix2 R (0 : Fin 1))).toInt.toNat (16 - 1), by omega⟩ g) :=
  rowGather2_apply (by decide) Cert.ReferenceIdeal.Gen.gather_S16x8_S8000000x1_S8000000x8_1_0_n_n_0_1_18_wf a idx R g

/-- A row gather by the repeated ids reads the row's own cloud. -/
theorem gath2_own (a : FVec Ideal ⟨2, ![16, 8]⟩ .f32) (idx : IVec ⟨2, ![8000000, 1]⟩ 32) (id : Fin 1000000 → Fin 16)
    (hidx : ∀ R : Fin 8000000, idx (ix2 R (0 : Fin 1)) = BitVec.ofNat 32 (id (rowPt R)).val)
    (R : Fin 8000000) (g : Fin 8) :
    Host.gather gather_S16x8_S8000000x1_S8000000x8_1_0_n_n_0_1_18 a idx (ix2 R g) = a (ix2 (id (rowPt R)) g) := by
  rw [gath2_apply]
  congr 2
  refine Fin.ext ?_
  show min (idx (ix2 R (0 : Fin 1))).toInt.toNat (16 - 1) = (id (rowPt R)).val
  rw [hidx, clamp_small]

/-! ## The stages -/

/-- The scattered ones: eight per point of the cloud. -/
theorem counts_apply (ids : IVec SIv 32) (id : Fin 1000000 → Fin 16)
    (hid : ∀ n : Fin 1000000, ids (ix1 n) = BitVec.ofNat 32 (id n).val) (b : Fin 16) :
    val_main_v6 (F := Ideal) ids (ix1 b) = ((cntR id b * 8 : ℝ) : EReal) := by
  unfold val_main_v6
  rw [scat1_apply, val_main_v4_apply, val_main_cst_0_apply, Ideal.ofBits_def, Ideal.ofBits_zero_f32, zero_add,
    seg_sum (val_main_v5 (F := Ideal) ids) id (col5_apply ids id hid) (fun R => val_main_v3 (F := Ideal) (ix1 R))
      (fun _ _ => 1) (fun R => by rw [val_main_v3_apply, val_main_cst_apply, Ideal.ofBits_def, ofBits_one]) b]
  refine congrArg Real.toEReal ?_
  unfold cntR
  rw [Finset.sum_mul]
  refine Finset.sum_congr rfl fun n _ => ?_
  rw [Finset.sum_const, Finset.card_univ, Fintype.card_fin, nsmul_eq_mul]
  push_cast
  ring

/-- The divisor column: the count, at least one. -/
theorem ct_apply (ids : IVec SIv 32) (id : Fin 1000000 → Fin 16)
    (hid : ∀ n : Fin 1000000, ids (ix1 n) = BitVec.ofNat 32 (id n).val) (b : Fin 16) (z : Fin 1) :
    val_main_v9 (F := Ideal) ids (ix2 b z) = ((ctR id b : ℝ) : EReal) := by
  rw [val_main_v9_apply]
  have hi : idx_main_v9 (ix2 b z) = ix1 b := by
    funext a
    match a with
    | ⟨0, _⟩ => rfl
  rw [hi, val_main_v8_apply, counts_apply ids id hid, val_main_v7_apply, val_main_cst_1_apply, Ideal.maximumf_def,
    Ideal.ofBits_def, ofBits_one]
  exact (EReal.coe_strictMono.monotone.map_max).symm

/-- The divisor is at least one, so it is not zero. -/
theorem ctR_pos (id : Fin 1000000 → Fin 16) (b : Fin 16) : 0 < ctR id b :=
  lt_of_lt_of_le one_pos (le_max_right _ _)

/-- The table of means. -/
theorem mean_apply (x : FVec Ideal SX .f32) (ids : IVec SIv 32)
    (xr : Fin 1000000 → Fin 64 → ℝ) (id : Fin 1000000 → Fin 16)
    (hx : ∀ (n : Fin 1000000) (f : Fin 64), x (ix2 n f) = ((xr n f : ℝ) : EReal))
    (hid : ∀ n : Fin 1000000, ids (ix1 n) = BitVec.ofNat 32 (id n).val) (b : Fin 16) (g : Fin 8) :
    val_main_v14 (F := Ideal) x ids (ix2 b g) = ((muR xr id b g : ℝ) : EReal) := by
  rw [val_main_v14_apply, val_main_v13_apply]
  have hi : idx_main_v13 (ix2 b g) = ix2 b (0 : Fin 1) := by
    funext a
    match a with
    | ⟨0, _⟩ => rfl
    | ⟨1, _⟩ => rfl
  rw [hi, ct_apply ids id hid, Ideal.hostDivf_def, Ideal.div_coe (ctR_pos id b).ne']
  unfold val_main_v12
  rw [scat2_apply, val_main_v10_apply, val_main_cst_2_apply, Ideal.ofBits_def, Ideal.ofBits_zero_f32, zero_add,
    seg_sum (val_main_v11 (F := Ideal) ids) id (col11_apply ids id hid) (fun R => val_main_v0 (F := Ideal) x (ix2 R g))
      (fun n j => xr n (ch j g)) (fun R => cur_apply x xr hx R g) b, ← EReal.coe_mul]
  refine congrArg Real.toEReal ?_
  unfold muR
  exact mul_one_div _ _

/-- The means gathered back to the rows: row `R` reads the mean of its own cloud. -/
theorem meanRow_apply (x : FVec Ideal SX .f32) (ids : IVec SIv 32)
    (xr : Fin 1000000 → Fin 64 → ℝ) (id : Fin 1000000 → Fin 16)
    (hx : ∀ (n : Fin 1000000) (f : Fin 64), x (ix2 n f) = ((xr n f : ℝ) : EReal))
    (hid : ∀ n : Fin 1000000, ids (ix1 n) = BitVec.ofNat 32 (id n).val) (R : Fin 8000000) (g : Fin 8) :
    val_main_v21 (F := Ideal) x ids (ix2 R g) = ((muR xr id (id (rowPt R)) g : ℝ) : EReal) := by
  unfold val_main_v21
  rw [gath2_own _ _ id (col20_apply ids id hid), mean_apply x ids xr id hx hid]

/-- The deviation from the mean, at a row and column. -/
theorem dev_apply (x : FVec Ideal SX .f32) (ids : IVec SIv 32)
    (xr : Fin 1000000 → Fin 64 → ℝ) (id : Fin 1000000 → Fin 16)
    (hx : ∀ (n : Fin 1000000) (f : Fin 64), x (ix2 n f) = ((xr n f : ℝ) : EReal))
    (hid : ∀ n : Fin 1000000, ids (ix1 n) = BitVec.ofNat 32 (id n).val) (R : Fin 8000000) (g : Fin 8) :
    val_main_v22 (F := Ideal) x ids (ix2 R g)
      = ((xr (rowPt R) (ch (rowMem R) g) - muR xr id (id (rowPt R)) g : ℝ) : EReal) := by
  rw [val_main_v22_apply, cur_apply x xr hx, meanRow_apply x ids xr id hx hid, Ideal.subf_def, ← EReal.coe_sub]

/-- Its square. -/
theorem sq_apply (x : FVec Ideal SX .f32) (ids : IVec SIv 32)
    (xr : Fin 1000000 → Fin 64 → ℝ) (id : Fin 1000000 → Fin 16)
    (hx : ∀ (n : Fin 1000000) (f : Fin 64), x (ix2 n f) = ((xr n f : ℝ) : EReal))
    (hid : ∀ n : Fin 1000000, ids (ix1 n) = BitVec.ofNat 32 (id n).val) (R : Fin 8000000) (g : Fin 8) :
    val_main_v23 (F := Ideal) x ids (ix2 R g)
      = (((xr (rowPt R) (ch (rowMem R) g) - muR xr id (id (rowPt R)) g)
          * (xr (rowPt R) (ch (rowMem R) g) - muR xr id (id (rowPt R)) g) : ℝ) : EReal) := by
  rw [val_main_v23_apply, dev_apply x ids xr id hx hid, Ideal.mulf_def, ← EReal.coe_mul]

/-- The table of variances: on the points of cloud `b` the gathered mean is the mean of `b`. -/
theorem var_apply (x : FVec Ideal SX .f32) (ids : IVec SIv 32)
    (xr : Fin 1000000 → Fin 64 → ℝ) (id : Fin 1000000 → Fin 16)
    (hx : ∀ (n : Fin 1000000) (f : Fin 64), x (ix2 n f) = ((xr n f : ℝ) : EReal))
    (hid : ∀ n : Fin 1000000, ids (ix1 n) = BitVec.ofNat 32 (id n).val) (b : Fin 16) (g : Fin 8) :
    val_main_v28 (F := Ideal) x ids (ix2 b g) = ((vR xr id b g : ℝ) : EReal) := by
  rw [val_main_v28_apply, val_main_v27_apply]
  have hi : idx_main_v27 (ix2 b g) = ix2 b (0 : Fin 1) := by
    funext a
    match a with
    | ⟨0, _⟩ => rfl
    | ⟨1, _⟩ => rfl
  rw [hi, ct_apply ids id hid, Ideal.hostDivf_def, Ideal.div_coe (ctR_pos id b).ne']
  unfold val_main_v26
  rw [scat2_apply, val_main_v24_apply, val_main_cst_4_apply, Ideal.ofBits_def, Ideal.ofBits_zero_f32, zero_add,
    seg_sum (val_main_v25 (F := Ideal) ids) id (col25_apply ids id hid)
      (fun R => val_main_v23 (F := Ideal) x ids (ix2 R g))
      (fun n j => (xr n (ch j g) - muR xr id (id n) g) * (xr n (ch j g) - muR xr id (id n) g))
      (fun R => sq_apply x ids xr id hx hid R g) b, ← EReal.coe_mul]
  refine congrArg Real.toEReal ?_
  unfold vR
  have hS : (∑ n : Fin 1000000, ∑ j : Fin 8,
        (if id n = b then (xr n (ch j g) - muR xr id (id n) g) * (xr n (ch j g) - muR xr id (id n) g) else 0))
      = ∑ n : Fin 1000000, ∑ j : Fin 8,
        (if id n = b then (xr n (ch j g) - muR xr id b g) * (xr n (ch j g) - muR xr id b g) else 0) := by
    refine Finset.sum_congr rfl fun n _ => Finset.sum_congr rfl fun j _ => ?_
    split_ifs with h
    · rw [h]
    · rfl
  rw [hS]
  exact mul_one_div _ _

/-- The variances gathered back to the rows. -/
theorem varRow_apply (x : FVec Ideal SX .f32) (ids : IVec SIv 32)
    (xr : Fin 1000000 → Fin 64 → ℝ) (id : Fin 1000000 → Fin 16)
    (hx : ∀ (n : Fin 1000000) (f : Fin 64), x (ix2 n f) = ((xr n f : ℝ) : EReal))
    (hid : ∀ n : Fin 1000000, ids (ix1 n) = BitVec.ofNat 32 (id n).val) (R : Fin 8000000) (g : Fin 8) :
    val_main_v36 (F := Ideal) x ids (ix2 R g) = ((vR xr id (id (rowPt R)) g : ℝ) : EReal) := by
  unfold val_main_v36
  rw [gath2_own _ _ id (col35_apply ids id hid), var_apply x ids xr id hx hid]

/-- A variance is a sum of squares over a positive divisor. -/
theorem vR_nonneg (xr : Fin 1000000 → Fin 64 → ℝ) (id : Fin 1000000 → Fin 16) (b : Fin 16) (g : Fin 8) :
    0 ≤ vR xr id b g := by
  unfold vR
  refine div_nonneg (Finset.sum_nonneg fun n _ => Finset.sum_nonneg fun j _ => ?_) (ctR_pos id b).le
  split_ifs
  · exact mul_self_nonneg _
  · exact le_rfl

/-! ## Back to [1000000, 64] -/

/-- Entry `(n, f)` of the result sits in row `8 n + f / 8` of the layout, column `f % 8`. -/
def outRow (n : Fin 1000000) (f : Fin 64) : Fin 8000000 :=
  ⟨8 * n.val + f.val / 8, by have := n.isLt; have := f.isLt; omega⟩

theorem rowPt_outRow (n : Fin 1000000) (f : Fin 64) : rowPt (outRow n f) = n := by
  refine Fin.ext ?_
  show (8 * n.val + f.val / 8) / 8 = n.val
  have := f.isLt; omega

theorem ch_outRow (n : Fin 1000000) (f : Fin 64) : ch (rowMem (outRow n f)) (grpOf f) = f := by
  refine Fin.ext ?_
  show 8 * ((8 * n.val + f.val / 8) % 8) + f.val % 8 = f.val
  have := f.isLt; omega

/-- The normalised value before scale and shift. -/
theorem normed_apply (x : FVec Ideal SX .f32) (ids : IVec SIv 32)
    (xr : Fin 1000000 → Fin 64 → ℝ) (id : Fin 1000000 → Fin 16) (ε : ℝ)
    (hx : ∀ (n : Fin 1000000) (f : Fin 64), x (ix2 n f) = ((xr n f : ℝ) : EReal))
    (hid : ∀ n : Fin 1000000, ids (ix1 n) = BitVec.ofNat 32 (id n).val)
    (hε : Ideal.ofBits .f32 0x322BCC77#32 = ((ε : ℝ) : EReal)) (hε0 : 0 < ε)
    (n : Fin 1000000) (f : Fin 64) :
    val_main_v41 (F := Ideal) x ids (ix2 n f)
      = (((xr n f - muR xr id (id n) (grpOf f)) / Real.sqrt (vR xr id (id n) (grpOf f) + ε) : ℝ) : EReal) := by
  have hv : 0 < vR xr id (id n) (grpOf f) + ε := add_pos_of_nonneg_of_pos (vR_nonneg xr id (id n) (grpOf f)) hε0
  have hs : Real.sqrt (vR xr id (id n) (grpOf f) + ε) ≠ 0 := (Real.sqrt_pos.mpr hv).ne'
  rw [val_main_v41_apply]
  have hi : idx_main_v41 (ix2 n f) = ix2 (outRow n f) (grpOf f) := by
    funext a
    match a with
    | ⟨0, _⟩ =>
      refine Fin.ext ?_
      show (n.val * 64 + f.val) / 8 = 8 * n.val + f.val / 8
      omega
    | ⟨1, _⟩ =>
      refine Fin.ext ?_
      show (n.val * 64 + f.val) % 8 = f.val % 8
      omega
  rw [hi, val_main_v40_apply, val_main_v29_apply, cur_apply x xr hx, meanRow_apply x ids xr id hx hid,
    val_main_v39_apply, val_main_v38_apply, varRow_apply x ids xr id hx hid, val_main_v37_apply,
    val_main_cst_7_apply, Ideal.ofBits_def, hε, rowPt_outRow, ch_outRow, Ideal.subf_def, Ideal.addf_def,
    Ideal.hostUnary_sqrt_def, Ideal.hostDivf_def, ← EReal.coe_add, ← EReal.coe_sub, Ideal.sqrt_coe,
    if_neg (not_lt.mpr hv.le), Ideal.div_coe hs, ← EReal.coe_mul, mul_one_div]

end Ref

open Cert.ReferenceIdeal.Read Ref in
/-- The reference's result, at a point and channel, is the real function's value. -/
theorem ref_eq (x : FVec Ideal SX .f32) (ids : IVec SIv 32) (gam bet : FVec Ideal SP .f32)
    (xr : Fin 1000000 → Fin 64 → ℝ) (id : Fin 1000000 → Fin 16) (γ β : Fin 64 → ℝ) (ε : ℝ)
    (hx : ∀ (n : Fin 1000000) (f : Fin 64), x (ix2 n f) = ((xr n f : ℝ) : EReal))
    (hid : ∀ n : Fin 1000000, ids (ix1 n) = BitVec.ofNat 32 (id n).val)
    (hγ : ∀ f : Fin 64, gam (ix2 (0 : Fin 1) f) = ((γ f : ℝ) : EReal))
    (hβ : ∀ f : Fin 64, bet (ix2 (0 : Fin 1) f) = ((β f : ℝ) : EReal))
    (hε : Ideal.ofBits .f32 0x322BCC77#32 = ((ε : ℝ) : EReal)) (hε0 : 0 < ε)
    (n : Fin 1000000) (f : Fin 64) :
    Cert.ReferenceIdeal.Read.val_main_v45 (F := Ideal) x ids gam bet (ix2 n f) = ((outR xr id γ β ε n f : ℝ) : EReal) := by
  rw [val_main_v45_apply, val_main_v43_apply, normed_apply x ids xr id ε hx hid hε hε0, val_main_v42_apply,
    val_main_v44_apply]
  have hi42 : idx_main_v42 (ix2 n f) = ix2 (0 : Fin 1) f := by
    funext a
    match a with
    | ⟨0, _⟩ => rfl
    | ⟨1, _⟩ => rfl
  have hi44 : idx_main_v44 (ix2 n f) = ix2 (0 : Fin 1) f := by
    funext a
    match a with
    | ⟨0, _⟩ => rfl
    | ⟨1, _⟩ => rfl
  rw [hi42, hi44, hγ, hβ, Ideal.mulf_def, Ideal.addf_def, ← EReal.coe_mul, ← EReal.coe_add]
  rfl

end Cert.GN

end
-- ==== Proof.PreFacts.lean ====
/-
  What the precondition says of the inputs: every feature, scale and shift is a real number (its absolute value is
  below +∞), and every id is a cloud number: a word that reads, signed, between 0 and 15.

  The precondition is a conjunction of four "for all elements" statements, each an and-reduction over every axis of an
  array of one-bit words.  A conjunction that is 1 has both conjuncts 1; an and-reduction that is 1 met a 1 at every
  element.  At an element, |v| < +∞ on the extended reals excludes both infinities, so v is a real number; and
  0 ≤ w < 16 read signed forces the sign bit of w clear, so w is the word of a natural number below sixteen.
-/
import proofs.«422416_j58806692216853_3_alg».proof.Pre_finite_inputs
import proofs.«422416_j58806692216853_3_alg».proof.Proof.Gen.Pre_finite_inputs
import proofs.«422416_j58806692216853_3_alg».proof.Proof.Spec
import proofs.«422416_j58806692216853_3_alg».proof.Proof.LibRealVariance
import Idealize.ShloMosaic.Lib.ReduceAll
import Idealize.ShloMosaic.Lib.Affine
import Idealize.ShloMosaic.Lib.StableHlo.Predicate
import Idealize.ShloMosaic.Lib.ValueIdx

noncomputable section

namespace Cert.PreFacts

open Idealize.ShloMosaic Idealize.ShloMosaic.ValueIdx
open scoped BigOperators

/-- The scalar shape has exactly one index. -/
instance : Subsingleton Cert.Pre_finite_inputs.S_.Idx := ⟨fun a b => funext fun d => d.elim0⟩

/-- The pattern 0x7F800000 (exponent all ones, fraction zero, sign clear) denotes +∞. -/
theorem ofBits_inf : Ideal.ofBits .f32 0x7F800000#32 = (⊤ : EReal) := by
  simp [Ideal.ofBits, Ideal.ieee]

/-- An element whose absolute value, max v (-v), is strictly below the constant +∞ is a real number. -/
theorem isReal_of_lt_inf {s : Shape} (hb : Cert.Pre_finite_inputs.S_.BroadcastsInDim s ![])
    (v : FVec Ideal s .f32) (i : s.Idx)
    (h : cmpf .olt (Host.absf v)
        (broadcastInDim s ![] hb (constant Cert.Pre_finite_inputs.S_ .f32 0x7F800000#32)) i = 1#1) :
    Cert.Alg.IsReal (v i) := by
  apply Cert.Alg.isReal_of_abs_lt_top
  have h' : BitVec.ofBool (decide (max (v i) (-(v i)) < Ideal.ofBits .f32 0x7F800000#32)) = 1#1 := h
  rw [ofBits_inf, StableHlo.Predicate.ofBool_eq_one_iff] at h'
  exact of_decide_eq_true h'

/-- A 32-bit word w with 0 ≤ w and w < 16, both read signed, is the word of the natural number w < 16:
    a word with its sign bit set reads negative, so the sign bit is clear and the signed reading is the unsigned one. -/
theorem word_lt_sixteen (w : BitVec 32)
    (h : IntOp.andi (IntOp.cmpi .sge w 0#32) (IntOp.cmpi .slt w 16#32) = 1#1) :
    w.toNat < 16 ∧ w = BitVec.ofNat 32 w.toNat := by
  obtain ⟨h1, h2⟩ := IntOp.andi_eq_one.1 h
  rw [IntOp.cmpi_sge] at h1
  rw [IntOp.cmpi_slt] at h2
  have e0 : (0#32 : BitVec 32).toInt = 0 := by decide
  have e16 : (16#32 : BitVec 32).toInt = 16 := by decide
  rw [e0] at h1
  rw [e16] at h2
  have hw : w.toNat < 2 ^ 32 := w.isLt
  rw [BitVec.toInt_eq_toNat_cond] at h1 h2
  refine ⟨by split_ifs at h1 h2 <;> omega, ?_⟩
  apply BitVec.eq_of_toNat_eq
  rw [BitVec.toNat_ofNat, Nat.mod_eq_of_lt hw]

/-- Under the precondition the features, scale and shift are tables of reals and the ids are cloud numbers below sixteen. -/
theorem decode (x : FVec Ideal GN.SX .f32) (ids : IVec GN.SIv 32) (gam bet : FVec Ideal GN.SP .f32)
    (h : Cert.Pre_finite_inputs.fn (F := Ideal) x ids gam bet = fun _ => 1#1) :
    ∃ (xr : Fin 1000000 → Fin 64 → ℝ) (id : Fin 1000000 → Fin 16) (γ β : Fin 64 → ℝ),
      (∀ (n : Fin 1000000) (f : Fin 64), x (ix2 n f) = ((xr n f : ℝ) : EReal))
      ∧ (∀ n : Fin 1000000, ids (ix1 n) = BitVec.ofNat 32 (id n).val)
      ∧ (∀ f : Fin 64, gam (ix2 (0 : Fin 1) f) = ((γ f : ℝ) : EReal))
      ∧ (∀ f : Fin 64, bet (ix2 (0 : Fin 1) f) = ((β f : ℝ) : EReal)) := by
  -- the value of the predicate at its one index, written out as the nested conjunction
  have h0 := congrFun h ValueIdx.ix0
  dsimp only [Cert.Pre_finite_inputs.fn, Cert.Pre_finite_inputs.fn_part1] at h0
  -- ((features ∧ scale) ∧ shift) ∧ ids
  obtain ⟨h123, h4⟩ := IntOp.andi_eq_one.1 h0
  obtain ⟨h12, h3⟩ := IntOp.andi_eq_one.1 h123
  obtain ⟨h1, h2⟩ := IntOp.andi_eq_one.1 h12
  -- each "for all" holds at every element
  have hx : ∀ i, Cert.Alg.IsReal (x i) := fun i =>
    isReal_of_lt_inf _ x i (Host.reduce_andi_all _ _ _ _ _ h1 i)
  have hg : ∀ i, Cert.Alg.IsReal (gam i) := fun i =>
    isReal_of_lt_inf _ gam i (Host.reduce_andi_all _ _ _ _ _ h2 i)
  have hb : ∀ i, Cert.Alg.IsReal (bet i) := fun i =>
    isReal_of_lt_inf _ bet i (Host.reduce_andi_all _ _ _ _ _ h3 i)
  have hi : ∀ i, (ids i).toNat < 16 ∧ ids i = BitVec.ofNat 32 (ids i).toNat := fun i =>
    word_lt_sixteen _ (Host.reduce_andi_all _ _ _ _ _ h4 i)
  -- name the real behind each element
  choose xr hxr using hx
  choose γ hγ using hg
  choose β hβ using hb
  exact ⟨fun n f => xr (ix2 n f), fun n => ⟨(ids (ix1 n)).toNat, (hi _).1⟩,
    fun f => γ (ix2 0 f), fun f => β (ix2 0 f),
    fun n f => hxr _, fun n => (hi _).2, fun f => hγ _, fun f => hβ _⟩

/-- The literal 1e-8 of both programs denotes a positive real: sign clear, exponent field 100, fraction field
    2870391, so the value is (2²³ + 2870391) · 2^(100 − 127 − 23) = 11258999 · 2⁻⁵⁰. -/
theorem eps_pos : ∃ ε : ℝ, 0 < ε ∧ Ideal.ofBits .f32 0x322BCC77#32 = ((ε : ℝ) : EReal) := by
  refine ⟨(11258999 : ℝ) * (2 : ℝ) ^ (-50 : ℤ), by positivity, ?_⟩
  simp [Ideal.ofBits, Ideal.ieee, -EReal.coe_mul]

end Cert.PreFacts

end
-- ==== Proof.lean ====
/-
  Group normalisation of 1,000,000 points with 64 channels, per point cloud (sixteen clouds, named by a per-point
  id) and per group of the eight channels 8 j + g: the kernel's two passes against the reference's
  scatter-and-gather form, equal as extended reals at every point and channel.

  Both compute, over the reals, out[n, f] = (x[n, f] − μ) / √(v + ε) · γ[f] + β[f] with μ and v the mean and the
  mean squared deviation of the point's cloud and the channel's group.  The kernel streams: a first pass adds, per
  cloud, the masked column sums, sums of squares and counts of each block of 20000 rows into three running tables;
  the host forms the tables of means and of 1/√(E[x²] − μ², clipped at 0, + ε); a second pass picks each row's
  cloud by a one-hot product and normalises.  The reference lays the features out as [8000000, 8], takes per-cloud
  sums by scatter-add and per-row values by gather, and divides by √(v + ε).  The two agree because E[x²] − μ² is
  the mean squared deviation when the divisor is the number of terms (eight times a positive count), which is not
  negative, and because (x − μ)·(1/s) is (x − μ)/s for a positive real s.  The precondition supplies what this
  needs: real features, scale and shift, and ids that are cloud numbers below sixteen (outside that range the
  reference's gather wraps or clamps an index and its scatter drops rows, while the one-hot product selects nothing).

  The three frames are the generated ones (the reference's is its generated run with the result dropped); the
  idealization rewrote nothing, so `preserves` is trivial.
-/
import proofs.«422416_j58806692216853_3_alg».proof.Defs
import proofs.«422416_j58806692216853_3_alg».proof.Proof.Gen.Kernel
import proofs.«422416_j58806692216853_3_alg».proof.Proof.Gen.Kernel.Frame
import proofs.«422416_j58806692216853_3_alg».proof.Proof.Gen.KernelIdeal
import proofs.«422416_j58806692216853_3_alg».proof.Proof.Gen.KernelIdeal.Frame
import proofs.«422416_j58806692216853_3_alg».proof.Proof.Gen.ReferenceIdeal
import proofs.«422416_j58806692216853_3_alg».proof.Proof.Gen.Pre_finite_inputs
import proofs.«422416_j58806692216853_3_alg».proof.Proof.Gen.ReferenceIdeal.Run
import proofs.«422416_j58806692216853_3_alg».proof.Proof.Gen.ReferenceIdeal.Read
import proofs.«422416_j58806692216853_3_alg».proof.Proof.Bridge
import proofs.«422416_j58806692216853_3_alg».proof.Proof.KernelAlg
import proofs.«422416_j58806692216853_3_alg».proof.Proof.RefAlg
import proofs.«422416_j58806692216853_3_alg».proof.Proof.PreFacts
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the real function's values: the kernel's run
    leaves the streaming form, the reference's run its composed term, and under the precondition each is the
    function at every point and channel. -/
theorem algebraic : Cert.algebraic_KernelIdeal_ReferenceIdeal := by
  intro m ρ m' ρ' hpre hagree
  refine ⟨fun c => GN.streamOut (m ((c.tc : Thread Cert.KernelIdeal.nD Cert.KernelIdeal.τ).loc Cert.KernelIdeal.main_arg0))
      (Cert.KernelIdeal.Glue.idsCol m c)
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Bridge.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v45_eq, (hagree c).1, (hagree c).2.1, (hagree c).2.2.1, (hagree c).2.2.2]
  obtain ⟨xr, id, γ, β, hx, hid, hγ, hβ⟩ := Cert.PreFacts.decode _ _ _ _ (hpre c)
  obtain ⟨ε, hε0, hε⟩ := Cert.PreFacts.eps_pos
  refine funext fun i => ?_
  obtain ⟨n, f, rfl⟩ : ∃ (n : Fin 1000000) (f : Fin 64), i = ix2 n f := ⟨i 0, i 1, eq_ix2 i⟩
  rw [GN.ref_eq _ _ _ _ xr id γ β ε hx hid hγ hβ hε hε0 n f]
  exact (GN.streamOut_eq _ _ _ _ xr id γ β ε hx
    (fun n => (Cert.KernelIdeal.Bridge.idsCol_apply m c n).trans (hid n)) hγ hβ hε hε0 n f).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
